-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S_ : Shape := ⟨0, ![]⟩

class Facts : Prop where
  bcast_S_S128x200x8 : S_.BroadcastsInDim S128x200x8 (![] : Fin 0 → Fin S128x200x8.rank)
  reducesTo_S128x200x8_S_d0_1_2 : S128x200x8.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg11 : FVec F S256x256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S512x256 .f32) (main_arg8 : FVec F S256 .f32) (main_arg9 : FVec F S256x256 .f32) (main_arg10 : FVec F S256 .f32) (main_arg11 : FVec F S256x256 .f32) (main_arg12 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x200x8 .f32) (main_arg1 : FVec F S8x256 .f32) (main_arg2 : FVec F S256 .f32) (main_arg3 : FVec F S512x256 .f32) (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S128x200x8 .f32 := Host.absf main_arg0
  let main_cst : FVec F S_ .f32 := constant S_ .f32 0x7F800000#32
  let main_v1 : FVec F S128x200x8 .f32 := broadcastInDim S128x200x8 ![] bcast_S_S128x200x8 main_cst
  let main_v2 : IVec S128x200x8 1 := cmpf .olt main_v0 main_v1
  let main_c : IVec S_ 1 := constantI S_ 1 1#1
  let main_v3 : IVec S_ 1 := (fun x v => Host.reduce IntOp.andi x v reducesTo_S128x200x8_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_arg11 main_arg12 main_v13 main_v16
-- ==== Kernel.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S1x256 : Shape := ⟨2, ![1, 256]⟩
abbrev S128x1x256 : Shape := ⟨3, ![128, 1, 256]⟩
abbrev S128x200x200 : Shape := ⟨3, ![128, 200, 200]⟩
abbrev S4x200x8 : Shape := ⟨3, ![4, 200, 8]⟩
abbrev S4x1x256 : Shape := ⟨3, ![4, 1, 256]⟩
abbrev S4x200x200 : Shape := ⟨3, ![4, 200, 200]⟩
abbrev S1x200x8 : Shape := ⟨3, ![1, 200, 8]⟩
abbrev S200x8 : Shape := ⟨2, ![200, 8]⟩
abbrev S200x256 : Shape := ⟨2, ![200, 256]⟩
abbrev S200x200 : Shape := ⟨2, ![200, 200]⟩
abbrev S200 : Shape := ⟨1, ![200]⟩
abbrev S200x1 : Shape := ⟨2, ![200, 1]⟩
abbrev S1x1x256 : Shape := ⟨3, ![1, 1, 256]⟩
abbrev S1x200x200 : Shape := ⟨3, ![1, 200, 200]⟩
abbrev S128x256 : Shape := ⟨2, ![128, 256]⟩

abbrev nBuf : Space → Nat
  | .hbm => 22
  | .vmem => 18
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S128x1x256, .f32⟩
  | .hbm, ⟨20, _⟩ => ⟨S128x200x200, .f32⟩
  | .hbm, ⟨21, _⟩ => ⟨S128x256, .f32⟩
  | .local _ .vmem, ⟨0, _⟩ => ⟨S4x200x8, .f32⟩
  | .local _ .vmem, ⟨1, _⟩ => ⟨S4x200x8, .f32⟩
  | .local _ .vmem, ⟨2, _⟩ => ⟨S8x256, .f32⟩
  | .local _ .vmem, ⟨3, _⟩ => ⟨S1x256, .f32⟩
  | .local _ .vmem, ⟨4, _⟩ => ⟨S512x256, .f32⟩
  | .local _ .vmem, ⟨5, _⟩ => ⟨S1x256, .f32⟩
  | .local _ .vmem, ⟨6, _⟩ => ⟨S512x256, .f32⟩
  | .local _ .vmem, ⟨7, _⟩ => ⟨S1x256, .f32⟩
  | .local _ .vmem, ⟨8, _⟩ => ⟨S512x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S4x1x256, .f32⟩
  | .local _ .vmem, ⟨15, _⟩ => ⟨S4x1x256, .f32⟩
  | .local _ .vmem, ⟨16, _⟩ => ⟨S4x200x200, .f32⟩
  | .local _ .vmem, ⟨17, _⟩ => ⟨S4x200x200, .f32⟩
  | _, _ => ⟨S128x200x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x200x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x200x200 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S256_S1x256 : S256.ShapeCasts S1x256
  inb_S8x256_S8x256_0_0 : ∀ a, (![0, 0] : Fin 2 → Nat) a + S8x256.size a ≤ S8x256.size a
  h_S8x256 : 0 < S8x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  inb_S4x200x8_S1x200x8_0_0_0 : ∀ a, (![0, 0, 0] : Fin 3 → Nat) a + S1x200x8.size a ≤ S4x200x8.size a
  h_S1x200x8 : 0 < S1x200x8.numel
  shapeCasts_S1x200x8_S200x8 : S1x200x8.ShapeCasts S200x8
  broadcasts_S1x256_S200x256 : S1x256.Broadcasts S200x256
  inb_S4x200x8_S1x200x8_1_0_0 : ∀ a, (![1, 0, 0] : Fin 3 → Nat) a + S1x200x8.size a ≤ S4x200x8.size a
  inb_S4x200x8_S1x200x8_2_0_0 : ∀ a, (![2, 0, 0] : Fin 3 → Nat) a + S1x200x8.size a ≤ S4x200x8.size a
  inb_S4x200x8_S1x200x8_3_0_0 : ∀ a, (![3, 0, 0] : Fin 3 → Nat) a + S1x200x8.size a ≤ S4x200x8.size a
  reduces_S200x200_S200 : S200x200.Reduces [1] S200
  shapeCasts_S200_S200x1 : S200.ShapeCasts S200x1
  broadcasts_S200x1_S200x200 : S200x1.Broadcasts S200x200
  slices_S512x256_o0_0_S256x256 : S512x256.Slices ![0, 0] S256x256
  slices_S512x256_o256_0_S256x256 : S512x256.Slices ![256, 0] S256x256
  reduces_S200x256_S256 : S200x256.Reduces [0] S256
  inb_S4x1x256_S1x1x256_0_0_0 : ∀ a, (![0, 0, 0] : Fin 3 → Nat) a + S1x1x256.size a ≤ S4x1x256.size a
  h_S1x1x256 : 0 < S1x1x256.numel
  shapeCasts_S1x1x256_S1x256 : S1x1x256.ShapeCasts S1x256
  shapeCasts_S1x256_S1x1x256 : S1x256.ShapeCasts S1x1x256
  inb_S4x200x200_S1x200x200_0_0_0 : ∀ a, (![0, 0, 0] : Fin 3 → Nat) a + S1x200x200.size a ≤ S4x200x200.size a
  h_S1x200x200 : 0 < S1x200x200.numel
  shapeCasts_S1x200x200_S200x200 : S1x200x200.ShapeCasts S200x200
  shapeCasts_S200x200_S1x200x200 : S200x200.ShapeCasts S1x200x200
  inb_S4x1x256_S1x1x256_1_0_0 : ∀ a, (![1, 0, 0] : Fin 3 → Nat) a + S1x1x256.size a ≤ S4x1x256.size a
  inb_S4x200x200_S1x200x200_1_0_0 : ∀ a, (![1, 0, 0] : Fin 3 → Nat) a + S1x200x200.size a ≤ S4x200x200.size a
  inb_S4x1x256_S1x1x256_2_0_0 : ∀ a, (![2, 0, 0] : Fin 3 → Nat) a + S1x1x256.size a ≤ S4x1x256.size a
  inb_S4x200x200_S1x200x200_2_0_0 : ∀ a, (![2, 0, 0] : Fin 3 → Nat) a + S1x200x200.size a ≤ S4x200x200.size a
  inb_S4x1x256_S1x1x256_3_0_0 : ∀ a, (![3, 0, 0] : Fin 3 → Nat) a + S1x1x256.size a ≤ S4x1x256.size a
  inb_S4x200x200_S1x200x200_3_0_0 : ∀ a, (![3, 0, 0] : Fin 3 → Nat) a + S1x200x200.size a ≤ S4x200x200.size a
  shapeCasts_S128x1x256_S128x256 : S128x1x256.ShapeCasts S128x256
  dot_S200x8_S8x256_S200x256_1_0_0_1_n_n_wf : DotDims.WF S200x8 S8x256 S200x256 [1] [0] [0] [1] [] []
  dot_S200x256_S200x256_S200x200_1_1_0_0_n_n_wf : DotDims.WF S200x256 S200x256 S200x200 [1] [1] [0] [0] [] []
  dot_S200x200_S200x256_S200x256_1_0_0_1_n_n_wf : DotDims.WF S200x200 S200x256 S200x256 [1] [0] [0] [1] [] []
  dot_S200x256_S256x256_S200x256_1_0_0_1_n_n_wf : DotDims.WF S200x256 S256x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x200x8.size a ≤ S128x200x8.size a
  hwx0_0 : ∀ i : grid0.Coords, EltTy.bits .f32 = 32 ∨ (Rect.block (s := S128x200x8) S4x200x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .f32 = 32 ∨ (Rect.block (s := S512x256) S512x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4x1x256.size a ≤ S128x1x256.size a
  hwx0_13 : ∀ i : grid0.Coords, EltTy.bits .f32 = 32 ∨ (Rect.block (s := S128x1x256) S4x1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4x200x200.size a ≤ S128x200x200.size a
  hwx0_14 : ∀ i : grid0.Coords, EltTy.bits .f32 = 32 ∨ (Rect.block (s := S128x200x200) S4x200x200.size (cc0_transform_14 i) (hinb0_14 i)).WholeWords (EltTy.packing .f32)

variable [Facts₀]

def dot_S200x8_S8x256_S200x256_1_0_0_1_n_n : DotDims S200x8 S8x256 S200x256 where
  lhsContracting := [1]
  rhsContracting := [0]
  lhsNonContracting := [0]
  rhsNonContracting := [1]
  lhsBatch := []
  rhsBatch := []
  wf := dot_S200x8_S8x256_S200x256_1_0_0_1_n_n_wf
def dot_S200x256_S200x256_S200x200_1_1_0_0_n_n : DotDims S200x256 S200x256 S200x200 where
  lhsContracting := [1]
  rhsContracting := [1]
  lhsNonContracting := [0]
  rhsNonContracting := [0]
  lhsBatch := []
  rhsBatch := []
  wf := dot_S200x256_S200x256_S200x200_1_1_0_0_n_n_wf
def dot_S200x200_S200x256_S200x256_1_0_0_1_n_n : DotDims S200x200 S200x256 S200x256 where
  lhsContracting := [1]
  rhsContracting := [0]
  lhsNonContracting := [0]
  rhsNonContracting := [1]
  lhsBatch := []
  rhsBatch := []
  wf := dot_S200x200_S200x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf

abbrev win0_0 : Pipeline.Window sig grid0 :=
  Pipeline.Window.ofSpec (Memref.whole main_arg0) S4x200x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6_0) S4x1x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v6_1) S4x200x200.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S128x200x256 : Shape := ⟨3, ![128, 200, 256]⟩
abbrev S1x1x256 : Shape := ⟨3, ![1, 1, 256]⟩
abbrev S_ : Shape := ⟨0, ![]⟩
abbrev S128x200x200 : Shape := ⟨3, ![128, 200, 200]⟩
abbrev S128x200 : Shape := ⟨2, ![128, 200]⟩
abbrev S128x200x1 : Shape := ⟨3, ![128, 200, 1]⟩
abbrev S128x200x512 : Shape := ⟨3, ![128, 200, 512]⟩
abbrev S128x256 : Shape := ⟨2, ![128, 256]⟩

abbrev nBuf : Space → Nat
  | .hbm => 106
  | .vmem => 0
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S128x200x256, .f32⟩
  | .hbm, ⟨14, _⟩ => ⟨S1x1x256, .f32⟩
  | .hbm, ⟨15, _⟩ => ⟨S128x200x256, .f32⟩
  | .hbm, ⟨16, _⟩ => ⟨S128x200x256, .f32⟩
  | .hbm, ⟨17, _⟩ => ⟨S128x200x256, .f32⟩
  | .hbm, ⟨18, _⟩ => ⟨S_, .f32⟩
  | .hbm, ⟨19, _⟩ => ⟨S128x200x200, .f32⟩
  | .hbm, ⟨20, _⟩ => ⟨S128x200x200, .f32⟩
  | .hbm, ⟨21, _⟩ => ⟨S_, .f32⟩
  | .hbm, ⟨22, _⟩ => ⟨S128x200x200, .f32⟩
  | .hbm, ⟨23, _⟩ => ⟨S128x200x200, .f32⟩
  | .hbm, ⟨24, _⟩ => ⟨S_, .f32⟩
  | .hbm, ⟨25, _⟩ => ⟨S128x200, .f32⟩
  | .hbm, ⟨26, _⟩ => ⟨S_, .f32⟩
  | .hbm, ⟨27, _⟩ => ⟨S128x200, .f32⟩
  | .hbm, ⟨28, _⟩ => ⟨S128x200, .f32⟩
  | .hbm, ⟨29, _⟩ => ⟨S128x200x1, .f32⟩
  | .hbm, ⟨30, _⟩ => ⟨S128x200x200, .f32⟩
  | .hbm, ⟨31, _⟩ => ⟨S128x200x200, .f32⟩
  | .hbm, ⟨32, _⟩ => ⟨S128x200x200, .f32⟩
  | .hbm, ⟨33, _⟩ => ⟨S_, .f32⟩
  | .hbm, ⟨34, _⟩ => ⟨S128x200, .f32⟩
  | .hbm, ⟨35, _⟩ => ⟨S128x200x1, .f32⟩
  | .hbm, ⟨36, _⟩ => ⟨S128x200x200, .f32⟩
  | .hbm, ⟨37, _⟩ => ⟨S128x200x200, .f32⟩
  | .hbm, ⟨38, _⟩ => ⟨S128x200x256, .f32⟩
  | .hbm, ⟨39, _⟩ => ⟨S128x200x512, .f32⟩
  | .hbm, ⟨40, _⟩ => ⟨S128x200x256, .f32⟩
  | .hbm, ⟨41, _⟩ => ⟨S1x1x256, .f32⟩
  | .hbm, ⟨42, _⟩ => ⟨S128x200x256, .f32⟩
  | .hbm, ⟨43, _⟩ => ⟨S128x200x256, .f32⟩
  | .hbm, ⟨44, _⟩ => ⟨S128x200x256, .f32⟩
  | .hbm, ⟨45, _⟩ => ⟨S128x200x200, .f32⟩
  | .hbm, ⟨46, _⟩ => ⟨S_, .f32⟩
  | .hbm, ⟨47, _⟩ => ⟨S128x200x200, .f32⟩
  | .hbm, ⟨48, _⟩ => ⟨S128x200x200, .f32⟩
  | .hbm, ⟨49, _⟩ => ⟨S_, .f32⟩
  | .hbm, ⟨50, _⟩ => ⟨S128x200, .f32⟩
  | .hbm, ⟨51, _⟩ => ⟨S_, .f32⟩
  | .hbm, ⟨52, _⟩ => ⟨S128x200, .f32⟩
  | .hbm, ⟨53, _⟩ => ⟨S128x200, .f32⟩
  | .hbm, ⟨54, _⟩ => ⟨S128x200x1, .f32⟩
  | .hbm, ⟨55, _⟩ => ⟨S128x200x200, .f32⟩
  | .hbm, ⟨56, _⟩ => ⟨S128x200x200, .f32⟩
  | .hbm, ⟨57, _⟩ => ⟨S128x200x200, .f32⟩
  | .hbm, ⟨58, _⟩ => ⟨S_, .f32⟩
  | .hbm, ⟨59, _⟩ => ⟨S128x200, .f32⟩
  | .hbm, ⟨60, _⟩ => ⟨S128x200x1, .f32⟩
  | .hbm, ⟨61, _⟩ => ⟨S128x200x200, .f32⟩
  | .hbm, ⟨62, _⟩ => ⟨S128x200x200, .f32⟩
  | .hbm, ⟨63, _⟩ => ⟨S128x200x256, .f32⟩
  | .hbm, ⟨64, _⟩ => ⟨S128x200x512, .f32⟩
  | .hbm, ⟨65, _⟩ => ⟨S128x200x256, .f32⟩
  | .hbm, ⟨66, _⟩ => ⟨S1x1x256, .f32⟩
  | .hbm, ⟨67, _⟩ => ⟨S128x200x256, .f32⟩
  | .hbm, ⟨68, _⟩ => ⟨S128x200x256, .f32⟩
  | .hbm, ⟨69, _⟩ => ⟨S128x200x256, .f32⟩
  | .hbm, ⟨70, _⟩ => ⟨S128x200x200, .f32⟩
  | .hbm, ⟨71, _⟩ => ⟨S_, .f32⟩
  | .hbm, ⟨72, _⟩ => ⟨S128x200x200, .f32⟩
  | .hbm, ⟨73, _⟩ => ⟨S128x200x200, .f32⟩
  | .hbm, ⟨74, _⟩ => ⟨S_, .f32⟩
  | .hbm, ⟨75, _⟩ => ⟨S128x200, .f32⟩
  | .hbm, ⟨76, _⟩ => ⟨S_, .f32⟩
  | .hbm, ⟨77, _⟩ => ⟨S128x200, .f32⟩
  | .hbm, ⟨78, _⟩ => ⟨S128x200, .f32⟩
  | .hbm, ⟨79, _⟩ => ⟨S128x200x1, .f32⟩
  | .hbm, ⟨80, _⟩ => ⟨S128x200x200, .f32⟩
  | .hbm, ⟨81, _⟩ => ⟨S128x200x200, .f32⟩
  | .hbm, ⟨82, _⟩ => ⟨S128x200x200, .f32⟩
  | .hbm, ⟨83, _⟩ => ⟨S_, .f32⟩
  | .hbm, ⟨84, _⟩ => ⟨S128x200, .f32⟩
  | .hbm, ⟨85, _⟩ => ⟨S128x200x1, .f32⟩
  | .hbm, ⟨86, _⟩ => ⟨S128x200x200, .f32⟩
  | .hbm, ⟨87, _⟩ => ⟨S128x200x200, .f32⟩
  | .hbm, ⟨88, _⟩ => ⟨S128x200x256, .f32⟩
  | .hbm, ⟨89, _⟩ => ⟨S128x200x512, .f32⟩
  | .hbm, ⟨90, _⟩ => ⟨S128x200x256, .f32⟩
  | .hbm, ⟨91, _⟩ => ⟨S1x1x256, .f32⟩
  | .hbm, ⟨92, _⟩ => ⟨S128x200x256, .f32⟩
  | .hbm, ⟨93, _⟩ => ⟨S128x200x256, .f32⟩
  | .hbm, ⟨94, _⟩ => ⟨S128x200x256, .f32⟩
  | .hbm, ⟨95, _⟩ => ⟨S128x200x256, .f32⟩
  | .hbm, ⟨96, _⟩ => ⟨S1x1x256, .f32⟩
  | .hbm, ⟨97, _⟩ => ⟨S128x200x256, .f32⟩
  | .hbm, ⟨98, _⟩ => ⟨S128x200x256, .f32⟩
  | .hbm, ⟨99, _⟩ => ⟨S128x200x256, .f32⟩
  | .hbm, ⟨100, _⟩ => ⟨S128x200x256, .f32⟩
  | .hbm, ⟨101, _⟩ => ⟨S1x1x256, .f32⟩
  | .hbm, ⟨102, _⟩ => ⟨S128x200x256, .f32⟩
  | .hbm, ⟨103, _⟩ => ⟨S128x200x256, .f32⟩
  | .hbm, ⟨104, _⟩ => ⟨S_, .f32⟩
  | .hbm, ⟨105, _⟩ => ⟨S128x256, .f32⟩
  | _, _ => ⟨S128x200x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S128x200x256_0_1_2 : S1x1x256.BroadcastsInDim S128x200x256 (![0, 1, 2] : Fin 3 → Fin S128x200x256.rank)
  bcast_S_S128x200x200 : S_.BroadcastsInDim S128x200x200 (![] : Fin 0 → Fin S128x200x200.rank)
  reducesTo_S128x200x200_S128x200_d2 : S128x200x200.ReducesTo [2] S128x200
  h_S_ : 0 < S_.numel
  bcast_S_S128x200 : S_.BroadcastsInDim S128x200 (![] : Fin 0 → Fin S128x200.rank)
  bcast_S128x200_S128x200x1_0_1 : S128x200.BroadcastsInDim S128x200x1 (![0, 1] : Fin 2 → Fin S128x200x1.rank)
  bcast_S128x200x1_S128x200x200_0_1_2 : S128x200x1.BroadcastsInDim S128x200x200 (![0, 1, 2] : Fin 3 → Fin S128x200x200.rank)
  concatenates_S128x200x256_S128x200x256_S128x200x512_d2 : Shape.Concatenates [S128x200x256, S128x200x256] S128x200x512 2
  reducesTo_S128x200x256_S128x256_d1 : S128x200x256.ReducesTo [1] S128x256
  dot_S128x200x8_S8x256_S128x200x256_2_0_01_1_n_n_wf : DotDims.WF S128x200x8 S8x256 S128x200x256 [2] [0] [0, 1] [1] [] []
  dot_S128x200x256_S128x200x256_S128x200x200_2_2_1_1_0_0_wf : DotDims.WF S128x200x256 S128x200x256 S128x200x200 [2] [2] [1] [1] [0] [0]
  dot_S128x200x200_S128x200x256_S128x200x256_2_1_1_2_0_0_wf : DotDims.WF S128x200x200 S128x200x256 S128x200x256 [2] [1] [1] [2] [0] [0]
  dot_S128x200x512_S512x256_S128x200x256_2_0_01_1_n_n_wf : DotDims.WF S128x200x512 S512x256 S128x200x256 [2] [0] [0, 1] [1] [] []
  dot_S128x200x256_S256x256_S128x200x256_2_0_01_1_n_n_wf : DotDims.WF S128x200x256 S256x256 S128x200x256 [2] [0] [0, 1] [1] [] []

variable [Facts₀]

def dot_S128x200x8_S8x256_S128x200x256_2_0_01_1_n_n : DotDims S128x200x8 S8x256 S128x200x256 where
  lhsContracting := [2]
  rhsContracting := [0]
  lhsNonContracting := [0, 1]
  rhsNonContracting := [1]
  lhsBatch := []
  rhsBatch := []
  wf := dot_S128x200x8_S8x256_S128x200x256_2_0_01_1_n_n_wf
def dot_S128x200x256_S128x200x256_S128x200x200_2_2_1_1_0_0 : DotDims S128x200x256 S128x200x256 S128x200x200 where
  lhsContracting := [2]
  rhsContracting := [2]
  lhsNonContracting := [1]
  rhsNonContracting := [1]
  lhsBatch := [0]
  rhsBatch := [0]
  wf := dot_S128x200x256_S128x200x256_S128x200x200_2_2_1_1_0_0_wf
def dot_S128x200x200_S128x200x256_S128x200x256_2_1_1_2_0_0 : DotDims S128x200x200 S128x200x256 S128x200x256 where
  lhsContracting := [2]
  rhsContracting := [1]
  lhsNonContracting := [1]
  rhsNonContracting := [2]
  lhsBatch := [0]
  rhsBatch := [0]
  wf := dot_S128x200x200_S128x200x256_S128x200x256_2_1_1_2_0_0_wf
def dot_S128x200x512_S512x256_S128x200x256_2_0_01_1_n_n : DotDims S128x200x512 S512x256 S128x200x256 where
  lhsContracting := [2]
  rhsContracting := [0]
  lhsNonContracting := [0, 1]
  rhsNonContracting := [1]
  lhsBatch := []
  rhsBatch := []
  wf := dot_S128x200x512_S512x256_S128x200x256_2_0_01_1_n_n_wf
def dot_S128x200x256_S256x256_S128x200x256_2_0_01_1_n_n : DotDims S128x200x256 S256x256 S128x200x256 where
  lhsContracting := [2]
  rhsContracting := [0]
  lhsNonContracting := [0, 1]
  rhsNonContracting := [1]
  lhsBatch := []
  rhsBatch := []
  wf := dot_S128x200x256_S256x256_S128x200x256_2_0_01_1_n_n_wf

class Facts : Prop extends Facts₀ where

variable [Facts]
-- ==== Proof.KerDefs.lean ====
/-
  The kernel's work on ONE jet as whole-vector functions (any float instance): the same stages as the mathematics —
  embedding, scaled Gram matrix, row softmax in two halves, the vertex update through the upper and the lower half
  of the weight, the dense read-out layer, the sum over the nodes plus 200 times the bias — and the two pieces the
  kernel stores for the jet as their composition.
-/
import proofs.«151125_g85813446574462_cont_9to1c4b_288_10_alg».proof.KernelIdeal

noncomputable section

namespace Cert.KernelIdeal.K

open Idealize.ShloMosaic Cert.KernelIdeal Cert.KernelIdeal.Facts₀ Cert.KernelIdeal.Facts

variable {F : FTy → Type} [FloatOps F] [Facts]

/-- A one-row bias as loaded (the body's cast to its own shape). -/
def row (b : Vec F S1x256 .f32) : FVec F S1x256 .f32 := shapeCast S1x256 b shapeCasts_S1x256_S1x256

/-- `tanh (x · W + b)` with an 8-feature input. -/
def embed (x : Vec F S1x200x8 .f32) (W : Vec F S8x256 .f32) (b : FVec F S1x256 .f32) : FVec F S200x256 .f32 :=
  tanh (addf (matmul dot_S200x8_S8x256_S200x256_1_0_0_1_n_n none (shapeCast S200x8 x shapeCasts_S1x200x8_S200x8) W
    (constant S200x256 .f32 0x00000000#32)) (broadcastTo S200x256 b broadcasts_S1x256_S200x256))

/-- Scaled Gram matrix of the rows. -/
def logits (h : FVec F S200x256 .f32) : FVec F S200x200 .f32 :=
  mulf (matmul dot_S200x256_S200x256_S200x200_1_1_0_0_n_n none h h (constant S200x200 .f32 0x00000000#32))
    (broadcast S200x200 (Scalar.ofBits .f32 0x3D800000#32))

/-- A per-row value spread along the row. -/
def col (v : FVec F S200 .f32) : FVec F S200x200 .f32 :=
  broadcastTo S200x200 (shapeCast S200x1 v shapeCasts_S200_S200x1) broadcasts_S200x1_S200x200

/-- Exponential of each entry less its row's maximum. -/
def expm (l : FVec F S200x200 .f32) : FVec F S200x200 .f32 :=
  exp (subf l (col (multiReduction .maximumf [1] S200 l 0xFF800000#32 reduces_S200x200_S200 (.inl rfl) rfl)))

/-- Each entry over its row's sum. -/
def soft (e : FVec F S200x200 .f32) : FVec F S200x200 .f32 :=
  divf e (col (multiReduction .add [1] S200 e 0x00000000#32 reduces_S200x200_S200 (.inl rfl) rfl))

/-- The soft adjacency. -/
def attn (h : FVec F S200x256 .f32) : FVec F S200x200 .f32 := soft (expm (logits h))

/-- A product with a 256-row weight. -/
def mm (h : FVec F S200x256 .f32) (W : FVec F S256x256 .f32) : FVec F S200x256 .f32 :=
  matmul dot_S200x256_S256x256_S200x256_1_0_0_1_n_n none h W (constant S200x256 .f32 0x00000000#32)

/-- The vertex update: the state through the upper rows plus the messages through the lower rows. -/
def update (h : FVec F S200x256 .f32) (A : FVec F S200x200 .f32) (W : Vec F S512x256 .f32) (b : FVec F S1x256 .f32) :
    FVec F S200x256 .f32 :=
  tanh (addf (addf (mm h (extractStridedSlice S256x256 ![0, 0] W slices_S512x256_o0_0_S256x256))
      (mm (matmul dot_S200x200_S200x256_S200x256_1_0_0_1_n_n none A h (constant S200x256 .f32 0x00000000#32))
        (extractStridedSlice S256x256 ![256, 0] W slices_S512x256_o256_0_S256x256)))
    (broadcastTo S200x256 b broadcasts_S1x256_S200x256))

/-- One message-passing step. -/
def step (h : FVec F S200x256 .f32) (W : Vec F S512x256 .f32) (b : FVec F S1x256 .f32) : FVec F S200x256 .f32 :=
  update h (attn h) W b

/-- `tanh (h · W + b)`. -/
def dense (h : FVec F S200x256 .f32) (W : Vec F S256x256 .f32) (b : FVec F S1x256 .f32) : FVec F S200x256 .f32 :=
  tanh (addf (mm h W) (broadcastTo S200x256 b broadcasts_S1x256_S200x256))

/-- The last layer summed over the nodes, plus 200 times the bias, as a one-row matrix. -/
def readoutRow (r : FVec F S200x256 .f32) (W : Vec F S256x256 .f32) (b : FVec F S1x256 .f32) : FVec F S1x256 .f32 :=
  addf (shapeCast S1x256 (multiReduction .add [0] S256 (mm r W) 0x00000000#32 reduces_S200x256_S256 (.inl rfl) rfl) shapeCasts_S256_S1x256)
    (mulf (broadcast S1x256 (Scalar.ofBits .f32 0x43480000#32)) b)

/-- The state after two steps. -/
def h2 (x : Vec F S1x200x8 .f32) (w1 : Vec F S8x256 .f32) (b2 : Vec F S1x256 .f32) (w3 : Vec F S512x256 .f32) (b4 : Vec F S1x256 .f32)
    (w5 : Vec F S512x256 .f32) (b6 : Vec F S1x256 .f32) : FVec F S200x256 .f32 :=
  step (step (embed x w1 (row b2)) w3 (row b4)) w5 (row b6)

/-- The piece stored into the adjacency output for the jet. -/
def jetA (x : Vec F S1x200x8 .f32) (w1 : Vec F S8x256 .f32) (b2 : Vec F S1x256 .f32) (w3 : Vec F S512x256 .f32) (b4 : Vec F S1x256 .f32)
    (w5 : Vec F S512x256 .f32) (b6 : Vec F S1x256 .f32) : FVec F S1x200x200 .f32 :=
  shapeCast S1x200x200 (attn (h2 x w1 b2 w3 b4 w5 b6)) shapeCasts_S200x200_S1x200x200

/-- The piece stored into the read-out output for the jet. -/
def jetOut (x : Vec F S1x200x8 .f32) (w1 : Vec F S8x256 .f32) (b2 : Vec F S1x256 .f32) (w3 : Vec F S512x256 .f32) (b4 : Vec F S1x256 .f32)
    (w5 : Vec F S512x256 .f32) (b6 : Vec F S1x256 .f32) (w7 : Vec F S512x256 .f32) (b8 : Vec F S1x256 .f32)
    (w9 : Vec F S256x256 .f32) (b10 : Vec F S1x256 .f32) (w11 : Vec F S256x256 .f32) (b12 : Vec F S1x256 .f32) : FVec F S1x1x256 .f32 :=
  shapeCast S1x1x256 (readoutRow (dense (step (h2 x w1 b2 w3 b4 w5 b6) w7 (row b8)) w9 (row b10)) w11 (row b12)) shapeCasts_S1x256_S1x1x256

end Cert.KernelIdeal.K

end
-- ==== Proof.KerJets.lean ====
/-
  What the kernel's body leaves in its two output blocks, jet by jet: each of the four stores of an output block holds
  the one-jet function of the jet's slice of the input block and of the weights.
-/
import proofs.«151125_g85813446574462_cont_9to1c4b_288_10_alg».proof.Proof.Gen.KernelIdeal.Frame
import proofs.«151125_g85813446574462_cont_9to1c4b_288_10_alg».proof.Proof.KerDefs

set_option maxRecDepth 16384

noncomputable section

namespace Cert.KernelIdeal.KerJets

open Idealize.ShloMosaic Cert.KernelIdeal Cert.KernelIdeal.Gen

variable {F : FTy → Type} [FloatOps F]

/-- The read-out block after the body: one piece per jet, each the one-jet read-out of that jet's slice. -/
theorem out13_eq (x0 : Vec F S4x200x8 .f32) (x1 : Vec F S8x256 .f32) (x2 : Vec F S1x256 .f32) (x3 : Vec F S512x256 .f32) (x4 : Vec F S1x256 .f32) (x5 : Vec F S512x256 .f32) (x6 : Vec F S1x256 .f32) (x7 : Vec F S512x256 .f32) (x8 : Vec F S1x256 .f32) (x9 : Vec F S256x256 .f32) (x10 : Vec F S1x256 .f32) (x11 : Vec F S256x256 .f32) (x12 : Vec F S1x256 .f32) :
    out0_13 x0 x1 x2 x3 x4 x5 x6 x7 x8 x9 x10 x11 x12 =
      View.canon [⟨r0_14, K.jetOut (View.ld x0 r0_7) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
        ⟨r0_12, K.jetOut (View.ld x0 r0_6) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
        ⟨r0_10, K.jetOut (View.ld x0 r0_5) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
        ⟨r0_8, K.jetOut (View.ld x0 r0_4) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩] := rfl

/-- The adjacency block after the body: one piece per jet. -/
theorem out14_eq (x0 : Vec F S4x200x8 .f32) (x1 : Vec F S8x256 .f32) (x2 : Vec F S1x256 .f32) (x3 : Vec F S512x256 .f32) (x4 : Vec F S1x256 .f32) (x5 : Vec F S512x256 .f32) (x6 : Vec F S1x256 .f32) (x7 : Vec F S512x256 .f32) (x8 : Vec F S1x256 .f32) (x9 : Vec F S256x256 .f32) (x10 : Vec F S1x256 .f32) (x11 : Vec F S256x256 .f32) (x12 : Vec F S1x256 .f32) :
    out0_14 x0 x1 x2 x3 x4 x5 x6 x7 x8 x9 x10 x11 x12 =
      View.canon [⟨r0_15, K.jetA (View.ld x0 r0_7) (View.ld x1 r0_0) (View.ld x2 r0_1) (View.ld x3 r0_2) (View.ld x4 r0_1) (View.ld x5 r0_2) (View.ld x6 r0_1)⟩,
        ⟨r0_13, K.jetA (View.ld x0 r0_6) (View.ld x1 r0_0) (View.ld x2 r0_1) (View.ld x3 r0_2) (View.ld x4 r0_1) (View.ld x5 r0_2) (View.ld x6 r0_1)⟩,
        ⟨r0_11, K.jetA (View.ld x0 r0_5) (View.ld x1 r0_0) (View.ld x2 r0_1) (View.ld x3 r0_2) (View.ld x4 r0_1) (View.ld x5 r0_2) (View.ld x6 r0_1)⟩,
        ⟨r0_9, K.jetA (View.ld x0 r0_4) (View.ld x1 r0_0) (View.ld x2 r0_1) (View.ld x3 r0_2) (View.ld x4 r0_1) (View.ld x5 r0_2) (View.ld x6 r0_1)⟩] := rfl

end Cert.KernelIdeal.KerJets

end
-- ==== Proof.Spec.lean ====
/-
  The mathematics both programs compute for one jet, over plain index types.

  A jet is a 200 × 8 array of node features.  Its hidden state starts as `tanh (x · We + be)` (200 × 256).
  Each of three message-passing steps forms the soft adjacency `A = softmax (h · hᵀ / 16)` row by row
  (the row maximum is subtracted before the exponential), the messages `A · h`, and the new state
  `tanh (h · W_top + (A · h) · W_bot + b)`, where `W_top` and `W_bot` are the upper and lower 256 rows of a
  512 × 256 weight.  The read-out is `Σ_n (tanh (h · Wr1 + br1) · Wr2)_n + 200 · br2`; the second result is the
  adjacency of the third step.  Everything is stated on the extended reals with the operations' exact readings.
-/
import Idealize.ShloMosaic.PureOps.Ideal
import Mathlib.Algebra.BigOperators.Fin
import Mathlib.Data.Finset.Fold

noncomputable section

namespace Cert.Spec

open Idealize.ShloMosaic
open scoped BigOperators

/-- The scale `1/16` and the reductions' `-∞`, as the words both programs spell (never evaluated). -/
abbrev scale : EReal := Ideal.ofBits .f32 0x3D800000#32
abbrev ninf : EReal := Ideal.ofBits .f32 0xFF800000#32

/-- A dense layer with bias under `tanh`. -/
def lin {n K c : ℕ} (x : Fin n → Fin K → EReal) (W : Fin K → Fin c → EReal) (b : Fin c → EReal) :
    Fin n → Fin c → EReal :=
  fun r j => Ideal.tanh ((∑ k, x r k * W k j) + b j)

/-- Scaled Gram matrix of the rows. -/
def logits {n d : ℕ} (h : Fin n → Fin d → EReal) : Fin n → Fin n → EReal :=
  fun r j => (∑ k, h r k * h j k) * scale

/-- Exponential of each entry less its row's maximum. -/
def expm {n : ℕ} (l : Fin n → Fin n → EReal) : Fin n → Fin n → EReal :=
  fun r j => Ideal.exp (l r j - Finset.univ.fold max ninf (l r))

/-- Each entry over its row's sum. -/
def soft {n : ℕ} (e : Fin n → Fin n → EReal) : Fin n → Fin n → EReal :=
  fun r j => Ideal.div (e r j) (∑ k, e r k)

/-- The soft adjacency of a hidden state. -/
def attn {n d : ℕ} (h : Fin n → Fin d → EReal) : Fin n → Fin n → EReal := soft (expm (logits h))

/-- Messages: the adjacency applied to the hidden state. -/
def msg {n d : ℕ} (A : Fin n → Fin n → EReal) (h : Fin n → Fin d → EReal) : Fin n → Fin d → EReal :=
  fun r j => ∑ k, A r k * h k j

/-- Row `k` of the upper half and of the lower half of a 512-row weight. -/
def lo (k : Fin 256) : Fin 512 := ⟨k.val, by omega⟩
def hi (k : Fin 256) : Fin 512 := ⟨256 + k.val, by omega⟩

/-- The vertex update: the state through the upper rows plus the messages through the lower rows. -/
def upd {n c : ℕ} (h g : Fin n → Fin 256 → EReal) (W : Fin 512 → Fin c → EReal) (b : Fin c → EReal) :
    Fin n → Fin c → EReal :=
  fun r j => Ideal.tanh (((∑ k, h r k * W (lo k) j) + (∑ k, g r k * W (hi k) j)) + b j)

/-- One message-passing step. -/
def step {n : ℕ} (h : Fin n → Fin 256 → EReal) (W : Fin 512 → Fin 256 → EReal) (b : Fin 256 → EReal) :
    Fin n → Fin 256 → EReal :=
  upd h (msg (attn h) h) W b

/-- The read-out's last layer summed over the nodes, the bias counted once per node. -/
def out (r : Fin 200 → Fin 256 → EReal) (W : Fin 256 → Fin 256 → EReal) (b : Fin 256 → EReal) : Fin 256 → EReal :=
  fun j => (∑ n, ∑ k, r n k * W k j) + ((200 : ℝ) : EReal) * b j

/-- The twelve weight arrays as plain functions. -/
structure Params where
  We : Fin 8 → Fin 256 → EReal
  be : Fin 256 → EReal
  W0 : Fin 512 → Fin 256 → EReal
  b0 : Fin 256 → EReal
  W1 : Fin 512 → Fin 256 → EReal
  b1 : Fin 256 → EReal
  W2 : Fin 512 → Fin 256 → EReal
  b2 : Fin 256 → EReal
  Wr1 : Fin 256 → Fin 256 → EReal
  br1 : Fin 256 → EReal
  Wr2 : Fin 256 → Fin 256 → EReal
  br2 : Fin 256 → EReal

/-- The hidden state after two steps (the third step's adjacency is taken from it). -/
def h2 (P : Params) (x : Fin 200 → Fin 8 → EReal) : Fin 200 → Fin 256 → EReal :=
  step (step (lin x P.We P.be) P.W0 P.b0) P.W1 P.b1

/-- The second result: the adjacency of the third step. -/
def jetA (P : Params) (x : Fin 200 → Fin 8 → EReal) : Fin 200 → Fin 200 → EReal := attn (h2 P x)

/-- The first result: the read-out of the state after three steps. -/
def jetOut (P : Params) (x : Fin 200 → Fin 8 → EReal) : Fin 256 → EReal :=
  out (lin (step (h2 P x) P.W2 P.b2) P.Wr1 P.br1) P.Wr2 P.br2

/-! ## The three laws that join the two programs -/

/-- A sum over 512 rows is the sum over the upper 256 plus the sum over the lower 256. -/
theorem sum_split (f : Fin 512 → EReal) : ∑ e, f e = (∑ k : Fin 256, f (lo k)) + ∑ k : Fin 256, f (hi k) := by
  have h := Fin.sum_univ_add (M := EReal) (a := 256) (b := 256) f
  refine h.trans ?_
  exact congrArg₂ (· + ·) (Finset.sum_congr rfl fun k _ => congrArg f (Fin.ext (by simp [lo])))
    (Finset.sum_congr rfl fun k _ => congrArg f (Fin.ext (by simp [hi] <;> omega)))

/-- Adding one constant to each of 200 terms adds 200 times it to their sum (true at the infinities too). -/
theorem sum_add_const (a : Fin 200 → EReal) (c : EReal) :
    ∑ n, (a n + c) = (∑ n, a n) + ((200 : ℝ) : EReal) * c := by
  rw [Finset.sum_add_distrib, Finset.sum_const, Finset.card_univ, Fintype.card_fin]
  congr 1
  rw [EReal.nsmul_eq_mul]
  norm_cast

/-- The maximum of a fold's starting value and the fold is the fold. -/
theorem max_fold_self {n : ℕ} (b : EReal) (f : Fin n → EReal) :
    max b (Finset.univ.fold max b f) = Finset.univ.fold max b f :=
  max_eq_right ((Finset.le_fold_max b).mpr (Or.inl le_rfl))

/-- The word `200.0` denotes the real 200. -/
theorem ofBits_200 : Ideal.ofBits .f32 0x43480000#32 = ((200 : ℝ) : EReal) := by
  simp [Ideal.ofBits, Ideal.ieee, -EReal.coe_mul]; norm_num

/-- The zero word denotes 0. -/
theorem ofBits_0 : Ideal.ofBits .f32 0x00000000#32 = 0 := by
  simp [Ideal.ofBits, Ideal.ieee]

end Cert.Spec

end
-- ==== Proof.KerOps.lean ====
/-
  The kernel's vector operations read at an index, at the exact (extended-real) instance: each matrix product as a sum over
  its contracted axis, the bias row and the per-row column spread as the value they repeat, the row maximum as a fold of
  `max`, the row and node sums as sums, the two halves of a 512-row weight, and the unit-axis reshapes.
-/
import proofs.«151125_g85813446574462_cont_9to1c4b_288_10_alg».proof.Proof.KerDefs
import proofs.«151125_g85813446574462_cont_9to1c4b_288_10_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerOps

open Idealize.ShloMosaic Idealize.ShloMosaic.ValueIdx Cert.KernelIdeal Cert.KernelIdeal.Facts₀ Cert.KernelIdeal.Facts
open scoped BigOperators

variable [Facts]

/-! Each operand index of a product, coordinate by coordinate: a free axis carries the output's coordinate on the axis it
maps to, the contracted axis carries the summation index. -/

theorem lhs_emb_0 (i : S200x256.Idx) (q : dot_S200x8_S8x256_S200x256_1_0_0_1_n_n.contr.Idx) :
    (dot_S200x8_S8x256_S200x256_1_0_0_1_n_n.lhsIdx i q 0).val = (i 0).val := by
  unfold DotDims.lhsIdx
  rw [dif_neg (show ¬(0 : Fin S200x8.rank) ∈ dot_S200x8_S8x256_S200x256_1_0_0_1_n_n.lhsBatch from List.not_mem_nil),
    dif_pos (show (0 : Fin S200x8.rank) ∈ dot_S200x8_S8x256_S200x256_1_0_0_1_n_n.lhsNonContracting from List.mem_singleton.mpr rfl)]
  rfl
theorem lhs_emb_1 (i : S200x256.Idx) (q : dot_S200x8_S8x256_S200x256_1_0_0_1_n_n.contr.Idx) :
    (dot_S200x8_S8x256_S200x256_1_0_0_1_n_n.lhsIdx i q 1).val = (q ⟨0, Nat.zero_lt_one⟩).val :=
  dot_S200x8_S8x256_S200x256_1_0_0_1_n_n.lhsIdx_val_of_single rfl i q
theorem rhs_emb_0 (i : S200x256.Idx) (q : dot_S200x8_S8x256_S200x256_1_0_0_1_n_n.contr.Idx) :
    (dot_S200x8_S8x256_S200x256_1_0_0_1_n_n.rhsIdx i q 0).val = (q ⟨0, Nat.zero_lt_one⟩).val :=
  dot_S200x8_S8x256_S200x256_1_0_0_1_n_n.rhsIdx_val_of_single rfl i q
theorem rhs_emb_1 (i : S200x256.Idx) (q : dot_S200x8_S8x256_S200x256_1_0_0_1_n_n.contr.Idx) :
    (dot_S200x8_S8x256_S200x256_1_0_0_1_n_n.rhsIdx i q 1).val = (i 1).val := by
  unfold DotDims.rhsIdx
  rw [dif_neg (show ¬(1 : Fin S8x256.rank) ∈ dot_S200x8_S8x256_S200x256_1_0_0_1_n_n.rhsBatch from List.not_mem_nil),
    dif_pos (show (1 : Fin S8x256.rank) ∈ dot_S200x8_S8x256_S200x256_1_0_0_1_n_n.rhsNonContracting from List.mem_singleton.mpr rfl)]
  rfl

theorem dot_emb (X : FVec Ideal S200x8 .f32) (W : FVec Ideal S8x256 .f32) (r : Fin 200) (j : Fin 256) :
    matmul dot_S200x8_S8x256_S200x256_1_0_0_1_n_n none X W (constant S200x256 .f32 0x00000000#32) (ix2 r j)
      = ∑ k : Fin 8, X (ix2 r k) * W (ix2 k j) := by
  simp only [matmul]
  rw [Ideal.matmul_constant_zero_apply, ← Equiv.sum_comp (ValueIdx.contrEquiv1 dot_S200x8_S8x256_S200x256_1_0_0_1_n_n 8 rfl rfl).symm]
  refine Finset.sum_congr rfl fun k _ => ?_
  have hk := ValueIdx.contrEquiv1_symm_val dot_S200x8_S8x256_S200x256_1_0_0_1_n_n 8 rfl rfl k
  have el : dot_S200x8_S8x256_S200x256_1_0_0_1_n_n.lhsIdx (ix2 r j) ((ValueIdx.contrEquiv1 dot_S200x8_S8x256_S200x256_1_0_0_1_n_n 8 rfl rfl).symm k) = ix2 r k := funext fun a => Fin.ext (by
    match a with
    | ⟨0, _⟩ => exact lhs_emb_0 _ _
    | ⟨1, _⟩ => exact (lhs_emb_1 _ _).trans hk)
  have er : dot_S200x8_S8x256_S200x256_1_0_0_1_n_n.rhsIdx (ix2 r j) ((ValueIdx.contrEquiv1 dot_S200x8_S8x256_S200x256_1_0_0_1_n_n 8 rfl rfl).symm k) = ix2 k j := funext fun a => Fin.ext (by
    match a with
    | ⟨0, _⟩ => exact (rhs_emb_0 _ _).trans hk
    | ⟨1, _⟩ => exact rhs_emb_1 _ _)
  rw [el, er]

theorem lhs_tt_0 (i : S200x200.Idx) (q : dot_S200x256_S200x256_S200x200_1_1_0_0_n_n.contr.Idx) :
    (dot_S200x256_S200x256_S200x200_1_1_0_0_n_n.lhsIdx i q 0).val = (i 0).val := by
  unfold DotDims.lhsIdx
  rw [dif_neg (show ¬(0 : Fin S200x256.rank) ∈ dot_S200x256_S200x256_S200x200_1_1_0_0_n_n.lhsBatch from List.not_mem_nil),
    dif_pos (show (0 : Fin S200x256.rank) ∈ dot_S200x256_S200x256_S200x200_1_1_0_0_n_n.lhsNonContracting from List.mem_singleton.mpr rfl)]
  rfl
theorem lhs_tt_1 (i : S200x200.Idx) (q : dot_S200x256_S200x256_S200x200_1_1_0_0_n_n.contr.Idx) :
    (dot_S200x256_S200x256_S200x200_1_1_0_0_n_n.lhsIdx i q 1).val = (q ⟨0, Nat.zero_lt_one⟩).val :=
  dot_S200x256_S200x256_S200x200_1_1_0_0_n_n.lhsIdx_val_of_single rfl i q
theorem rhs_tt_0 (i : S200x200.Idx) (q : dot_S200x256_S200x256_S200x200_1_1_0_0_n_n.contr.Idx) :
    (dot_S200x256_S200x256_S200x200_1_1_0_0_n_n.rhsIdx i q 0).val = (i 1).val := by
  unfold DotDims.rhsIdx
  rw [dif_neg (show ¬(0 : Fin S200x256.rank) ∈ dot_S200x256_S200x256_S200x200_1_1_0_0_n_n.rhsBatch from List.not_mem_nil),
    dif_pos (show (0 : Fin S200x256.rank) ∈ dot_S200x256_S200x256_S200x200_1_1_0_0_n_n.rhsNonContracting from List.mem_singleton.mpr rfl)]
  rfl
theorem rhs_tt_1 (i : S200x200.Idx) (q : dot_S200x256_S200x256_S200x200_1_1_0_0_n_n.contr.Idx) :
    (dot_S200x256_S200x256_S200x200_1_1_0_0_n_n.rhsIdx i q 1).val = (q ⟨0, Nat.zero_lt_one⟩).val :=
  dot_S200x256_S200x256_S200x200_1_1_0_0_n_n.rhsIdx_val_of_single rfl i q

theorem dot_tt (X Y : FVec Ideal S200x256 .f32) (r j : Fin 200) :
    matmul dot_S200x256_S200x256_S200x200_1_1_0_0_n_n none X Y (constant S200x200 .f32 0x00000000#32) (ix2 r j)
      = ∑ k : Fin 256, X (ix2 r k) * Y (ix2 j k) := by
  simp only [matmul]
  rw [Ideal.matmul_constant_zero_apply, ← Equiv.sum_comp (ValueIdx.contrEquiv1 dot_S200x256_S200x256_S200x200_1_1_0_0_n_n 256 rfl rfl).symm]
  refine Finset.sum_congr rfl fun k _ => ?_
  have hk := ValueIdx.contrEquiv1_symm_val dot_S200x256_S200x256_S200x200_1_1_0_0_n_n 256 rfl rfl k
  have el : dot_S200x256_S200x256_S200x200_1_1_0_0_n_n.lhsIdx (ix2 r j) ((ValueIdx.contrEquiv1 dot_S200x256_S200x256_S200x200_1_1_0_0_n_n 256 rfl rfl).symm k) = ix2 r k := funext fun a => Fin.ext (by
    match a with
    | ⟨0, _⟩ => exact lhs_tt_0 _ _
    | ⟨1, _⟩ => exact (lhs_tt_1 _ _).trans hk)
  have er : dot_S200x256_S200x256_S200x200_1_1_0_0_n_n.rhsIdx (ix2 r j) ((ValueIdx.contrEquiv1 dot_S200x256_S200x256_S200x200_1_1_0_0_n_n 256 rfl rfl).symm k) = ix2 j k := funext fun a => Fin.ext (by
    match a with
    | ⟨0, _⟩ => exact rhs_tt_0 _ _
    | ⟨1, _⟩ => exact (rhs_tt_1 _ _).trans hk)
  rw [el, er]

theorem lhs_av_0 (i : S200x256.Idx) (q : dot_S200x200_S200x256_S200x256_1_0_0_1_n_n.contr.Idx) :
    (dot_S200x200_S200x256_S200x256_1_0_0_1_n_n.lhsIdx i q 0).val = (i 0).val := by
  unfold DotDims.lhsIdx
  rw [dif_neg (show ¬(0 : Fin S200x200.rank) ∈ dot_S200x200_S200x256_S200x256_1_0_0_1_n_n.lhsBatch from List.not_mem_nil),
    dif_pos (show (0 : Fin S200x200.rank) ∈ dot_S200x200_S200x256_S200x256_1_0_0_1_n_n.lhsNonContracting from List.mem_singleton.mpr rfl)]
  rfl
theorem lhs_av_1 (i : S200x256.Idx) (q : dot_S200x200_S200x256_S200x256_1_0_0_1_n_n.contr.Idx) :
    (dot_S200x200_S200x256_S200x256_1_0_0_1_n_n.lhsIdx i q 1).val = (q ⟨0, Nat.zero_lt_one⟩).val :=
  dot_S200x200_S200x256_S200x256_1_0_0_1_n_n.lhsIdx_val_of_single rfl i q
theorem rhs_av_0 (i : S200x256.Idx) (q : dot_S200x200_S200x256_S200x256_1_0_0_1_n_n.contr.Idx) :
    (dot_S200x200_S200x256_S200x256_1_0_0_1_n_n.rhsIdx i q 0).val = (q ⟨0, Nat.zero_lt_one⟩).val :=
  dot_S200x200_S200x256_S200x256_1_0_0_1_n_n.rhsIdx_val_of_single rfl i q
theorem rhs_av_1 (i : S200x256.Idx) (q : dot_S200x200_S200x256_S200x256_1_0_0_1_n_n.contr.Idx) :
    (dot_S200x200_S200x256_S200x256_1_0_0_1_n_n.rhsIdx i q 1).val = (i 1).val := by
  unfold DotDims.rhsIdx
  rw [dif_neg (show ¬(1 : Fin S200x256.rank) ∈ dot_S200x200_S200x256_S200x256_1_0_0_1_n_n.rhsBatch from List.not_mem_nil),
    dif_pos (show (1 : Fin S200x256.rank) ∈ dot_S200x200_S200x256_S200x256_1_0_0_1_n_n.rhsNonContracting from List.mem_singleton.mpr rfl)]
  rfl

theorem dot_av (A : FVec Ideal S200x200 .f32) (H : FVec Ideal S200x256 .f32) (r : Fin 200) (j : Fin 256) :
    matmul dot_S200x200_S200x256_S200x256_1_0_0_1_n_n none A H (constant S200x256 .f32 0x00000000#32) (ix2 r j)
      = ∑ k : Fin 200, A (ix2 r k) * H (ix2 k j) := by
  simp only [matmul]
  rw [Ideal.matmul_constant_zero_apply, ← Equiv.sum_comp (ValueIdx.contrEquiv1 dot_S200x200_S200x256_S200x256_1_0_0_1_n_n 200 rfl rfl).symm]
  refine Finset.sum_congr rfl fun k _ => ?_
  have hk := ValueIdx.contrEquiv1_symm_val dot_S200x200_S200x256_S200x256_1_0_0_1_n_n 200 rfl rfl k
  have el : dot_S200x200_S200x256_S200x256_1_0_0_1_n_n.lhsIdx (ix2 r j) ((ValueIdx.contrEquiv1 dot_S200x200_S200x256_S200x256_1_0_0_1_n_n 200 rfl rfl).symm k) = ix2 r k := funext fun a => Fin.ext (by
    match a with
    | ⟨0, _⟩ => exact lhs_av_0 _ _
    | ⟨1, _⟩ => exact (lhs_av_1 _ _).trans hk)
  have er : dot_S200x200_S200x256_S200x256_1_0_0_1_n_n.rhsIdx (ix2 r j) ((ValueIdx.contrEquiv1 dot_S200x200_S200x256_S200x256_1_0_0_1_n_n 200 rfl rfl).symm k) = ix2 k j := funext fun a => Fin.ext (by
    match a with
    | ⟨0, _⟩ => exact (rhs_av_0 _ _).trans hk
    | ⟨1, _⟩ => exact rhs_av_1 _ _)
  rw [el, er]

theorem lhs_mm_0 (i : S200x256.Idx) (q : dot_S200x256_S256x256_S200x256_1_0_0_1_n_n.contr.Idx) :
    (dot_S200x256_S256x256_S200x256_1_0_0_1_n_n.lhsIdx i q 0).val = (i 0).val := by
  unfold DotDims.lhsIdx
  rw [dif_neg (show ¬(0 : Fin S200x256.rank) ∈ dot_S200x256_S256x256_S200x256_1_0_0_1_n_n.lhsBatch from List.not_mem_nil),
    dif_pos (show (0 : Fin S200x256.rank) ∈ dot_S200x256_S256x256_S200x256_1_0_0_1_n_n.lhsNonContracting from List.mem_singleton.mpr rfl)]
  rfl
theorem lhs_mm_1 (i : S200x256.Idx) (q : dot_S200x256_S256x256_S200x256_1_0_0_1_n_n.contr.Idx) :
    (dot_S200x256_S256x256_S200x256_1_0_0_1_n_n.lhsIdx i q 1).val = (q ⟨0, Nat.zero_lt_one⟩).val :=
  dot_S200x256_S256x256_S200x256_1_0_0_1_n_n.lhsIdx_val_of_single rfl i q
theorem rhs_mm_0 (i : S200x256.Idx) (q : dot_S200x256_S256x256_S200x256_1_0_0_1_n_n.contr.Idx) :
    (dot_S200x256_S256x256_S200x256_1_0_0_1_n_n.rhsIdx i q 0).val = (q ⟨0, Nat.zero_lt_one⟩).val :=
  dot_S200x256_S256x256_S200x256_1_0_0_1_n_n.rhsIdx_val_of_single rfl i q
theorem rhs_mm_1 (i : S200x256.Idx) (q : dot_S200x256_S256x256_S200x256_1_0_0_1_n_n.contr.Idx) :
    (dot_S200x256_S256x256_S200x256_1_0_0_1_n_n.rhsIdx i q 1).val = (i 1).val := by
  unfold DotDims.rhsIdx
  rw [dif_neg (show ¬(1 : Fin S256x256.rank) ∈ dot_S200x256_S256x256_S200x256_1_0_0_1_n_n.rhsBatch from List.not_mem_nil),
    dif_pos (show (1 : Fin S256x256.rank) ∈ dot_S200x256_S256x256_S200x256_1_0_0_1_n_n.rhsNonContracting from List.mem_singleton.mpr rfl)]
  rfl

theorem mm_apply (H : FVec Ideal S200x256 .f32) (W : FVec Ideal S256x256 .f32) (r : Fin 200) (j : Fin 256) :
    K.mm H W (ix2 r j) = ∑ k : Fin 256, H (ix2 r k) * W (ix2 k j) := by
  unfold K.mm
  simp only [matmul]
  rw [Ideal.matmul_constant_zero_apply, ← Equiv.sum_comp (ValueIdx.contrEquiv1 dot_S200x256_S256x256_S200x256_1_0_0_1_n_n 256 rfl rfl).symm]
  refine Finset.sum_congr rfl fun k _ => ?_
  have hk := ValueIdx.contrEquiv1_symm_val dot_S200x256_S256x256_S200x256_1_0_0_1_n_n 256 rfl rfl k
  have el : dot_S200x256_S256x256_S200x256_1_0_0_1_n_n.lhsIdx (ix2 r j) ((ValueIdx.contrEquiv1 dot_S200x256_S256x256_S200x256_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S200x256_S256x256_S200x256_1_0_0_1_n_n.rhsIdx (ix2 r j) ((ValueIdx.contrEquiv1 dot_S200x256_S256x256_S200x256_1_0_0_1_n_n 256 rfl rfl).symm k) = ix2 k j := funext fun a => Fin.ext (by
    match a with
    | ⟨0, _⟩ => exact (rhs_mm_0 _ _).trans hk
    | ⟨1, _⟩ => exact rhs_mm_1 _ _)
  rw [el, er]

theorem cast_x (x : FVec Ideal S1x200x8 .f32) (r : Fin 200) (k : Fin 8) :
    shapeCast S200x8 x shapeCasts_S1x200x8_S200x8 (ix2 r k) = x (ix3 0 r k) :=
  shapeCast_1ab_ab_apply x _ r k

theorem row_eq (b : FVec Ideal S1x256 .f32) : K.row b = b := by
  unfold K.row
  exact shapeCast_self b _

theorem bias_apply (v : FVec Ideal S1x256 .f32) (r : Fin 200) (j : Fin 256) :
    broadcastTo S200x256 v broadcasts_S1x256_S200x256 (ix2 r j) = v (ix2 0 j) :=
  broadcastTo_1b_ab_apply v _ r j

theorem col_apply (v : FVec Ideal S200 .f32) (r j : Fin 200) : K.col v (ix2 r j) = v (ix1 r) := by
  unfold K.col
  refine (broadcastTo_apply (shapeCast S200x1 v shapeCasts_S200_S200x1) broadcasts_S200x1_S200x200 (ix2 r j)
    (ix2 r (0 : Fin 1)) fun a => ?_).trans ?_
  · match a with
    | ⟨0, _⟩ => rfl
    | ⟨1, _⟩ => rfl
  · exact shapeCast_apply v _ (ix2 r (0 : Fin 1)) (ix1 r) (by
      rw [Shape.rowMajor_val_one, Shape.rowMajor_val_two]
      show r.val = r.val * 1 + 0
      omega)

theorem rmax_apply (X : FVec Ideal S200x200 .f32) (r : Fin 200) :
    multiReduction .maximumf [1] S200 X 0xFF800000#32 reduces_S200x200_S200 (.inl rfl) rfl (ix1 r)
      = Finset.univ.fold max (Ideal.ofBits .f32 0xFF800000#32) (fun k : Fin 200 => X (ix2 r k)) := by
  refine (Ideal.multiReduction_maximumf_single X _ reduces_S200x200_S200 _ _ (ix1 r)).trans ?_
  have hf : (X ∘ reduces_S200x200_S200.lift (ix1 r)) = fun k : Fin 200 => X (ix2 r k) :=
    funext fun k => congrArg X (funext fun a => Fin.ext (by
      match a with
      | ⟨0, _⟩ => rfl
      | ⟨1, _⟩ => rfl))
  rw [hf]
  rfl

theorem rsum1_apply (X : FVec Ideal S200x200 .f32) (r : Fin 200) :
    multiReduction .add [1] S200 X 0x00000000#32 reduces_S200x200_S200 (.inl rfl) rfl (ix1 r) = ∑ k : Fin 200, X (ix2 r k) := by
  refine (Ideal.multiReduction_add_single X _ reduces_S200x200_S200 _ _ (ix1 r)).trans ?_
  exact Finset.sum_congr rfl fun k _ => congrArg X (funext fun a => Fin.ext (by
    match a with
    | ⟨0, _⟩ => rfl
    | ⟨1, _⟩ => rfl))

theorem rsum0_apply (X : FVec Ideal S200x256 .f32) (j : Fin 256) :
    multiReduction .add [0] S256 X 0x00000000#32 reduces_S200x256_S256 (.inl rfl) rfl (ix1 j) = ∑ n : Fin 200, X (ix2 n j) := by
  refine (Ideal.multiReduction_add_single X _ reduces_S200x256_S256 _ _ (ix1 j)).trans ?_
  exact Finset.sum_congr rfl fun n _ => congrArg X (funext fun a => Fin.ext (by
    match a with
    | ⟨0, _⟩ => rfl
    | ⟨1, _⟩ => rfl))

theorem slice_lo (W : FVec Ideal S512x256 .f32) (k j : Fin 256) :
    extractStridedSlice S256x256 ![0, 0] W slices_S512x256_o0_0_S256x256 (ix2 k j) = W (ix2 (Spec.lo k) j) := by
  refine extractStridedSlice_apply ![0, 0] W slices_S512x256_o0_0_S256x256 (ix2 k j) (ix2 (Spec.lo k) j) fun a => ?_
  match a with
  | ⟨0, _⟩ => simp [Spec.lo]
  | ⟨1, _⟩ => simp

theorem slice_hi (W : FVec Ideal S512x256 .f32) (k j : Fin 256) :
    extractStridedSlice S256x256 ![256, 0] W slices_S512x256_o256_0_S256x256 (ix2 k j) = W (ix2 (Spec.hi k) j) := by
  refine extractStridedSlice_apply ![256, 0] W slices_S512x256_o256_0_S256x256 (ix2 k j) (ix2 (Spec.hi k) j) fun a => ?_
  match a with
  | ⟨0, _⟩ => simp [Spec.hi]
  | ⟨1, _⟩ => simp

theorem cast_row (v : FVec Ideal S256 .f32) (j : Fin 256) :
    shapeCast S1x256 v shapeCasts_S256_S1x256 (ix2 0 j) = v (ix1 j) :=
  shapeCast_a_1a_apply v _ 0 j

theorem cast_out (v : FVec Ideal S1x256 .f32) (j : Fin 256) :
    shapeCast S1x1x256 v shapeCasts_S1x256_S1x1x256 (ix3 0 0 j) = v (ix2 0 j) :=
  shapeCast_ab_1ab_apply v _ 0 0 j

theorem cast_adj (a : FVec Ideal S200x200 .f32) (r j : Fin 200) :
    shapeCast S1x200x200 a shapeCasts_S200x200_S1x200x200 (ix3 0 r j) = a (ix2 r j) :=
  shapeCast_ab_1ab_apply a _ 0 r j

end Cert.KernelIdeal.KerOps

end
-- ==== Proof.Result.lean ====
/-
  The two results as whole-array functions of the thirteen argument arrays: jet `b` of the first argument is run
  through the one-jet mathematics with the weights read off the other twelve arrays.
-/
import proofs.«151125_g85813446574462_cont_9to1c4b_288_10_alg».proof.Proof.Spec
import Idealize.ShloMosaic.Lib.ValueIdx

noncomputable section

namespace Cert.Result

open Idealize.ShloMosaic Idealize.ShloMosaic.ValueIdx

/-- Arrays of extended reals over literal shapes. -/
abbrev A1 (a : ℕ) : Type := (⟨1, ![a]⟩ : Shape).Idx → EReal
abbrev A2 (a b : ℕ) : Type := (⟨2, ![a, b]⟩ : Shape).Idx → EReal
abbrev A3 (a b c : ℕ) : Type := (⟨3, ![a, b, c]⟩ : Shape).Idx → EReal

/-- The weights read off the argument arrays (biases of rank one). -/
def params (a1 : A2 8 256) (a2 : A1 256) (a3 : A2 512 256) (a4 : A1 256) (a5 : A2 512 256) (a6 : A1 256)
    (a7 : A2 512 256) (a8 : A1 256) (a9 : A2 256 256) (a10 : A1 256) (a11 : A2 256 256) (a12 : A1 256) : Spec.Params where
  We := fun k j => a1 (ix2 k j)
  be := fun j => a2 (ix1 j)
  W0 := fun k j => a3 (ix2 k j)
  b0 := fun j => a4 (ix1 j)
  W1 := fun k j => a5 (ix2 k j)
  b1 := fun j => a6 (ix1 j)
  W2 := fun k j => a7 (ix2 k j)
  b2 := fun j => a8 (ix1 j)
  Wr1 := fun k j => a9 (ix2 k j)
  br1 := fun j => a10 (ix1 j)
  Wr2 := fun k j => a11 (ix2 k j)
  br2 := fun j => a12 (ix1 j)

/-- The same weights where the biases come as one-row matrices. -/
def paramsRow (a1 : A2 8 256) (a2 : A2 1 256) (a3 : A2 512 256) (a4 : A2 1 256) (a5 : A2 512 256) (a6 : A2 1 256)
    (a7 : A2 512 256) (a8 : A2 1 256) (a9 : A2 256 256) (a10 : A2 1 256) (a11 : A2 256 256) (a12 : A2 1 256) : Spec.Params where
  We := fun k j => a1 (ix2 k j)
  be := fun j => a2 (ix2 0 j)
  W0 := fun k j => a3 (ix2 k j)
  b0 := fun j => a4 (ix2 0 j)
  W1 := fun k j => a5 (ix2 k j)
  b1 := fun j => a6 (ix2 0 j)
  W2 := fun k j => a7 (ix2 k j)
  b2 := fun j => a8 (ix2 0 j)
  Wr1 := fun k j => a9 (ix2 k j)
  br1 := fun j => a10 (ix2 0 j)
  Wr2 := fun k j => a11 (ix2 k j)
  br2 := fun j => a12 (ix2 0 j)

/-- Jet `b` of a stack of jets. -/
def jet {B : ℕ} (a0 : A3 B 200 8) (b : Fin B) : Fin 200 → Fin 8 → EReal := fun r f => a0 (ix3 b r f)

/-- The second result: every jet's third-step adjacency. -/
def GA (a0 : A3 128 200 8) (a1 : A2 8 256) (a2 : A1 256) (a3 : A2 512 256) (a4 : A1 256) (a5 : A2 512 256) (a6 : A1 256)
    (a7 : A2 512 256) (a8 : A1 256) (a9 : A2 256 256) (a10 : A1 256) (a11 : A2 256 256) (a12 : A1 256) : A3 128 200 200 :=
  fun i => Spec.jetA (params a1 a2 a3 a4 a5 a6 a7 a8 a9 a10 a11 a12) (jet a0 (i 0)) (i 1) (i 2)

/-- The first result: every jet's read-out. -/
def GOut (a0 : A3 128 200 8) (a1 : A2 8 256) (a2 : A1 256) (a3 : A2 512 256) (a4 : A1 256) (a5 : A2 512 256) (a6 : A1 256)
    (a7 : A2 512 256) (a8 : A1 256) (a9 : A2 256 256) (a10 : A1 256) (a11 : A2 256 256) (a12 : A1 256) : A2 128 256 :=
  fun i => Spec.jetOut (params a1 a2 a3 a4 a5 a6 a7 a8 a9 a10 a11 a12) (jet a0 (i 0)) (i 1)

end Cert.Result

end
-- ==== Proof.KerStages.lean ====
/-
  The kernel's one-jet stages read at an index: each is the corresponding stage of the mathematics applied to the
  operands read as plain matrices, and so are the two pieces stored for a jet.
-/
import proofs.«151125_g85813446574462_cont_9to1c4b_288_10_alg».proof.Proof.KerOps
import proofs.«151125_g85813446574462_cont_9to1c4b_288_10_alg».proof.Proof.Result

noncomputable section

namespace Cert.KernelIdeal.KerStages

open Idealize.ShloMosaic Idealize.ShloMosaic.ValueIdx Cert.KernelIdeal Cert.KernelIdeal.Facts₀ Cert.KernelIdeal.Facts
open scoped BigOperators

variable [Facts]

theorem embed_apply (x : FVec Ideal S1x200x8 .f32) (W : FVec Ideal S8x256 .f32) (b : FVec Ideal S1x256 .f32) (r : Fin 200) (j : Fin 256) :
    K.embed x W b (ix2 r j) = Spec.lin (fun r k => x (ix3 0 r k)) (fun k j => W (ix2 k j)) (fun j => b (ix2 0 j)) r j := by
  unfold K.embed Spec.lin
  show Ideal.tanh (_ + _) = _
  rw [KerOps.dot_emb, KerOps.bias_apply]
  simp only [KerOps.cast_x]

theorem logits_apply (h : FVec Ideal S200x256 .f32) (r j : Fin 200) :
    K.logits h (ix2 r j) = Spec.logits (fun r k => h (ix2 r k)) r j := by
  unfold K.logits Spec.logits
  rw [mulf_apply, KerOps.dot_tt]
  rfl

theorem expm_apply (l : FVec Ideal S200x200 .f32) (r j : Fin 200) :
    K.expm l (ix2 r j) = Spec.expm (fun r k => l (ix2 r k)) r j := by
  unfold K.expm Spec.expm
  show Ideal.exp (_ - _) = _
  rw [KerOps.col_apply, KerOps.rmax_apply]

theorem soft_apply (e : FVec Ideal S200x200 .f32) (r j : Fin 200) :
    K.soft e (ix2 r j) = Spec.soft (fun r k => e (ix2 r k)) r j := by
  unfold K.soft Spec.soft
  rw [divf_apply, KerOps.col_apply, KerOps.rsum1_apply]

theorem attn_apply (h : FVec Ideal S200x256 .f32) (r j : Fin 200) :
    K.attn h (ix2 r j) = Spec.attn (fun r k => h (ix2 r k)) r j := by
  unfold K.attn Spec.attn
  rw [soft_apply]
  have h1 : (fun r k => K.expm (K.logits h) (ix2 r k)) = Spec.expm (Spec.logits (fun r k => h (ix2 r k))) := by
    funext r k
    rw [expm_apply]
    have h2 : (fun r k => K.logits h (ix2 r k)) = Spec.logits (fun r k => h (ix2 r k)) := by
      funext r k; exact logits_apply h r k
    rw [h2]
  rw [h1]

theorem update_apply (h : FVec Ideal S200x256 .f32) (A : FVec Ideal S200x200 .f32) (W : FVec Ideal S512x256 .f32) (b : FVec Ideal S1x256 .f32)
    (r : Fin 200) (j : Fin 256) :
    K.update h A W b (ix2 r j)
      = Spec.upd (fun r k => h (ix2 r k)) (Spec.msg (fun r k => A (ix2 r k)) (fun r k => h (ix2 r k))) (fun e j => W (ix2 e j)) (fun j => b (ix2 0 j)) r j := by
  unfold K.update Spec.upd Spec.msg
  show Ideal.tanh ((_ + _) + _) = _
  rw [KerOps.mm_apply, KerOps.mm_apply, KerOps.bias_apply]
  simp only [KerOps.slice_lo, KerOps.slice_hi, KerOps.dot_av]

theorem step_apply (h : FVec Ideal S200x256 .f32) (W : FVec Ideal S512x256 .f32) (b : FVec Ideal S1x256 .f32) (r : Fin 200) (j : Fin 256) :
    K.step h W b (ix2 r j) = Spec.step (fun r k => h (ix2 r k)) (fun e j => W (ix2 e j)) (fun j => b (ix2 0 j)) r j := by
  unfold K.step Spec.step
  rw [update_apply]
  have h1 : (fun r k => K.attn h (ix2 r k)) = Spec.attn (fun r k => h (ix2 r k)) := by
    funext r k; exact attn_apply h r k
  rw [h1]

theorem dense_apply (h : FVec Ideal S200x256 .f32) (W : FVec Ideal S256x256 .f32) (b : FVec Ideal S1x256 .f32) (r : Fin 200) (j : Fin 256) :
    K.dense h W b (ix2 r j) = Spec.lin (fun r k => h (ix2 r k)) (fun k j => W (ix2 k j)) (fun j => b (ix2 0 j)) r j := by
  unfold K.dense Spec.lin
  show Ideal.tanh (_ + _) = _
  rw [KerOps.mm_apply, KerOps.bias_apply]

theorem readoutRow_apply (r : FVec Ideal S200x256 .f32) (W : FVec Ideal S256x256 .f32) (b : FVec Ideal S1x256 .f32) (j : Fin 256) :
    K.readoutRow r W b (ix2 0 j) = Spec.out (fun n k => r (ix2 n k)) (fun k j => W (ix2 k j)) (fun j => b (ix2 0 j)) j := by
  unfold K.readoutRow Spec.out
  rw [addf_apply, mulf_apply, KerOps.cast_row, KerOps.rsum0_apply, broadcast_apply]
  simp only [KerOps.mm_apply]
  exact congrArg (fun t => _ + t * b (ix2 0 j)) Spec.ofBits_200

/-- The state after two steps, read as a plain matrix, is the mathematics' state after two steps. -/
theorem h2_apply (x : FVec Ideal S1x200x8 .f32) (w1 : FVec Ideal S8x256 .f32) (b2 : FVec Ideal S1x256 .f32) (w3 : FVec Ideal S512x256 .f32) (b4 : FVec Ideal S1x256 .f32) (w5 : FVec Ideal S512x256 .f32) (b6 : FVec Ideal S1x256 .f32) (w7 : FVec Ideal S512x256 .f32) (b8 : FVec Ideal S1x256 .f32) (w9 : FVec Ideal S256x256 .f32) (b10 : FVec Ideal S1x256 .f32) (w11 : FVec Ideal S256x256 .f32) (b12 : FVec Ideal S1x256 .f32) :
    (fun r k => K.h2 (F := Ideal) x w1 b2 w3 b4 w5 b6 (ix2 r k))
      = Spec.h2 (Result.paramsRow w1 b2 w3 b4 w5 b6 w7 b8 w9 b10 w11 b12) (fun r f => x (ix3 0 r f)) := by
  funext r k
  unfold K.h2 Spec.h2
  rw [KerOps.row_eq, KerOps.row_eq, KerOps.row_eq, step_apply]
  have e1 : (fun r k => K.step (K.embed x w1 b2) w3 b4 (ix2 r k))
      = Spec.step (Spec.lin (fun r f => x (ix3 0 r f)) (fun k j => w1 (ix2 k j)) (fun j => b2 (ix2 0 j))) (fun e j => w3 (ix2 e j)) (fun j => b4 (ix2 0 j)) := by
    funext r k
    rw [step_apply]
    have e0 : (fun r k => K.embed x w1 b2 (ix2 r k))
        = Spec.lin (fun r f => x (ix3 0 r f)) (fun k j => w1 (ix2 k j)) (fun j => b2 (ix2 0 j)) := by
      funext r k; exact embed_apply x w1 b2 r k
    rw [e0]
  rw [e1]
  rfl

/-- The adjacency piece of a jet is the mathematics' adjacency of that jet. -/
theorem jetA_apply (x : FVec Ideal S1x200x8 .f32) (w1 : FVec Ideal S8x256 .f32) (b2 : FVec Ideal S1x256 .f32) (w3 : FVec Ideal S512x256 .f32) (b4 : FVec Ideal S1x256 .f32) (w5 : FVec Ideal S512x256 .f32) (b6 : FVec Ideal S1x256 .f32) (w7 : FVec Ideal S512x256 .f32) (b8 : FVec Ideal S1x256 .f32) (w9 : FVec Ideal S256x256 .f32) (b10 : FVec Ideal S1x256 .f32) (w11 : FVec Ideal S256x256 .f32) (b12 : FVec Ideal S1x256 .f32) (r j : Fin 200) :
    K.jetA (F := Ideal) x w1 b2 w3 b4 w5 b6 (ix3 0 r j)
      = Spec.jetA (Result.paramsRow w1 b2 w3 b4 w5 b6 w7 b8 w9 b10 w11 b12) (fun r f => x (ix3 0 r f)) r j := by
  unfold K.jetA Spec.jetA
  rw [KerOps.cast_adj, attn_apply, h2_apply x w1 b2 w3 b4 w5 b6 w7 b8 w9 b10 w11 b12]

/-- The read-out piece of a jet is the mathematics' read-out of that jet. -/
theorem jetOut_apply (x : FVec Ideal S1x200x8 .f32) (w1 : FVec Ideal S8x256 .f32) (b2 : FVec Ideal S1x256 .f32) (w3 : FVec Ideal S512x256 .f32) (b4 : FVec Ideal S1x256 .f32) (w5 : FVec Ideal S512x256 .f32) (b6 : FVec Ideal S1x256 .f32) (w7 : FVec Ideal S512x256 .f32) (b8 : FVec Ideal S1x256 .f32) (w9 : FVec Ideal S256x256 .f32) (b10 : FVec Ideal S1x256 .f32) (w11 : FVec Ideal S256x256 .f32) (b12 : FVec Ideal S1x256 .f32) (j : Fin 256) :
    K.jetOut (F := Ideal) x w1 b2 w3 b4 w5 b6 w7 b8 w9 b10 w11 b12 (ix3 0 0 j)
      = Spec.jetOut (Result.paramsRow w1 b2 w3 b4 w5 b6 w7 b8 w9 b10 w11 b12) (fun r f => x (ix3 0 r f)) j := by
  unfold K.jetOut Spec.jetOut
  rw [KerOps.cast_out, KerOps.row_eq, KerOps.row_eq, KerOps.row_eq, readoutRow_apply]
  have e1 : (fun n k => K.dense (K.step (K.h2 (F := Ideal) x w1 b2 w3 b4 w5 b6) w7 b8) w9 b10 (ix2 n k))
      = Spec.lin (Spec.step (Spec.h2 (Result.paramsRow w1 b2 w3 b4 w5 b6 w7 b8 w9 b10 w11 b12) (fun r f => x (ix3 0 r f)))
          (fun e j => w7 (ix2 e j)) (fun j => b8 (ix2 0 j))) (fun k j => w9 (ix2 k j)) (fun j => b10 (ix2 0 j)) := by
    funext n k
    rw [dense_apply]
    have e0 : (fun r k => K.step (K.h2 (F := Ideal) x w1 b2 w3 b4 w5 b6) w7 b8 (ix2 r k))
        = Spec.step (Spec.h2 (Result.paramsRow w1 b2 w3 b4 w5 b6 w7 b8 w9 b10 w11 b12) (fun r f => x (ix3 0 r f)))
            (fun e j => w7 (ix2 e j)) (fun j => b8 (ix2 0 j)) := by
      funext r k
      rw [step_apply, h2_apply x w1 b2 w3 b4 w5 b6 w7 b8 w9 b10 w11 b12]
    rw [e0]
  rw [e1]
  rfl

end Cert.KernelIdeal.KerStages

end
-- ==== Proof.KerBlocks.lean ====
/-
  The kernel's two output blocks read at an index: entry (q, ·) of a block is the mathematics' result for jet q of the
  input block.
-/
import proofs.«151125_g85813446574462_cont_9to1c4b_288_10_alg».proof.Proof.KerJets
import proofs.«151125_g85813446574462_cont_9to1c4b_288_10_alg».proof.Proof.KerStages
import Idealize.ShloMosaic.Lib.Pipeline.Value

set_option maxRecDepth 16384

noncomputable section

namespace Cert.KernelIdeal.KerBlocks

open Idealize.ShloMosaic Idealize.ShloMosaic.ValueIdx Cert.KernelIdeal Cert.KernelIdeal.Gen

theorem hz2 : (![0, 0] : Fin 2 → Nat) = fun _ => 0 := by
  funext a; match a with | ⟨0, _⟩ => rfl | ⟨1, _⟩ => rfl

/-- A load through a whole-buffer rectangle reads the buffer. -/
theorem ld0 (x : Vec Ideal S8x256 .f32) : View.ld x r0_0 = x := View.ld_unit_zero hz2 _ x
theorem ld1 (x : Vec Ideal S1x256 .f32) : View.ld x r0_1 = x := View.ld_unit_zero hz2 _ x
theorem ld2 (x : Vec Ideal S512x256 .f32) : View.ld x r0_2 = x := View.ld_unit_zero hz2 _ x
theorem ld3 (x : Vec Ideal S256x256 .f32) : View.ld x r0_3 = x := View.ld_unit_zero hz2 _ x

/-- A load through the box of jet q reads jet q. -/
theorem ld4 (x0 : Vec Ideal S4x200x8 .f32) (r : Fin 200) (f : Fin 8) : View.ld x0 r0_4 (ix3 0 r f) = x0 (ix3 0 r f) := by
  show x0 _ = x0 _
  refine congrArg x0 (funext fun a => Fin.ext ?_)
  match a with
  | ⟨0, _⟩ => rfl
  | ⟨1, _⟩ => show 0 + 1 * r.val = r.val; omega
  | ⟨2, _⟩ => show 0 + 1 * f.val = f.val; omega
theorem ld5 (x0 : Vec Ideal S4x200x8 .f32) (r : Fin 200) (f : Fin 8) : View.ld x0 r0_5 (ix3 0 r f) = x0 (ix3 1 r f) := by
  show x0 _ = x0 _
  refine congrArg x0 (funext fun a => Fin.ext ?_)
  match a with
  | ⟨0, _⟩ => rfl
  | ⟨1, _⟩ => show 0 + 1 * r.val = r.val; omega
  | ⟨2, _⟩ => show 0 + 1 * f.val = f.val; omega
theorem ld6 (x0 : Vec Ideal S4x200x8 .f32) (r : Fin 200) (f : Fin 8) : View.ld x0 r0_6 (ix3 0 r f) = x0 (ix3 2 r f) := by
  show x0 _ = x0 _
  refine congrArg x0 (funext fun a => Fin.ext ?_)
  match a with
  | ⟨0, _⟩ => rfl
  | ⟨1, _⟩ => show 0 + 1 * r.val = r.val; omega
  | ⟨2, _⟩ => show 0 + 1 * f.val = f.val; omega
theorem ld7 (x0 : Vec Ideal S4x200x8 .f32) (r : Fin 200) (f : Fin 8) : View.ld x0 r0_7 (ix3 0 r f) = x0 (ix3 3 r f) := by
  show x0 _ = x0 _
  refine congrArg x0 (funext fun a => Fin.ext ?_)
  match a with
  | ⟨0, _⟩ => rfl
  | ⟨1, _⟩ => show 0 + 1 * r.val = r.val; omega
  | ⟨2, _⟩ => show 0 + 1 * f.val = f.val; omega

/-- An index of a block whose leading extent is one. -/
theorem exists_ix3_one {n1 n2 : Nat} (x : (⟨3, ![1, n1, n2]⟩ : Shape).Idx) :
    ∃ (r : Fin n1) (j : Fin n2), x = ix3 0 r j :=
  ⟨x 1, x 2, by
    funext a
    match a with
    | ⟨0, _⟩ => exact Fin.ext (Nat.lt_one_iff.mp (x 0).isLt)
    | ⟨1, _⟩ => rfl
    | ⟨2, _⟩ => rfl⟩

/-- The function of the block index all read-out pieces are tiles of. -/
def G13 (x0 : Vec Ideal S4x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) : S4x1x256.Idx → Elt Ideal .f32 :=
  fun y => Spec.jetOut (Result.paramsRow x1 x2 x3 x4 x5 x6 x7 x8 x9 x10 x11 x12) (Result.jet x0 (y 0)) (y 2)

/-- The function of the block index all adjacency pieces are tiles of. -/
def G14 (x0 : Vec Ideal S4x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) : S4x200x200.Idx → Elt Ideal .f32 :=
  fun y => Spec.jetA (Result.paramsRow x1 x2 x3 x4 x5 x6 x7 x8 x9 x10 x11 x12) (Result.jet x0 (y 0)) (y 1) (y 2)

/-- The read-out piece of jet 0 is the tile of `G13` its box names. -/
theorem piece13_0 (x0 : Vec Ideal S4x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) (x : S1x1x256.Idx) :
    K.jetOut (F := Ideal) (View.ld x0 r0_4) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1) x = G13 x0 x1 x2 x3 x4 x5 x6 x7 x8 x9 x10 x11 x12 (r0_8.emb x) := by
  obtain ⟨r, j, rfl⟩ := exists_ix3_one x
  obtain rfl : r = 0 := Subsingleton.elim _ _
  have e : r0_8.emb (ix3 0 0 j) = ix3 0 0 j := by
    funext a
    match a with
    | ⟨0, _⟩ => rfl
    | ⟨1, _⟩ => rfl
    | ⟨2, _⟩ => exact Fin.ext (by show 0 + 1 * j.val = j.val; omega)
  rw [e]
  show _ = Spec.jetOut (Result.paramsRow x1 x2 x3 x4 x5 x6 x7 x8 x9 x10 x11 x12) (Result.jet x0 0) j
  simp only [ld0, ld1, ld2, ld3]
  rw [KerStages.jetOut_apply]
  refine congrArg (fun J => Spec.jetOut (Result.paramsRow x1 x2 x3 x4 x5 x6 x7 x8 x9 x10 x11 x12) J j) ?_
  funext r f
  exact ld4 x0 r f

/-- The adjacency piece of jet 0 is the tile of `G14` its box names. -/
theorem piece14_0 (x0 : Vec Ideal S4x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) (x : S1x200x200.Idx) :
    K.jetA (F := Ideal) (View.ld x0 r0_4) (View.ld x1 r0_0) (View.ld x2 r0_1) (View.ld x3 r0_2) (View.ld x4 r0_1) (View.ld x5 r0_2) (View.ld x6 r0_1) x = G14 x0 x1 x2 x3 x4 x5 x6 x7 x8 x9 x10 x11 x12 (r0_9.emb x) := by
  obtain ⟨r, j, rfl⟩ := exists_ix3_one x
  have e : r0_9.emb (ix3 0 r j) = ix3 0 r j := by
    funext a
    match a with
    | ⟨0, _⟩ => rfl
    | ⟨1, _⟩ => exact Fin.ext (by show 0 + 1 * r.val = r.val; omega)
    | ⟨2, _⟩ => exact Fin.ext (by show 0 + 1 * j.val = j.val; omega)
  rw [e]
  show _ = Spec.jetA (Result.paramsRow x1 x2 x3 x4 x5 x6 x7 x8 x9 x10 x11 x12) (Result.jet x0 0) r j
  simp only [ld0, ld1, ld2]
  rw [KerStages.jetA_apply _ _ _ _ _ _ _ x7 x8 x9 x10 x11 x12]
  refine congrArg (fun J => Spec.jetA (Result.paramsRow x1 x2 x3 x4 x5 x6 x7 x8 x9 x10 x11 x12) J r j) ?_
  funext r f
  exact ld4 x0 r f

/-- The read-out piece of jet 1 is the tile of `G13` its box names. -/
theorem piece13_1 (x0 : Vec Ideal S4x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) (x : S1x1x256.Idx) :
    K.jetOut (F := Ideal) (View.ld x0 r0_5) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1) x = G13 x0 x1 x2 x3 x4 x5 x6 x7 x8 x9 x10 x11 x12 (r0_10.emb x) := by
  obtain ⟨r, j, rfl⟩ := exists_ix3_one x
  obtain rfl : r = 0 := Subsingleton.elim _ _
  have e : r0_10.emb (ix3 0 0 j) = ix3 1 0 j := by
    funext a
    match a with
    | ⟨0, _⟩ => rfl
    | ⟨1, _⟩ => rfl
    | ⟨2, _⟩ => exact Fin.ext (by show 0 + 1 * j.val = j.val; omega)
  rw [e]
  show _ = Spec.jetOut (Result.paramsRow x1 x2 x3 x4 x5 x6 x7 x8 x9 x10 x11 x12) (Result.jet x0 1) j
  simp only [ld0, ld1, ld2, ld3]
  rw [KerStages.jetOut_apply]
  refine congrArg (fun J => Spec.jetOut (Result.paramsRow x1 x2 x3 x4 x5 x6 x7 x8 x9 x10 x11 x12) J j) ?_
  funext r f
  exact ld5 x0 r f

/-- The adjacency piece of jet 1 is the tile of `G14` its box names. -/
theorem piece14_1 (x0 : Vec Ideal S4x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) (x : S1x200x200.Idx) :
    K.jetA (F := Ideal) (View.ld x0 r0_5) (View.ld x1 r0_0) (View.ld x2 r0_1) (View.ld x3 r0_2) (View.ld x4 r0_1) (View.ld x5 r0_2) (View.ld x6 r0_1) x = G14 x0 x1 x2 x3 x4 x5 x6 x7 x8 x9 x10 x11 x12 (r0_11.emb x) := by
  obtain ⟨r, j, rfl⟩ := exists_ix3_one x
  have e : r0_11.emb (ix3 0 r j) = ix3 1 r j := by
    funext a
    match a with
    | ⟨0, _⟩ => rfl
    | ⟨1, _⟩ => exact Fin.ext (by show 0 + 1 * r.val = r.val; omega)
    | ⟨2, _⟩ => exact Fin.ext (by show 0 + 1 * j.val = j.val; omega)
  rw [e]
  show _ = Spec.jetA (Result.paramsRow x1 x2 x3 x4 x5 x6 x7 x8 x9 x10 x11 x12) (Result.jet x0 1) r j
  simp only [ld0, ld1, ld2]
  rw [KerStages.jetA_apply _ _ _ _ _ _ _ x7 x8 x9 x10 x11 x12]
  refine congrArg (fun J => Spec.jetA (Result.paramsRow x1 x2 x3 x4 x5 x6 x7 x8 x9 x10 x11 x12) J r j) ?_
  funext r f
  exact ld5 x0 r f

/-- The read-out piece of jet 2 is the tile of `G13` its box names. -/
theorem piece13_2 (x0 : Vec Ideal S4x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) (x : S1x1x256.Idx) :
    K.jetOut (F := Ideal) (View.ld x0 r0_6) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1) x = G13 x0 x1 x2 x3 x4 x5 x6 x7 x8 x9 x10 x11 x12 (r0_12.emb x) := by
  obtain ⟨r, j, rfl⟩ := exists_ix3_one x
  obtain rfl : r = 0 := Subsingleton.elim _ _
  have e : r0_12.emb (ix3 0 0 j) = ix3 2 0 j := by
    funext a
    match a with
    | ⟨0, _⟩ => rfl
    | ⟨1, _⟩ => rfl
    | ⟨2, _⟩ => exact Fin.ext (by show 0 + 1 * j.val = j.val; omega)
  rw [e]
  show _ = Spec.jetOut (Result.paramsRow x1 x2 x3 x4 x5 x6 x7 x8 x9 x10 x11 x12) (Result.jet x0 2) j
  simp only [ld0, ld1, ld2, ld3]
  rw [KerStages.jetOut_apply]
  refine congrArg (fun J => Spec.jetOut (Result.paramsRow x1 x2 x3 x4 x5 x6 x7 x8 x9 x10 x11 x12) J j) ?_
  funext r f
  exact ld6 x0 r f

/-- The adjacency piece of jet 2 is the tile of `G14` its box names. -/
theorem piece14_2 (x0 : Vec Ideal S4x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) (x : S1x200x200.Idx) :
    K.jetA (F := Ideal) (View.ld x0 r0_6) (View.ld x1 r0_0) (View.ld x2 r0_1) (View.ld x3 r0_2) (View.ld x4 r0_1) (View.ld x5 r0_2) (View.ld x6 r0_1) x = G14 x0 x1 x2 x3 x4 x5 x6 x7 x8 x9 x10 x11 x12 (r0_13.emb x) := by
  obtain ⟨r, j, rfl⟩ := exists_ix3_one x
  have e : r0_13.emb (ix3 0 r j) = ix3 2 r j := by
    funext a
    match a with
    | ⟨0, _⟩ => rfl
    | ⟨1, _⟩ => exact Fin.ext (by show 0 + 1 * r.val = r.val; omega)
    | ⟨2, _⟩ => exact Fin.ext (by show 0 + 1 * j.val = j.val; omega)
  rw [e]
  show _ = Spec.jetA (Result.paramsRow x1 x2 x3 x4 x5 x6 x7 x8 x9 x10 x11 x12) (Result.jet x0 2) r j
  simp only [ld0, ld1, ld2]
  rw [KerStages.jetA_apply _ _ _ _ _ _ _ x7 x8 x9 x10 x11 x12]
  refine congrArg (fun J => Spec.jetA (Result.paramsRow x1 x2 x3 x4 x5 x6 x7 x8 x9 x10 x11 x12) J r j) ?_
  funext r f
  exact ld6 x0 r f

/-- The read-out piece of jet 3 is the tile of `G13` its box names. -/
theorem piece13_3 (x0 : Vec Ideal S4x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) (x : S1x1x256.Idx) :
    K.jetOut (F := Ideal) (View.ld x0 r0_7) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1) x = G13 x0 x1 x2 x3 x4 x5 x6 x7 x8 x9 x10 x11 x12 (r0_14.emb x) := by
  obtain ⟨r, j, rfl⟩ := exists_ix3_one x
  obtain rfl : r = 0 := Subsingleton.elim _ _
  have e : r0_14.emb (ix3 0 0 j) = ix3 3 0 j := by
    funext a
    match a with
    | ⟨0, _⟩ => rfl
    | ⟨1, _⟩ => rfl
    | ⟨2, _⟩ => exact Fin.ext (by show 0 + 1 * j.val = j.val; omega)
  rw [e]
  show _ = Spec.jetOut (Result.paramsRow x1 x2 x3 x4 x5 x6 x7 x8 x9 x10 x11 x12) (Result.jet x0 3) j
  simp only [ld0, ld1, ld2, ld3]
  rw [KerStages.jetOut_apply]
  refine congrArg (fun J => Spec.jetOut (Result.paramsRow x1 x2 x3 x4 x5 x6 x7 x8 x9 x10 x11 x12) J j) ?_
  funext r f
  exact ld7 x0 r f

/-- The adjacency piece of jet 3 is the tile of `G14` its box names. -/
theorem piece14_3 (x0 : Vec Ideal S4x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) (x : S1x200x200.Idx) :
    K.jetA (F := Ideal) (View.ld x0 r0_7) (View.ld x1 r0_0) (View.ld x2 r0_1) (View.ld x3 r0_2) (View.ld x4 r0_1) (View.ld x5 r0_2) (View.ld x6 r0_1) x = G14 x0 x1 x2 x3 x4 x5 x6 x7 x8 x9 x10 x11 x12 (r0_15.emb x) := by
  obtain ⟨r, j, rfl⟩ := exists_ix3_one x
  have e : r0_15.emb (ix3 0 r j) = ix3 3 r j := by
    funext a
    match a with
    | ⟨0, _⟩ => rfl
    | ⟨1, _⟩ => exact Fin.ext (by show 0 + 1 * r.val = r.val; omega)
    | ⟨2, _⟩ => exact Fin.ext (by show 0 + 1 * j.val = j.val; omega)
  rw [e]
  show _ = Spec.jetA (Result.paramsRow x1 x2 x3 x4 x5 x6 x7 x8 x9 x10 x11 x12) (Result.jet x0 3) r j
  simp only [ld0, ld1, ld2]
  rw [KerStages.jetA_apply _ _ _ _ _ _ _ x7 x8 x9 x10 x11 x12]
  refine congrArg (fun J => Spec.jetA (Result.paramsRow x1 x2 x3 x4 x5 x6 x7 x8 x9 x10 x11 x12) J r j) ?_
  funext r f
  exact ld7 x0 r f

/-- The read-out block at (q, 0, j). -/
theorem out13_apply (x0 : FVec Ideal S4x200x8 .f32) (x1 : FVec Ideal S8x256 .f32) (x2 : FVec Ideal S1x256 .f32) (x3 : FVec Ideal S512x256 .f32) (x4 : FVec Ideal S1x256 .f32) (x5 : FVec Ideal S512x256 .f32) (x6 : FVec Ideal S1x256 .f32) (x7 : FVec Ideal S512x256 .f32) (x8 : FVec Ideal S1x256 .f32) (x9 : FVec Ideal S256x256 .f32) (x10 : FVec Ideal S1x256 .f32) (x11 : FVec Ideal S256x256 .f32) (x12 : FVec Ideal S1x256 .f32) (q : Fin 4) (j : Fin 256) :
    out0_13 (F := Ideal) x0 x1 x2 x3 x4 x5 x6 x7 x8 x9 x10 x11 x12 (ix3 q 0 j)
      = Spec.jetOut (Result.paramsRow x1 x2 x3 x4 x5 x6 x7 x8 x9 x10 x11 x12) (Result.jet x0 q) j := by
  rw [KerJets.out13_eq]
  refine (View.canon_apply_of_pieces (G13 x0 x1 x2 x3 x4 x5 x6 x7 x8 x9 x10 x11 x12) _ ?_ (ix3 q 0 j) (cover0_13 _ _ _ _ _)).trans rfl
  intro p hp x
  simp only [List.mem_cons, List.mem_nil_iff, or_false] at hp
  rcases hp with rfl | rfl | rfl | rfl
  · exact piece13_3 x0 x1 x2 x3 x4 x5 x6 x7 x8 x9 x10 x11 x12 x
  · exact piece13_2 x0 x1 x2 x3 x4 x5 x6 x7 x8 x9 x10 x11 x12 x
  · exact piece13_1 x0 x1 x2 x3 x4 x5 x6 x7 x8 x9 x10 x11 x12 x
  · exact piece13_0 x0 x1 x2 x3 x4 x5 x6 x7 x8 x9 x10 x11 x12 x

/-- The adjacency block at (q, r, j). -/
theorem out14_apply (x0 : FVec Ideal S4x200x8 .f32) (x1 : FVec Ideal S8x256 .f32) (x2 : FVec Ideal S1x256 .f32) (x3 : FVec Ideal S512x256 .f32) (x4 : FVec Ideal S1x256 .f32) (x5 : FVec Ideal S512x256 .f32) (x6 : FVec Ideal S1x256 .f32) (x7 : FVec Ideal S512x256 .f32) (x8 : FVec Ideal S1x256 .f32) (x9 : FVec Ideal S256x256 .f32) (x10 : FVec Ideal S1x256 .f32) (x11 : FVec Ideal S256x256 .f32) (x12 : FVec Ideal S1x256 .f32) (q : Fin 4) (r j : Fin 200) :
    out0_14 (F := Ideal) x0 x1 x2 x3 x4 x5 x6 x7 x8 x9 x10 x11 x12 (ix3 q r j)
      = Spec.jetA (Result.paramsRow x1 x2 x3 x4 x5 x6 x7 x8 x9 x10 x11 x12) (Result.jet x0 q) r j := by
  rw [KerJets.out14_eq]
  refine (View.canon_apply_of_pieces (G14 x0 x1 x2 x3 x4 x5 x6 x7 x8 x9 x10 x11 x12) _ ?_ (ix3 q r j) (cover0_14 _ _ _ _ _)).trans rfl
  intro p hp x
  simp only [List.mem_cons, List.mem_nil_iff, or_false] at hp
  rcases hp with rfl | rfl | rfl | rfl
  · exact piece14_3 x0 x1 x2 x3 x4 x5 x6 x7 x8 x9 x10 x11 x12 x
  · exact piece14_2 x0 x1 x2 x3 x4 x5 x6 x7 x8 x9 x10 x11 x12 x
  · exact piece14_1 x0 x1 x2 x3 x4 x5 x6 x7 x8 x9 x10 x11 x12 x
  · exact piece14_0 x0 x1 x2 x3 x4 x5 x6 x7 x8 x9 x10 x11 x12 x

end Cert.KernelIdeal.KerBlocks

end
-- ==== Proof.KerReads.lean ====
/-
  The kernel's input blocks as the region finds them, in terms of the launch arrays: the block of jets at grid point t
  holds jets 4t … 4t+3; every weight block is its whole array; every bias block is the bias reshaped to one row.
-/
import proofs.«151125_g85813446574462_cont_9to1c4b_288_10_alg».proof.Proof.Gen.KernelIdeal.Frame
import proofs.«151125_g85813446574462_cont_9to1c4b_288_10_alg».proof.Proof.Result
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KerReads

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-! ## The jets' block -/

/-- The jets' window steps along the first axis with the grid point and stays at block 0 on the other two. -/
theorem idx_jets : ∀ t : Fin cfg0.N, win0_0.index t (0 : Fin 3) = t.val ∧ win0_0.index t (1 : Fin 3) = 0 ∧ win0_0.index t (2 : Fin 3) = 0 :=
  (by decide +kernel : ∀ t : Fin grid0.N, _)

/-- Entry (q, r, f) of the jets' block at point t is entry (4t + q, r, f) of the first argument. -/
theorem jets_apply (c : Dev nD) (t : Fin cfg0.N) (q : Fin 4) (r : Fin 200) (f : Fin 8) (b : Fin 128) (hb : b.val = 4 * t.val + q.val) :
    iblk m c 0 t (ix3 q r f) = m ((c.tc : Thread nD τ).loc main_arg0) (ix3 b r f) := by
  show V m c main_arg0 (((cfg0.win 0).blk t).view.emb (ix3 q r f)) = _
  rw [V_main_arg0]
  refine congrArg _ ?_
  funext a; apply Fin.ext
  obtain ⟨e0, e1, e2⟩ := idx_jets t
  match a with
  | ⟨0, _⟩ => show win0_0.index t (0 : Fin 3) * 4 + 1 * q.val = b.val; omega
  | ⟨1, _⟩ => show win0_0.index t (1 : Fin 3) * 200 + 1 * r.val = r.val; omega
  | ⟨2, _⟩ => show win0_0.index t (2 : Fin 3) * 8 + 1 * f.val = f.val; omega

/-! ## The weight blocks: each is its whole array -/

/-- Window 1 stays at block 0 on both axes. -/
theorem idx_w1 : ∀ t : Fin cfg0.N, win0_1.index t (0 : Fin 2) = 0 ∧ win0_1.index t (1 : Fin 2) = 0 :=
  (by decide +kernel : ∀ t : Fin grid0.N, _)

/-- Entry (k, j) of window 1's block at any point is entry (k, j) of its array as launched. -/
theorem w1_apply (c : Dev nD) (t : Fin cfg0.N) (k : Fin 8) (j : Fin 256) :
    iblk m c 1 t (ix2 k j) = m ((c.tc : Thread nD τ).loc main_arg1) (ix2 k j) := by
  show V m c main_arg1 (((cfg0.win 1).blk t).view.emb (ix2 k j)) = _
  rw [V_main_arg1]
  refine congrArg _ ?_
  funext a; apply Fin.ext
  obtain ⟨e0, e1⟩ := idx_w1 t
  match a with
  | ⟨0, _⟩ => show win0_1.index t (0 : Fin 2) * 8 + 1 * k.val = k.val; omega
  | ⟨1, _⟩ => show win0_1.index t (1 : Fin 2) * 256 + 1 * j.val = j.val; omega

/-- Window 3 stays at block 0 on both axes. -/
theorem idx_w3 : ∀ t : Fin cfg0.N, win0_3.index t (0 : Fin 2) = 0 ∧ win0_3.index t (1 : Fin 2) = 0 :=
  (by decide +kernel : ∀ t : Fin grid0.N, _)

/-- Entry (k, j) of window 3's block at any point is entry (k, j) of its array as launched. -/
theorem w3_apply (c : Dev nD) (t : Fin cfg0.N) (k : Fin 512) (j : Fin 256) :
    iblk m c 3 t (ix2 k j) = m ((c.tc : Thread nD τ).loc main_arg3) (ix2 k j) := by
  show V m c main_arg3 (((cfg0.win 3).blk t).view.emb (ix2 k j)) = _
  rw [V_main_arg3]
  refine congrArg _ ?_
  funext a; apply Fin.ext
  obtain ⟨e0, e1⟩ := idx_w3 t
  match a with
  | ⟨0, _⟩ => show win0_3.index t (0 : Fin 2) * 512 + 1 * k.val = k.val; omega
  | ⟨1, _⟩ => show win0_3.index t (1 : Fin 2) * 256 + 1 * j.val = j.val; omega

/-- Window 5 stays at block 0 on both axes. -/
theorem idx_w5 : ∀ t : Fin cfg0.N, win0_5.index t (0 : Fin 2) = 0 ∧ win0_5.index t (1 : Fin 2) = 0 :=
  (by decide +kernel : ∀ t : Fin grid0.N, _)

/-- Entry (k, j) of window 5's block at any point is entry (k, j) of its array as launched. -/
theorem w5_apply (c : Dev nD) (t : Fin cfg0.N) (k : Fin 512) (j : Fin 256) :
    iblk m c 5 t (ix2 k j) = m ((c.tc : Thread nD τ).loc main_arg5) (ix2 k j) := by
  show V m c main_arg5 (((cfg0.win 5).blk t).view.emb (ix2 k j)) = _
  rw [V_main_arg5]
  refine congrArg _ ?_
  funext a; apply Fin.ext
  obtain ⟨e0, e1⟩ := idx_w5 t
  match a with
  | ⟨0, _⟩ => show win0_5.index t (0 : Fin 2) * 512 + 1 * k.val = k.val; omega
  | ⟨1, _⟩ => show win0_5.index t (1 : Fin 2) * 256 + 1 * j.val = j.val; omega

/-- Window 7 stays at block 0 on both axes. -/
theorem idx_w7 : ∀ t : Fin cfg0.N, win0_7.index t (0 : Fin 2) = 0 ∧ win0_7.index t (1 : Fin 2) = 0 :=
  (by decide +kernel : ∀ t : Fin grid0.N, _)

/-- Entry (k, j) of window 7's block at any point is entry (k, j) of its array as launched. -/
theorem w7_apply (c : Dev nD) (t : Fin cfg0.N) (k : Fin 512) (j : Fin 256) :
    iblk m c 7 t (ix2 k j) = m ((c.tc : Thread nD τ).loc main_arg7) (ix2 k j) := by
  show V m c main_arg7 (((cfg0.win 7).blk t).view.emb (ix2 k j)) = _
  rw [V_main_arg7]
  refine congrArg _ ?_
  funext a; apply Fin.ext
  obtain ⟨e0, e1⟩ := idx_w7 t
  match a with
  | ⟨0, _⟩ => show win0_7.index t (0 : Fin 2) * 512 + 1 * k.val = k.val; omega
  | ⟨1, _⟩ => show win0_7.index t (1 : Fin 2) * 256 + 1 * j.val = j.val; omega

/-- Window 9 stays at block 0 on both axes. -/
theorem idx_w9 : ∀ t : Fin cfg0.N, win0_9.index t (0 : Fin 2) = 0 ∧ win0_9.index t (1 : Fin 2) = 0 :=
  (by decide +kernel : ∀ t : Fin grid0.N, _)

/-- Entry (k, j) of window 9's block at any point is entry (k, j) of its array as launched. -/
theorem w9_apply (c : Dev nD) (t : Fin cfg0.N) (k : Fin 256) (j : Fin 256) :
    iblk m c 9 t (ix2 k j) = m ((c.tc : Thread nD τ).loc main_arg9) (ix2 k j) := by
  show V m c main_arg9 (((cfg0.win 9).blk t).view.emb (ix2 k j)) = _
  rw [V_main_arg9]
  refine congrArg _ ?_
  funext a; apply Fin.ext
  obtain ⟨e0, e1⟩ := idx_w9 t
  match a with
  | ⟨0, _⟩ => show win0_9.index t (0 : Fin 2) * 256 + 1 * k.val = k.val; omega
  | ⟨1, _⟩ => show win0_9.index t (1 : Fin 2) * 256 + 1 * j.val = j.val; omega

/-- Window 11 stays at block 0 on both axes. -/
theorem idx_w11 : ∀ t : Fin cfg0.N, win0_11.index t (0 : Fin 2) = 0 ∧ win0_11.index t (1 : Fin 2) = 0 :=
  (by decide +kernel : ∀ t : Fin grid0.N, _)

/-- Entry (k, j) of window 11's block at any point is entry (k, j) of its array as launched. -/
theorem w11_apply (c : Dev nD) (t : Fin cfg0.N) (k : Fin 256) (j : Fin 256) :
    iblk m c 11 t (ix2 k j) = m ((c.tc : Thread nD τ).loc main_arg11) (ix2 k j) := by
  show V m c main_arg11 (((cfg0.win 11).blk t).view.emb (ix2 k j)) = _
  rw [V_main_arg11]
  refine congrArg _ ?_
  funext a; apply Fin.ext
  obtain ⟨e0, e1⟩ := idx_w11 t
  match a with
  | ⟨0, _⟩ => show win0_11.index t (0 : Fin 2) * 256 + 1 * k.val = k.val; omega
  | ⟨1, _⟩ => show win0_11.index t (1 : Fin 2) * 256 + 1 * j.val = j.val; omega

/-! ## The bias blocks: each is its bias reshaped to one row -/

/-- Window 2 stays at block 0 on both axes. -/
theorem idx_b2 : ∀ t : Fin cfg0.N, win0_2.index t (0 : Fin 2) = 0 ∧ win0_2.index t (1 : Fin 2) = 0 :=
  (by decide +kernel : ∀ t : Fin grid0.N, _)

/-- When the region is entered, window 2's array holds the bias reshaped to one row. -/
theorem main_v0_eq (c : Dev nD) :
    (V m c main_v0 : S1x256.Idx → EReal) = shapeCast S1x256 (m ((c.tc : Thread nD τ).loc main_arg2)) shapeCasts_S256_S1x256 := by
  dsimp only [Gen.V, Gen.V0]
  simp only [Gen.hostOps0, List.flatten_cons, List.flatten_nil, List.append_nil]
  after_results
  rfl

/-- Entry (0, j) of window 2's block at any point is entry j of the bias as launched. -/
theorem b2_apply (c : Dev nD) (t : Fin cfg0.N) (j : Fin 256) :
    iblk m c 2 t (ix2 0 j) = m ((c.tc : Thread nD τ).loc main_arg2) (ix1 j) := by
  show V m c main_v0 (((cfg0.win 2).blk t).view.emb (ix2 0 j)) = _
  have hemb : ((cfg0.win 2).blk t).view.emb (ix2 0 j) = (ix2 0 j : S1x256.Idx) := by
    funext a; apply Fin.ext
    obtain ⟨e0, e1⟩ := idx_b2 t
    match a with
    | ⟨0, _⟩ => show win0_2.index t (0 : Fin 2) * 1 + 1 * 0 = 0; omega
    | ⟨1, _⟩ => show win0_2.index t (1 : Fin 2) * 256 + 1 * j.val = j.val; omega
  rw [hemb]
  refine (congrFun (main_v0_eq m c) _).trans ?_
  exact shapeCast_a_1a_apply _ _ 0 j

/-- Window 4 stays at block 0 on both axes. -/
theorem idx_b4 : ∀ t : Fin cfg0.N, win0_4.index t (0 : Fin 2) = 0 ∧ win0_4.index t (1 : Fin 2) = 0 :=
  (by decide +kernel : ∀ t : Fin grid0.N, _)

/-- When the region is entered, window 4's array holds the bias reshaped to one row. -/
theorem main_v1_eq (c : Dev nD) :
    (V m c main_v1 : S1x256.Idx → EReal) = shapeCast S1x256 (m ((c.tc : Thread nD τ).loc main_arg4)) shapeCasts_S256_S1x256 := by
  dsimp only [Gen.V, Gen.V0]
  simp only [Gen.hostOps0, List.flatten_cons, List.flatten_nil, List.append_nil]
  after_results
  rfl

/-- Entry (0, j) of window 4's block at any point is entry j of the bias as launched. -/
theorem b4_apply (c : Dev nD) (t : Fin cfg0.N) (j : Fin 256) :
    iblk m c 4 t (ix2 0 j) = m ((c.tc : Thread nD τ).loc main_arg4) (ix1 j) := by
  show V m c main_v1 (((cfg0.win 4).blk t).view.emb (ix2 0 j)) = _
  have hemb : ((cfg0.win 4).blk t).view.emb (ix2 0 j) = (ix2 0 j : S1x256.Idx) := by
    funext a; apply Fin.ext
    obtain ⟨e0, e1⟩ := idx_b4 t
    match a with
    | ⟨0, _⟩ => show win0_4.index t (0 : Fin 2) * 1 + 1 * 0 = 0; omega
    | ⟨1, _⟩ => show win0_4.index t (1 : Fin 2) * 256 + 1 * j.val = j.val; omega
  rw [hemb]
  refine (congrFun (main_v1_eq m c) _).trans ?_
  exact shapeCast_a_1a_apply _ _ 0 j

/-- Window 6 stays at block 0 on both axes. -/
theorem idx_b6 : ∀ t : Fin cfg0.N, win0_6.index t (0 : Fin 2) = 0 ∧ win0_6.index t (1 : Fin 2) = 0 :=
  (by decide +kernel : ∀ t : Fin grid0.N, _)

/-- When the region is entered, window 6's array holds the bias reshaped to one row. -/
theorem main_v2_eq (c : Dev nD) :
    (V m c main_v2 : S1x256.Idx → EReal) = shapeCast S1x256 (m ((c.tc : Thread nD τ).loc main_arg6)) shapeCasts_S256_S1x256 := by
  dsimp only [Gen.V, Gen.V0]
  simp only [Gen.hostOps0, List.flatten_cons, List.flatten_nil, List.append_nil]
  after_results
  rfl

/-- Entry (0, j) of window 6's block at any point is entry j of the bias as launched. -/
theorem b6_apply (c : Dev nD) (t : Fin cfg0.N) (j : Fin 256) :
    iblk m c 6 t (ix2 0 j) = m ((c.tc : Thread nD τ).loc main_arg6) (ix1 j) := by
  show V m c main_v2 (((cfg0.win 6).blk t).view.emb (ix2 0 j)) = _
  have hemb : ((cfg0.win 6).blk t).view.emb (ix2 0 j) = (ix2 0 j : S1x256.Idx) := by
    funext a; apply Fin.ext
    obtain ⟨e0, e1⟩ := idx_b6 t
    match a with
    | ⟨0, _⟩ => show win0_6.index t (0 : Fin 2) * 1 + 1 * 0 = 0; omega
    | ⟨1, _⟩ => show win0_6.index t (1 : Fin 2) * 256 + 1 * j.val = j.val; omega
  rw [hemb]
  refine (congrFun (main_v2_eq m c) _).trans ?_
  exact shapeCast_a_1a_apply _ _ 0 j

/-- Window 8 stays at block 0 on both axes. -/
theorem idx_b8 : ∀ t : Fin cfg0.N, win0_8.index t (0 : Fin 2) = 0 ∧ win0_8.index t (1 : Fin 2) = 0 :=
  (by decide +kernel : ∀ t : Fin grid0.N, _)

/-- When the region is entered, window 8's array holds the bias reshaped to one row. -/
theorem main_v3_eq (c : Dev nD) :
    (V m c main_v3 : S1x256.Idx → EReal) = shapeCast S1x256 (m ((c.tc : Thread nD τ).loc main_arg8)) shapeCasts_S256_S1x256 := by
  dsimp only [Gen.V, Gen.V0]
  simp only [Gen.hostOps0, List.flatten_cons, List.flatten_nil, List.append_nil]
  after_results
  rfl

/-- Entry (0, j) of window 8's block at any point is entry j of the bias as launched. -/
theorem b8_apply (c : Dev nD) (t : Fin cfg0.N) (j : Fin 256) :
    iblk m c 8 t (ix2 0 j) = m ((c.tc : Thread nD τ).loc main_arg8) (ix1 j) := by
  show V m c main_v3 (((cfg0.win 8).blk t).view.emb (ix2 0 j)) = _
  have hemb : ((cfg0.win 8).blk t).view.emb (ix2 0 j) = (ix2 0 j : S1x256.Idx) := by
    funext a; apply Fin.ext
    obtain ⟨e0, e1⟩ := idx_b8 t
    match a with
    | ⟨0, _⟩ => show win0_8.index t (0 : Fin 2) * 1 + 1 * 0 = 0; omega
    | ⟨1, _⟩ => show win0_8.index t (1 : Fin 2) * 256 + 1 * j.val = j.val; omega
  rw [hemb]
  refine (congrFun (main_v3_eq m c) _).trans ?_
  exact shapeCast_a_1a_apply _ _ 0 j

/-- Window 10 stays at block 0 on both axes. -/
theorem idx_b10 : ∀ t : Fin cfg0.N, win0_10.index t (0 : Fin 2) = 0 ∧ win0_10.index t (1 : Fin 2) = 0 :=
  (by decide +kernel : ∀ t : Fin grid0.N, _)

/-- When the region is entered, window 10's array holds the bias reshaped to one row. -/
theorem main_v4_eq (c : Dev nD) :
    (V m c main_v4 : S1x256.Idx → EReal) = shapeCast S1x256 (m ((c.tc : Thread nD τ).loc main_arg10)) shapeCasts_S256_S1x256 := by
  dsimp only [Gen.V, Gen.V0]
  simp only [Gen.hostOps0, List.flatten_cons, List.flatten_nil, List.append_nil]
  after_results
  rfl

/-- Entry (0, j) of window 10's block at any point is entry j of the bias as launched. -/
theorem b10_apply (c : Dev nD) (t : Fin cfg0.N) (j : Fin 256) :
    iblk m c 10 t (ix2 0 j) = m ((c.tc : Thread nD τ).loc main_arg10) (ix1 j) := by
  show V m c main_v4 (((cfg0.win 10).blk t).view.emb (ix2 0 j)) = _
  have hemb : ((cfg0.win 10).blk t).view.emb (ix2 0 j) = (ix2 0 j : S1x256.Idx) := by
    funext a; apply Fin.ext
    obtain ⟨e0, e1⟩ := idx_b10 t
    match a with
    | ⟨0, _⟩ => show win0_10.index t (0 : Fin 2) * 1 + 1 * 0 = 0; omega
    | ⟨1, _⟩ => show win0_10.index t (1 : Fin 2) * 256 + 1 * j.val = j.val; omega
  rw [hemb]
  refine (congrFun (main_v4_eq m c) _).trans ?_
  exact shapeCast_a_1a_apply _ _ 0 j

/-- Window 12 stays at block 0 on both axes. -/
theorem idx_b12 : ∀ t : Fin cfg0.N, win0_12.index t (0 : Fin 2) = 0 ∧ win0_12.index t (1 : Fin 2) = 0 :=
  (by decide +kernel : ∀ t : Fin grid0.N, _)

/-- When the region is entered, window 12's array holds the bias reshaped to one row. -/
theorem main_v5_eq (c : Dev nD) :
    (V m c main_v5 : S1x256.Idx → EReal) = shapeCast S1x256 (m ((c.tc : Thread nD τ).loc main_arg12)) shapeCasts_S256_S1x256 := by
  dsimp only [Gen.V, Gen.V0]
  simp only [Gen.hostOps0, List.flatten_cons, List.flatten_nil, List.append_nil]
  after_results
  rfl

/-- Entry (0, j) of window 12's block at any point is entry j of the bias as launched. -/
theorem b12_apply (c : Dev nD) (t : Fin cfg0.N) (j : Fin 256) :
    iblk m c 12 t (ix2 0 j) = m ((c.tc : Thread nD τ).loc main_arg12) (ix1 j) := by
  show V m c main_v5 (((cfg0.win 12).blk t).view.emb (ix2 0 j)) = _
  have hemb : ((cfg0.win 12).blk t).view.emb (ix2 0 j) = (ix2 0 j : S1x256.Idx) := by
    funext a; apply Fin.ext
    obtain ⟨e0, e1⟩ := idx_b12 t
    match a with
    | ⟨0, _⟩ => show win0_12.index t (0 : Fin 2) * 1 + 1 * 0 = 0; omega
    | ⟨1, _⟩ => show win0_12.index t (1 : Fin 2) * 256 + 1 * j.val = j.val; omega
  rw [hemb]
  refine (congrFun (main_v5_eq m c) _).trans ?_
  exact shapeCast_a_1a_apply _ _ 0 j

/-! ## The two facts the region's post uses -/

/-- Jet q of the jets' block at point t is jet 4t + q of the first argument. -/
theorem jet_eq (c : Dev nD) (t : Fin cfg0.N) (q : Fin 4) (b : Fin 128) (hb : b.val = 4 * t.val + q.val) :
    Result.jet (B := 4) (iblk m c 0 t) q = Result.jet (B := 128) (m ((c.tc : Thread nD τ).loc main_arg0)) b := by
  funext r f
  exact jets_apply m c t q r f b hb

/-- The weights read off the twelve weight and bias blocks at any point are the weights read off the launch arrays. -/
theorem params_eq (c : Dev nD) (t : Fin cfg0.N) :
    Result.paramsRow (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t)
      = Result.params (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Result.paramsRow Result.params
  simp only [w1_apply, b2_apply, w3_apply, b4_apply, w5_apply, b6_apply, w7_apply, b8_apply, w9_apply, b10_apply, w11_apply, b12_apply]

end Cert.KernelIdeal.KerReads

end
-- ==== Proof.KerFinal.lean ====
/-
  The two output arrays after the kernel's region: the 32 grid points' blocks of four jets tile them, so each array is
  one whole-array function of the launch arrays.
-/
import proofs.«151125_g85813446574462_cont_9to1c4b_288_10_alg».proof.Proof.KerBlocks
import proofs.«151125_g85813446574462_cont_9to1c4b_288_10_alg».proof.Proof.KerReads

set_option maxRecDepth 16384

noncomputable section

namespace Cert.KernelIdeal.KerFinal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The read-out array with its unit middle axis: entry (b, 0, j) is jet b's read-out at j. -/
def G13 (c : Dev nD) : S128x1x256.Idx → EReal :=
  fun i => Result.GOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix2 (i 0) (i 2))

/-- The weights read off the launch arrays. -/
abbrev weights (c : Dev nD) : Spec.Params := Result.params (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- The read-outs of all jets, with the unit axis the kernel's output array keeps. -/
abbrev readout (c : Dev nD) : S128x1x256.Idx → EReal :=
  fun i => Spec.jetOut (weights m c) (Result.jet (m ((c.tc : Thread nD τ).loc main_arg0)) (i 0)) (i 2)

/-- The adjacencies of all jets. -/
abbrev adjacency (c : Dev nD) : S128x200x200.Idx → EReal :=
  fun i => Spec.jetA (weights m c) (Result.jet (m ((c.tc : Thread nD τ).loc main_arg0)) (i 0)) (i 1) (i 2)

/-- The block index of each output at grid point t is (t, 0, 0). -/
theorem idx13 : ∀ t : Fin cfg0.N, win0_13.index t (0 : Fin 3) = t.val ∧ win0_13.index t (1 : Fin 3) = 0 ∧ win0_13.index t (2 : Fin 3) = 0 :=
  (by decide +kernel : ∀ t : Fin grid0.N, _)

theorem idx14 : ∀ t : Fin cfg0.N, win0_14.index t (0 : Fin 3) = t.val ∧ win0_14.index t (1 : Fin 3) = 0 ∧ win0_14.index t (2 : Fin 3) = 0 :=
  (by decide +kernel : ∀ t : Fin grid0.N, _)

/-- The read-out block at any of its indices: the middle coordinate is on a unit axis. -/
theorem out13_at (x0 : FVec Ideal S4x200x8 .f32) (x1 : FVec Ideal S8x256 .f32) (x2 : FVec Ideal S1x256 .f32) (x3 : FVec Ideal S512x256 .f32) (x4 : FVec Ideal S1x256 .f32) (x5 : FVec Ideal S512x256 .f32) (x6 : FVec Ideal S1x256 .f32) (x7 : FVec Ideal S512x256 .f32) (x8 : FVec Ideal S1x256 .f32) (x9 : FVec Ideal S256x256 .f32) (x10 : FVec Ideal S1x256 .f32) (x11 : FVec Ideal S256x256 .f32) (x12 : FVec Ideal S1x256 .f32) (y : S4x1x256.Idx) :
    out0_13 (F := Ideal) x0 x1 x2 x3 x4 x5 x6 x7 x8 x9 x10 x11 x12 y = Spec.jetOut (Result.paramsRow x1 x2 x3 x4 x5 x6 x7 x8 x9 x10 x11 x12) (Result.jet x0 (y 0)) (y 2) := by
  have hy : y = ix3 (n0 := 4) (n1 := 1) (n2 := 256) (y 0) 0 (y 2) := funext fun a => by
    match a with
    | ⟨0, _⟩ => rfl
    | ⟨1, h⟩ => exact Fin.ext (Nat.lt_one_iff.mp (y ⟨1, h⟩).isLt)
    | ⟨2, _⟩ => rfl
  exact (congrArg (out0_13 (F := Ideal) x0 x1 x2 x3 x4 x5 x6 x7 x8 x9 x10 x11 x12) hy).trans (KerBlocks.out13_apply x0 x1 x2 x3 x4 x5 x6 x7 x8 x9 x10 x11 x12 (y 0) (y 2))

/-- The adjacency block at any of its indices. -/
theorem out14_at (x0 : FVec Ideal S4x200x8 .f32) (x1 : FVec Ideal S8x256 .f32) (x2 : FVec Ideal S1x256 .f32) (x3 : FVec Ideal S512x256 .f32) (x4 : FVec Ideal S1x256 .f32) (x5 : FVec Ideal S512x256 .f32) (x6 : FVec Ideal S1x256 .f32) (x7 : FVec Ideal S512x256 .f32) (x8 : FVec Ideal S1x256 .f32) (x9 : FVec Ideal S256x256 .f32) (x10 : FVec Ideal S1x256 .f32) (x11 : FVec Ideal S256x256 .f32) (x12 : FVec Ideal S1x256 .f32) (y : S4x200x200.Idx) :
    out0_14 (F := Ideal) x0 x1 x2 x3 x4 x5 x6 x7 x8 x9 x10 x11 x12 y = Spec.jetA (Result.paramsRow x1 x2 x3 x4 x5 x6 x7 x8 x9 x10 x11 x12) (Result.jet x0 (y 0)) (y 1) (y 2) :=
  (congrArg (out0_14 (F := Ideal) x0 x1 x2 x3 x4 x5 x6 x7 x8 x9 x10 x11 x12) (eq_ix3 y)).trans (KerBlocks.out14_apply x0 x1 x2 x3 x4 x5 x6 x7 x8 x9 x10 x11 x12 (y 0) (y 1) (y 2))

/-- What grid point t writes back to the read-out array is block t of the whole-array read-out function. -/
theorem flushed13_eq (c : Dev nD) (t : Fin cfg0.N) :
    (dats m 0 c).flushed 13 t = ((cfg0.win 13).blk t).view.read (Elt Ideal) (readout m c) := by
  show (cfg0.win 13).cut (grid0.coords t) ((dats m 0 c).after 13 t) = _
  rw [after0_13]
  funext y
  refine (out13_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((cfg0.win 13).xinj (grid0.coords t) y)).trans ?_
  have hb : ((((cfg0.win 13).blk t).view.emb y) (0 : Fin 3)).val = 4 * t.val + (y (0 : Fin 3)).val := by
    show win0_13.index t (0 : Fin 3) * 4 + 1 * (y 0).val = 4 * t.val + (y 0).val
    rw [(idx13 t).1]; omega
  have hj : ((cfg0.win 13).xinj (grid0.coords t) y (2 : Fin 3) : Fin 256) = (((cfg0.win 13).blk t).view.emb y) (2 : Fin 3) := Fin.ext (by
    show (y 2).val = win0_13.index t (2 : Fin 3) * 256 + 1 * (y 2).val
    rw [(idx13 t).2.2]; omega)
  rw [KerReads.params_eq m c t,
    KerReads.jet_eq m c t ((cfg0.win 13).xinj (grid0.coords t) y 0) (((cfg0.win 13).blk t).view.emb y 0) hb, hj]
  rfl

/-- What grid point t writes back to the adjacency array is block t of the whole-array adjacency function. -/
theorem flushed14_eq (c : Dev nD) (t : Fin cfg0.N) :
    (dats m 0 c).flushed 14 t = ((cfg0.win 14).blk t).view.read (Elt Ideal) (adjacency m c) := by
  show (cfg0.win 14).cut (grid0.coords t) ((dats m 0 c).after 14 t) = _
  rw [after0_14]
  funext y
  refine (out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((cfg0.win 14).xinj (grid0.coords t) y)).trans ?_
  have hb : ((((cfg0.win 14).blk t).view.emb y) (0 : Fin 3)).val = 4 * t.val + (y (0 : Fin 3)).val := by
    show win0_14.index t (0 : Fin 3) * 4 + 1 * (y 0).val = 4 * t.val + (y 0).val
    rw [(idx14 t).1]; omega
  have hr : ((cfg0.win 14).xinj (grid0.coords t) y (1 : Fin 3) : Fin 200) = (((cfg0.win 14).blk t).view.emb y) (1 : Fin 3) := Fin.ext (by
    show (y 1).val = win0_14.index t (1 : Fin 3) * 200 + 1 * (y 1).val
    rw [(idx14 t).2.1]; omega)
  have hj : ((cfg0.win 14).xinj (grid0.coords t) y (2 : Fin 3) : Fin 200) = (((cfg0.win 14).blk t).view.emb y) (2 : Fin 3) := Fin.ext (by
    show (y 2).val = win0_14.index t (2 : Fin 3) * 200 + 1 * (y 2).val
    rw [(idx14 t).2.2]; omega)
  rw [KerReads.params_eq m c t,
    KerReads.jet_eq m c t ((cfg0.win 14).xinj (grid0.coords t) y 0) (((cfg0.win 14).blk t).view.emb y 0) hb, hr, hj]
  rfl

/-- An index of the read-out array is in grid point t's block iff each coordinate is in the block's range on its axis. -/
theorem mem_blk13 (t : Fin cfg0.N) (i : S128x1x256.Idx) :
    i ∈ ((cfg0.win 13).blk t).view.set ↔ ∀ a : Fin 3, win0_13.index t a * S4x1x256.size a ≤ (i a).val ∧ (i a).val < win0_13.index t a * S4x1x256.size a + S4x1x256.size a := by
  show i ∈ ((View.whole main_v6_0).slice (win0_13.rect t)).set ↔ _
  rw [View.set_slice_whole, Rect.mem_set_unit]
  exact Iff.rfl

theorem mem_blk14 (t : Fin cfg0.N) (i : S128x200x200.Idx) :
    i ∈ ((cfg0.win 14).blk t).view.set ↔ ∀ a : Fin 3, win0_14.index t a * S4x200x200.size a ≤ (i a).val ∧ (i a).val < win0_14.index t a * S4x200x200.size a + S4x200x200.size a := by
  show i ∈ ((View.whole main_v6_1).slice (win0_14.rect t)).set ↔ _
  rw [View.set_slice_whole, Rect.mem_set_unit]
  exact Iff.rfl

/-- Jet b of the read-out array is written by grid point b / 4. -/
theorem cover13 (i : S128x1x256.Idx) : ∃ t : Fin cfg0.N, (cfg0.win 13).flush t = true ∧ i ∈ ((cfg0.win 13).blk t).view.set := by
  have h0 : (i 0).val < 128 := (i 0).isLt
  have h1 : (i 1).val < 1 := (i 1).isLt
  have h2 : (i 2).val < 256 := (i 2).isLt
  have hN : cfg0.N = 32 := N_0
  obtain ⟨t, ht⟩ : ∃ t : Fin cfg0.N, t.val = (i 0).val / 4 := ⟨⟨(i 0).val / 4, by omega⟩, rfl⟩
  obtain ⟨e0, e1, e2⟩ := idx13 t
  refine ⟨t, flush0_13 t, ?_⟩
  rw [mem_blk13]
  intro a
  match a with
  | ⟨0, _⟩ => show win0_13.index t (0 : Fin 3) * 4 ≤ (i 0).val ∧ (i 0).val < win0_13.index t (0 : Fin 3) * 4 + 4; omega
  | ⟨1, _⟩ => show win0_13.index t (1 : Fin 3) * 1 ≤ (i 1).val ∧ (i 1).val < win0_13.index t (1 : Fin 3) * 1 + 1; omega
  | ⟨2, _⟩ => show win0_13.index t (2 : Fin 3) * 256 ≤ (i 2).val ∧ (i 2).val < win0_13.index t (2 : Fin 3) * 256 + 256; omega

/-- Jet b of the adjacency array is written by grid point b / 4. -/
theorem cover14 (i : S128x200x200.Idx) : ∃ t : Fin cfg0.N, (cfg0.win 14).flush t = true ∧ i ∈ ((cfg0.win 14).blk t).view.set := by
  have h0 : (i 0).val < 128 := (i 0).isLt
  have h1 : (i 1).val < 200 := (i 1).isLt
  have h2 : (i 2).val < 200 := (i 2).isLt
  have hN : cfg0.N = 32 := N_0
  obtain ⟨t, ht⟩ : ∃ t : Fin cfg0.N, t.val = (i 0).val / 4 := ⟨⟨(i 0).val / 4, by omega⟩, rfl⟩
  obtain ⟨e0, e1, e2⟩ := idx14 t
  refine ⟨t, flush0_14 t, ?_⟩
  rw [mem_blk14]
  intro a
  match a with
  | ⟨0, _⟩ => show win0_14.index t (0 : Fin 3) * 4 ≤ (i 0).val ∧ (i 0).val < win0_14.index t (0 : Fin 3) * 4 + 4; omega
  | ⟨1, _⟩ => show win0_14.index t (1 : Fin 3) * 200 ≤ (i 1).val ∧ (i 1).val < win0_14.index t (1 : Fin 3) * 200 + 200; omega
  | ⟨2, _⟩ => show win0_14.index t (2 : Fin 3) * 200 ≤ (i 2).val ∧ (i 2).val < win0_14.index t (2 : Fin 3) * 200 + 200; omega

/-- The read-out array after the run. -/
theorem final_readout (c : Dev nD) : (dats m 0 c).arrAt 13 cfg0.N = readout m c :=
  (dats m 0 c).arrAt_eq_of_cover 13 (readout m c) (fun t _ => flushed13_eq m c t) cover13

/-- The adjacency array after the run. -/
theorem final_adjacency (c : Dev nD) : (dats m 0 c).arrAt 14 cfg0.N = adjacency m c :=
  (dats m 0 c).arrAt_eq_of_cover 14 (adjacency m c) (fun t _ => flushed14_eq m c t) cover14

/-- The read-out array after the region. -/
theorem final13 (c : Dev nD) : (dats m 0 c).arrAt 13 cfg0.N = G13 m c :=
  final_readout m c

/-- The adjacency array after the region. -/
theorem final14 (c : Dev nD) : (dats m 0 c).arrAt 14 cfg0.N = Result.GA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  final_adjacency m c

end Cert.KernelIdeal.KerFinal

end
-- ==== Proof.KerArray.lean ====
/-
  The kernel's run with its two results named: the grid's 32 points each write four jets' read-outs and adjacencies,
  the blocks tile the two output arrays, and the final reshape drops the read-out's unit axis; so the first result is
  the whole-array read-out function of the arguments and the second the whole-array adjacency function.
-/
import proofs.«151125_g85813446574462_cont_9to1c4b_288_10_alg».proof.Proof.KerFinal
import Idealize.ShloMosaic.Lib.StableHlo.Run

set_option maxRecDepth 16384

noncomputable section

namespace Cert.KernelIdeal.KerArray

open Idealize.ShloMosaic Idealize.ShloMosaic.TcCoe Idealize.ShloMosaic.ValueIdx Idealize.SL.Sem Cert.KernelIdeal Cert.KernelIdeal.Gen

/-- The array the region leaves in the read-out window, as the tail finds it. -/
theorem with_v6_0 (m : (ℓ : Loc nD τ sig) → Buf (Elt Ideal) ℓ) (c : Dev nD) :
    Pipeline.withArrays (cfgs 0).spec c (V0 m c) (fun w => (dats m 0 c).arrAt w (cfgs 0).N) (Proc.devRef .tc main_v6_0)
      = KerFinal.G13 m c :=
  (Pipeline.withArrays_arr spec0 launch0.win.arr_inj c _ _ 13).trans (KerFinal.final13 m c)

/-- The first result after the final reshape: entry (b, j) of the [128, 256] array is entry (b, 0, j) of the [128, 1, 256]
    array the region wrote, both at row-major position 256·b + j. -/
theorem tail_v7 (m : (ℓ : Loc nD τ sig) → Buf (Elt Ideal) ℓ) (c : Dev nD) :
    Pipeline.afterTail₀ cfgs (dats m) 0 (V0 m) [hostOps1] c main_v7 = Result.GOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Pipeline.afterTail₀
  show StableHlo.after hostOps1 _ (Proc.devRef .tc main_v7) = _
  after_results
  funext i
  obtain ⟨b, j, rfl⟩ : ∃ (b : Fin 128) (j : Fin 256), i = ix2 b j := ⟨i 0, i 1, eq_ix2 i⟩
  refine (shapeCast_apply _ _ (ix2 b j) (ix3 b (0 : Fin 1) j) ?_).trans ?_
  · rw [Shape.rowMajor_val_three, Shape.rowMajor_val_two]
    show (b.val * 1 + 0) * 256 + j.val = b.val * 256 + j.val
    omega
  · exact congrFun (with_v6_0 m c) (ix3 b (0 : Fin 1) j)

/-- Every weakly fair execution of the idealized kernel program ends with the two results at the whole-array
    functions of the argument arrays, the arguments unchanged. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v7) = Result.GOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      ∧ r.2.mem ((c.tc : Thread Cert.KernelIdeal.nD Cert.KernelIdeal.τ).loc Cert.KernelIdeal.main_v6_1) = Result.GA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) := by
  exact (θ_run defs _ _).mono (fun r h c => ⟨
      (((h c).2 main_v7 (Pipeline.mem_restRefs_of main_v7 (by decide) (by decide))).trans (tail_v7 m c)),
      ((h c).1 14).trans (KerFinal.final14 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      ((h c).1 11).trans (((dats m 0 c).arrAt_in 11 rfl _).trans ((A_eq m c 11).trans (V_main_arg11 m c))),
      (((h c).2 main_arg12 (Pipeline.mem_restRefs_of main_arg12 (by decide) (by decide))).trans (W_main_arg12 m (dats m) c))⟩)
    (run_main m ρ)

end Cert.KernelIdeal.KerArray

end
-- ==== Proof.RefDefs.lean ====
/-
  The reference's stages as whole-array functions (any float instance): the operations of its program grouped by
  what they compute — the embedding, the scaled Gram matrices, the row softmax in its two halves, the vertex update
  over the concatenated state and messages, the dense read-out layer and the final sum over the nodes — and the two
  results as their composition.
-/
import proofs.«151125_g85813446574462_cont_9to1c4b_288_10_alg».proof.ReferenceIdeal

noncomputable section

namespace Cert.ReferenceIdeal.R

open Idealize.ShloMosaic Cert.ReferenceIdeal Cert.ReferenceIdeal.Facts₀ Cert.ReferenceIdeal.Facts

variable {F : FTy → Type} [FloatOps F] [Facts]

/-- A bias vector spread over every node of every jet. -/
def bias (b : FVec F S256 .f32) : FVec F S128x200x256 .f32 :=
  broadcastInDim S128x200x256 ![0, 1, 2] bcast_S1x1x256_S128x200x256_0_1_2 (broadcastInDim S1x1x256 ![2] bcast_S256_S1x1x256_2 b)

/-- `tanh (x · W + b)` with an 8-feature input. -/
def embed (x : FVec F S128x200x8 .f32) (W : FVec F S8x256 .f32) (b : FVec F S256 .f32) : FVec F S128x200x256 .f32 :=
  Host.tanh (addf (Host.dotGeneral dot_S128x200x8_S8x256_S128x200x256_2_0_01_1_n_n none x W) (bias b))

/-- Scaled Gram matrix of each jet's rows. -/
def logits (h : FVec F S128x200x256 .f32) : FVec F S128x200x200 .f32 :=
  mulf (Host.dotGeneral dot_S128x200x256_S128x200x256_S128x200x200_2_2_1_1_0_0 none h h)
    (broadcastInDim S128x200x200 ![] bcast_S_S128x200x200 (constant S_ .f32 0x3D800000#32))

/-- A per-row value spread along the row. -/
def keep (v : FVec F S128x200 .f32) : FVec F S128x200x200 .f32 :=
  broadcastInDim S128x200x200 ![0, 1, 2] bcast_S128x200x1_S128x200x200_0_1_2 (broadcastInDim S128x200x1 ![0, 1] bcast_S128x200_S128x200x1_0_1 v)

/-- Exponential of each entry less its row's maximum. -/
def expm (l : FVec F S128x200x200 .f32) : FVec F S128x200x200 .f32 :=
  Host.exp (subf l (keep (maximumf (broadcastInDim S128x200 ![] bcast_S_S128x200 (constant S_ .f32 0xFF800000#32))
    (Host.reduce FloatOps.maximumf l (constant S_ .f32 0xFF800000#32) reducesTo_S128x200x200_S128x200_d2 h_S_))))

/-- Each entry over its row's sum. -/
def soft (e : FVec F S128x200x200 .f32) : FVec F S128x200x200 .f32 :=
  Host.divf e (keep (Host.reduceAdd e (constant S_ .f32 0x00000000#32) reducesTo_S128x200x200_S128x200_d2 h_S_))

/-- The soft adjacency. -/
def attn (h : FVec F S128x200x256 .f32) : FVec F S128x200x200 .f32 := soft (expm (logits h))

/-- The vertex update over the concatenation of the state and the messages. -/
def update (h : FVec F S128x200x256 .f32) (A : FVec F S128x200x200 .f32) (W : FVec F S512x256 .f32) (b : FVec F S256 .f32) :
    FVec F S128x200x256 .f32 :=
  Host.tanh (addf (Host.dotGeneral dot_S128x200x512_S512x256_S128x200x256_2_0_01_1_n_n none
    (concatenate S128x200x512 2 [⟨S128x200x256, h⟩, ⟨S128x200x256, Host.dotGeneral dot_S128x200x200_S128x200x256_S128x200x256_2_1_1_2_0_0 none A h⟩]
      concatenates_S128x200x256_S128x200x256_S128x200x512_d2) W) (bias b))

/-- One message-passing step. -/
def step (h : FVec F S128x200x256 .f32) (W : FVec F S512x256 .f32) (b : FVec F S256 .f32) : FVec F S128x200x256 .f32 :=
  update h (attn h) W b

/-- The dense layer before the bias is added. -/
def mm (h : FVec F S128x200x256 .f32) (W : FVec F S256x256 .f32) : FVec F S128x200x256 .f32 :=
  Host.dotGeneral dot_S128x200x256_S256x256_S128x200x256_2_0_01_1_n_n none h W

/-- `tanh (h · W + b)`. -/
def dense (h : FVec F S128x200x256 .f32) (W : FVec F S256x256 .f32) (b : FVec F S256 .f32) : FVec F S128x200x256 .f32 :=
  Host.tanh (addf (mm h W) (bias b))

/-- The last layer summed over the nodes. -/
def readout (r : FVec F S128x200x256 .f32) (W : FVec F S256x256 .f32) (b : FVec F S256 .f32) : FVec F S128x256 .f32 :=
  Host.reduceAdd (addf (mm r W) (bias b)) (constant S_ .f32 0x00000000#32) reducesTo_S128x200x256_S128x256_d1 h_S_

/-- The state after two steps. -/
def h2 (x : FVec F S128x200x8 .f32) (a1 : FVec F S8x256 .f32) (a2 : FVec F S256 .f32) (a3 : FVec F S512x256 .f32) (a4 : FVec F S256 .f32)
    (a5 : FVec F S512x256 .f32) (a6 : FVec F S256 .f32) : FVec F S128x200x256 .f32 :=
  step (step (embed x a1 a2) a3 a4) a5 a6

/-- The second result. -/
def resA (x : FVec F S128x200x8 .f32) (a1 : FVec F S8x256 .f32) (a2 : FVec F S256 .f32) (a3 : FVec F S512x256 .f32) (a4 : FVec F S256 .f32)
    (a5 : FVec F S512x256 .f32) (a6 : FVec F S256 .f32) : FVec F S128x200x200 .f32 :=
  attn (h2 x a1 a2 a3 a4 a5 a6)

/-- The first result. -/
def resOut (x : FVec F S128x200x8 .f32) (a1 : FVec F S8x256 .f32) (a2 : FVec F S256 .f32) (a3 : FVec F S512x256 .f32) (a4 : FVec F S256 .f32)
    (a5 : FVec F S512x256 .f32) (a6 : FVec F S256 .f32) (a7 : FVec F S512x256 .f32) (a8 : FVec F S256 .f32)
    (a9 : FVec F S256x256 .f32) (a10 : FVec F S256 .f32) (a11 : FVec F S256x256 .f32) (a12 : FVec F S256 .f32) : FVec F S128x256 .f32 :=
  readout (dense (step (h2 x a1 a2 a3 a4 a5 a6) a7 a8) a9 a10) a11 a12

end Cert.ReferenceIdeal.R

end
-- ==== Proof.RefRun.lean ====
/-
  The reference's run with its two results named: its ninety-three operations, taken stage by stage, leave the first
  result at the composed read-out of the arguments and the second at the composed third-step adjacency.
-/
import proofs.«151125_g85813446574462_cont_9to1c4b_288_10_alg».proof.Proof.RefDefs
import proofs.«151125_g85813446574462_cont_9to1c4b_288_10_alg».proof.Proof.Gen.ReferenceIdeal
import Idealize.ShloMosaic.Lib.StableHlo.Run

noncomputable section

namespace Cert.ReferenceIdeal.RefRun

open Idealize.ShloMosaic Idealize.ShloMosaic.TcCoe Idealize.SL.Sem Idealize.ShloMosaic.StableHlo Cert.ReferenceIdeal Cert.ReferenceIdeal.Gen

variable {F : FTy → Type} [FloatOps F]

/-- The buffer contents after two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The operations, stage by stage -/

/-- The embedding's five operations. -/
abbrev opsE : List (HloOp τ sig (Elt F)) :=
  [ binary main_arg0 main_arg1 main_v0 ((fun l r => Host.dotGeneral dot_S128x200x8_S8x256_S128x200x256_2_0_01_1_n_n none l r) : (⟨S128x200x8, .f32⟩ : BufTy).Contents (Elt F) → (⟨S8x256, .f32⟩ : BufTy).Contents (Elt F) → (⟨S128x200x256, .f32⟩ : BufTy).Contents (Elt F)),
    unary main_arg2 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v0 main_v2 main_v3 (addf : (⟨S128x200x256, .f32⟩ : BufTy).Contents (Elt F) → (⟨S128x200x256, .f32⟩ : BufTy).Contents (Elt F) → (⟨S128x200x256, .f32⟩ : BufTy).Contents (Elt F)),
    unary main_v3 main_v4 (Host.tanh : (⟨S128x200x256, .f32⟩ : BufTy).Contents (Elt F) → (⟨S128x200x256, .f32⟩ : BufTy).Contents (Elt F)) ]

theorem opsE_sub : (opsE : List (HloOp τ sig (Elt F))).Forall fun op => op.bufs ⊆ tcRefs τ sig :=
  ⟨binary_bufs_sub .., unary_bufs_sub .., unary_bufs_sub .., binary_bufs_sub .., unary_bufs_sub ..⟩
theorem opsE_fresh : (opsE : List (HloOp τ sig (Elt F))).Forall fun op => op.fresh = ∅ := by
  simp only [List.Forall]; repeat' constructor
/-- The references this stretch writes. -/
abbrev opsE_W : List (Ref sig .tc) := [main_v0, main_v1, main_v2, main_v3, main_v4]
theorem opsE_writes : (opsE : List (HloOp τ sig (Elt F))).Forall fun op => op.writes ⊆ (opsE_W.map (Proc.devRef (τ := τ) .tc)).toFinset := by
  simp only [List.Forall]; exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A reference this stretch does not write keeps its contents through it. -/
theorem opsE_keep (V : Valuation τ sig (Elt F)) (r : Ref sig .tc) (h : r ∉ opsE_W) :
    after opsE V (Proc.devRef .tc r) = V (Proc.devRef .tc r) :=
  after_of_writes_sub opsE V opsE_writes h

/-- The first step's adjacency (scaled Gram matrix, row softmax) and its messages. -/
abbrev opsA0 : List (HloOp τ sig (Elt F)) :=
  [ nullary main_cst (constant S_ .f32 0x00000000#32),
    unary main_cst main_v5 (broadcastInDim S128x200x200 ![] bcast_S_S128x200x200 : (⟨S_, .f32⟩ : BufTy).Contents (Elt F) → (⟨S128x200x200, .f32⟩ : BufTy).Contents (Elt F)),
    binary main_v4 main_v4 main_v6 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_0 (constant S_ .f32 0x3D800000#32),
    unary main_cst_0 main_v7 (broadcastInDim S128x200x200 ![] bcast_S_S128x200x200 : (⟨S_, .f32⟩ : BufTy).Contents (Elt F) → (⟨S128x200x200, .f32⟩ : BufTy).Contents (Elt F)),
    binary main_v6 main_v7 main_v8 (mulf : (⟨S128x200x200, .f32⟩ : BufTy).Contents (Elt F) → (⟨S128x200x200, .f32⟩ : BufTy).Contents (Elt F) → (⟨S128x200x200, .f32⟩ : BufTy).Contents (Elt F)),
    nullary main_cst_1 (constant S_ .f32 0xFF800000#32),
    binary main_v8 main_cst_1 main_v9 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_2 (constant S_ .f32 0xFF800000#32),
    unary main_cst_2 main_v10 (broadcastInDim S128x200 ![] bcast_S_S128x200 : (⟨S_, .f32⟩ : BufTy).Contents (Elt F) → (⟨S128x200, .f32⟩ : BufTy).Contents (Elt F)),
    binary main_v10 main_v9 main_v11 (maximumf : (⟨S128x200, .f32⟩ : BufTy).Contents (Elt F) → (⟨S128x200, .f32⟩ : BufTy).Contents (Elt F) → (⟨S128x200, .f32⟩ : BufTy).Contents (Elt F)),
    unary main_v11 main_v12 (broadcastInDim S128x200x1 ![0, 1] bcast_S128x200_S128x200x1_0_1 : (⟨S128x200, .f32⟩ : BufTy).Contents (Elt F) → (⟨S128x200x1, .f32⟩ : BufTy).Contents (Elt F)),
    unary main_v12 main_v13 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v8 main_v13 main_v14 (subf : (⟨S128x200x200, .f32⟩ : BufTy).Contents (Elt F) → (⟨S128x200x200, .f32⟩ : BufTy).Contents (Elt F) → (⟨S128x200x200, .f32⟩ : BufTy).Contents (Elt F)),
    unary main_v14 main_v15 (Host.exp : (⟨S128x200x200, .f32⟩ : BufTy).Contents (Elt F) → (⟨S128x200x200, .f32⟩ : BufTy).Contents (Elt F)),
    nullary main_cst_3 (constant S_ .f32 0x00000000#32),
    binary main_v15 main_cst_3 main_v16 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v16 main_v17 (broadcastInDim S128x200x1 ![0, 1] bcast_S128x200_S128x200x1_0_1 : (⟨S128x200, .f32⟩ : BufTy).Contents (Elt F) → (⟨S128x200x1, .f32⟩ : BufTy).Contents (Elt F)),
    unary main_v17 main_v18 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v15 main_v18 main_v19 (Host.divf : (⟨S128x200x200, .f32⟩ : BufTy).Contents (Elt F) → (⟨S128x200x200, .f32⟩ : BufTy).Contents (Elt F) → (⟨S128x200x200, .f32⟩ : BufTy).Contents (Elt F)),
    binary main_v19 main_v4 main_v20 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)) ]

theorem opsA0_sub : (opsA0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
theorem opsA0_fresh : (opsA0 : List (HloOp τ sig (Elt F))).Forall fun op => op.fresh = ∅ := by
  simp only [List.Forall]; repeat' constructor
/-- The references this stretch writes. -/
abbrev opsA0_W : List (Ref sig .tc) := [main_cst, main_v5, main_v6, main_cst_0, main_v7, main_v8, main_cst_1, main_v9, main_cst_2, main_v10, main_v11, main_v12, main_v13, main_v14, main_v15, main_cst_3, main_v16, main_v17, main_v18, main_v19, main_v20]
theorem opsA0_writes : (opsA0 : List (HloOp τ sig (Elt F))).Forall fun op => op.writes ⊆ (opsA0_W.map (Proc.devRef (τ := τ) .tc)).toFinset := by
  simp only [List.Forall]; exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A reference this stretch does not write keeps its contents through it. -/
theorem opsA0_keep (V : Valuation τ sig (Elt F)) (r : Ref sig .tc) (h : r ∉ opsA0_W) :
    after opsA0 V (Proc.devRef .tc r) = V (Proc.devRef .tc r) :=
  after_of_writes_sub opsA0 V opsA0_writes h

/-- The first step's update over the concatenated state and messages. -/
abbrev opsB0 : List (HloOp τ sig (Elt F)) :=
  [ binary main_v4 main_v20 main_v21 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v21 main_arg3 main_v22 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg4 main_v23 (broadcastInDim S1x1x256 ![2] bcast_S256_S1x1x256_2 : (⟨S256, .f32⟩ : BufTy).Contents (Elt F) → (⟨S1x1x256, .f32⟩ : BufTy).Contents (Elt F)),
    unary main_v23 main_v24 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v22 main_v24 main_v25 (addf : (⟨S128x200x256, .f32⟩ : BufTy).Contents (Elt F) → (⟨S128x200x256, .f32⟩ : BufTy).Contents (Elt F) → (⟨S128x200x256, .f32⟩ : BufTy).Contents (Elt F)),
    unary main_v25 main_v26 (Host.tanh : (⟨S128x200x256, .f32⟩ : BufTy).Contents (Elt F) → (⟨S128x200x256, .f32⟩ : BufTy).Contents (Elt F)) ]

theorem opsB0_sub : (opsB0 : List (HloOp τ sig (Elt F))).Forall fun op => op.bufs ⊆ tcRefs τ sig :=
  ⟨binary_bufs_sub .., binary_bufs_sub .., unary_bufs_sub .., unary_bufs_sub .., binary_bufs_sub .., unary_bufs_sub ..⟩
theorem opsB0_fresh : (opsB0 : List (HloOp τ sig (Elt F))).Forall fun op => op.fresh = ∅ := by
  simp only [List.Forall]; repeat' constructor
/-- The references this stretch writes. -/
abbrev opsB0_W : List (Ref sig .tc) := [main_v21, main_v22, main_v23, main_v24, main_v25, main_v26]
theorem opsB0_writes : (opsB0 : List (HloOp τ sig (Elt F))).Forall fun op => op.writes ⊆ (opsB0_W.map (Proc.devRef (τ := τ) .tc)).toFinset := by
  simp only [List.Forall]; exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A reference this stretch does not write keeps its contents through it. -/
theorem opsB0_keep (V : Valuation τ sig (Elt F)) (r : Ref sig .tc) (h : r ∉ opsB0_W) :
    after opsB0 V (Proc.devRef .tc r) = V (Proc.devRef .tc r) :=
  after_of_writes_sub opsB0 V opsB0_writes h

/-- The second step's adjacency and its messages. -/
abbrev opsA1 : List (HloOp τ sig (Elt F)) :=
  [ binary main_v26 main_v26 main_v27 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_4 (constant S_ .f32 0x3D800000#32),
    unary main_cst_4 main_v28 (broadcastInDim S128x200x200 ![] bcast_S_S128x200x200 : (⟨S_, .f32⟩ : BufTy).Contents (Elt F) → (⟨S128x200x200, .f32⟩ : BufTy).Contents (Elt F)),
    binary main_v27 main_v28 main_v29 (mulf : (⟨S128x200x200, .f32⟩ : BufTy).Contents (Elt F) → (⟨S128x200x200, .f32⟩ : BufTy).Contents (Elt F) → (⟨S128x200x200, .f32⟩ : BufTy).Contents (Elt F)),
    nullary main_cst_5 (constant S_ .f32 0xFF800000#32),
    binary main_v29 main_cst_5 main_v30 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_6 (constant S_ .f32 0xFF800000#32),
    unary main_cst_6 main_v31 (broadcastInDim S128x200 ![] bcast_S_S128x200 : (⟨S_, .f32⟩ : BufTy).Contents (Elt F) → (⟨S128x200, .f32⟩ : BufTy).Contents (Elt F)),
    binary main_v31 main_v30 main_v32 (maximumf : (⟨S128x200, .f32⟩ : BufTy).Contents (Elt F) → (⟨S128x200, .f32⟩ : BufTy).Contents (Elt F) → (⟨S128x200, .f32⟩ : BufTy).Contents (Elt F)),
    unary main_v32 main_v33 (broadcastInDim S128x200x1 ![0, 1] bcast_S128x200_S128x200x1_0_1 : (⟨S128x200, .f32⟩ : BufTy).Contents (Elt F) → (⟨S128x200x1, .f32⟩ : BufTy).Contents (Elt F)),
    unary main_v33 main_v34 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v29 main_v34 main_v35 (subf : (⟨S128x200x200, .f32⟩ : BufTy).Contents (Elt F) → (⟨S128x200x200, .f32⟩ : BufTy).Contents (Elt F) → (⟨S128x200x200, .f32⟩ : BufTy).Contents (Elt F)),
    unary main_v35 main_v36 (Host.exp : (⟨S128x200x200, .f32⟩ : BufTy).Contents (Elt F) → (⟨S128x200x200, .f32⟩ : BufTy).Contents (Elt F)),
    nullary main_cst_7 (constant S_ .f32 0x00000000#32),
    binary main_v36 main_cst_7 main_v37 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v37 main_v38 (broadcastInDim S128x200x1 ![0, 1] bcast_S128x200_S128x200x1_0_1 : (⟨S128x200, .f32⟩ : BufTy).Contents (Elt F) → (⟨S128x200x1, .f32⟩ : BufTy).Contents (Elt F)),
    unary main_v38 main_v39 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v36 main_v39 main_v40 (Host.divf : (⟨S128x200x200, .f32⟩ : BufTy).Contents (Elt F) → (⟨S128x200x200, .f32⟩ : BufTy).Contents (Elt F) → (⟨S128x200x200, .f32⟩ : BufTy).Contents (Elt F)),
    binary main_v40 main_v26 main_v41 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)) ]

theorem opsA1_sub : (opsA1 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
theorem opsA1_fresh : (opsA1 : List (HloOp τ sig (Elt F))).Forall fun op => op.fresh = ∅ := by
  simp only [List.Forall]; repeat' constructor
/-- The references this stretch writes. -/
abbrev opsA1_W : List (Ref sig .tc) := [main_v27, main_cst_4, main_v28, main_v29, main_cst_5, main_v30, main_cst_6, main_v31, main_v32, main_v33, main_v34, main_v35, main_v36, main_cst_7, main_v37, main_v38, main_v39, main_v40, main_v41]
theorem opsA1_writes : (opsA1 : List (HloOp τ sig (Elt F))).Forall fun op => op.writes ⊆ (opsA1_W.map (Proc.devRef (τ := τ) .tc)).toFinset := by
  simp only [List.Forall]; exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A reference this stretch does not write keeps its contents through it. -/
theorem opsA1_keep (V : Valuation τ sig (Elt F)) (r : Ref sig .tc) (h : r ∉ opsA1_W) :
    after opsA1 V (Proc.devRef .tc r) = V (Proc.devRef .tc r) :=
  after_of_writes_sub opsA1 V opsA1_writes h

/-- The second step's update over the concatenated state and messages. -/
abbrev opsB1 : List (HloOp τ sig (Elt F)) :=
  [ binary main_v26 main_v41 main_v42 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v42 main_arg5 main_v43 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg6 main_v44 (broadcastInDim S1x1x256 ![2] bcast_S256_S1x1x256_2 : (⟨S256, .f32⟩ : BufTy).Contents (Elt F) → (⟨S1x1x256, .f32⟩ : BufTy).Contents (Elt F)),
    unary main_v44 main_v45 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v43 main_v45 main_v46 (addf : (⟨S128x200x256, .f32⟩ : BufTy).Contents (Elt F) → (⟨S128x200x256, .f32⟩ : BufTy).Contents (Elt F) → (⟨S128x200x256, .f32⟩ : BufTy).Contents (Elt F)),
    unary main_v46 main_v47 (Host.tanh : (⟨S128x200x256, .f32⟩ : BufTy).Contents (Elt F) → (⟨S128x200x256, .f32⟩ : BufTy).Contents (Elt F)) ]

theorem opsB1_sub : (opsB1 : List (HloOp τ sig (Elt F))).Forall fun op => op.bufs ⊆ tcRefs τ sig :=
  ⟨binary_bufs_sub .., binary_bufs_sub .., unary_bufs_sub .., unary_bufs_sub .., binary_bufs_sub .., unary_bufs_sub ..⟩
theorem opsB1_fresh : (opsB1 : List (HloOp τ sig (Elt F))).Forall fun op => op.fresh = ∅ := by
  simp only [List.Forall]; repeat' constructor
/-- The references this stretch writes. -/
abbrev opsB1_W : List (Ref sig .tc) := [main_v42, main_v43, main_v44, main_v45, main_v46, main_v47]
theorem opsB1_writes : (opsB1 : List (HloOp τ sig (Elt F))).Forall fun op => op.writes ⊆ (opsB1_W.map (Proc.devRef (τ := τ) .tc)).toFinset := by
  simp only [List.Forall]; exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A reference this stretch does not write keeps its contents through it. -/
theorem opsB1_keep (V : Valuation τ sig (Elt F)) (r : Ref sig .tc) (h : r ∉ opsB1_W) :
    after opsB1 V (Proc.devRef .tc r) = V (Proc.devRef .tc r) :=
  after_of_writes_sub opsB1 V opsB1_writes h

/-- The third step's adjacency and its messages. -/
abbrev opsA2 : List (HloOp τ sig (Elt F)) :=
  [ binary main_v47 main_v47 main_v48 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_8 (constant S_ .f32 0x3D800000#32),
    unary main_cst_8 main_v49 (broadcastInDim S128x200x200 ![] bcast_S_S128x200x200 : (⟨S_, .f32⟩ : BufTy).Contents (Elt F) → (⟨S128x200x200, .f32⟩ : BufTy).Contents (Elt F)),
    binary main_v48 main_v49 main_v50 (mulf : (⟨S128x200x200, .f32⟩ : BufTy).Contents (Elt F) → (⟨S128x200x200, .f32⟩ : BufTy).Contents (Elt F) → (⟨S128x200x200, .f32⟩ : BufTy).Contents (Elt F)),
    nullary main_cst_9 (constant S_ .f32 0xFF800000#32),
    binary main_v50 main_cst_9 main_v51 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_10 (constant S_ .f32 0xFF800000#32),
    unary main_cst_10 main_v52 (broadcastInDim S128x200 ![] bcast_S_S128x200 : (⟨S_, .f32⟩ : BufTy).Contents (Elt F) → (⟨S128x200, .f32⟩ : BufTy).Contents (Elt F)),
    binary main_v52 main_v51 main_v53 (maximumf : (⟨S128x200, .f32⟩ : BufTy).Contents (Elt F) → (⟨S128x200, .f32⟩ : BufTy).Contents (Elt F) → (⟨S128x200, .f32⟩ : BufTy).Contents (Elt F)),
    unary main_v53 main_v54 (broadcastInDim S128x200x1 ![0, 1] bcast_S128x200_S128x200x1_0_1 : (⟨S128x200, .f32⟩ : BufTy).Contents (Elt F) → (⟨S128x200x1, .f32⟩ : BufTy).Contents (Elt F)),
    unary main_v54 main_v55 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v50 main_v55 main_v56 (subf : (⟨S128x200x200, .f32⟩ : BufTy).Contents (Elt F) → (⟨S128x200x200, .f32⟩ : BufTy).Contents (Elt F) → (⟨S128x200x200, .f32⟩ : BufTy).Contents (Elt F)),
    unary main_v56 main_v57 (Host.exp : (⟨S128x200x200, .f32⟩ : BufTy).Contents (Elt F) → (⟨S128x200x200, .f32⟩ : BufTy).Contents (Elt F)),
    nullary main_cst_11 (constant S_ .f32 0x00000000#32),
    binary main_v57 main_cst_11 main_v58 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v58 main_v59 (broadcastInDim S128x200x1 ![0, 1] bcast_S128x200_S128x200x1_0_1 : (⟨S128x200, .f32⟩ : BufTy).Contents (Elt F) → (⟨S128x200x1, .f32⟩ : BufTy).Contents (Elt F)),
    unary main_v59 main_v60 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v57 main_v60 main_v61 (Host.divf : (⟨S128x200x200, .f32⟩ : BufTy).Contents (Elt F) → (⟨S128x200x200, .f32⟩ : BufTy).Contents (Elt F) → (⟨S128x200x200, .f32⟩ : BufTy).Contents (Elt F)),
    binary main_v61 main_v47 main_v62 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)) ]

theorem opsA2_sub : (opsA2 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
theorem opsA2_fresh : (opsA2 : List (HloOp τ sig (Elt F))).Forall fun op => op.fresh = ∅ := by
  simp only [List.Forall]; repeat' constructor
/-- The references this stretch writes. -/
abbrev opsA2_W : List (Ref sig .tc) := [main_v48, main_cst_8, main_v49, main_v50, main_cst_9, main_v51, main_cst_10, main_v52, main_v53, main_v54, main_v55, main_v56, main_v57, main_cst_11, main_v58, main_v59, main_v60, main_v61, main_v62]
theorem opsA2_writes : (opsA2 : List (HloOp τ sig (Elt F))).Forall fun op => op.writes ⊆ (opsA2_W.map (Proc.devRef (τ := τ) .tc)).toFinset := by
  simp only [List.Forall]; exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A reference this stretch does not write keeps its contents through it. -/
theorem opsA2_keep (V : Valuation τ sig (Elt F)) (r : Ref sig .tc) (h : r ∉ opsA2_W) :
    after opsA2 V (Proc.devRef .tc r) = V (Proc.devRef .tc r) :=
  after_of_writes_sub opsA2 V opsA2_writes h

/-- The third step's update over the concatenated state and messages. -/
abbrev opsB2 : List (HloOp τ sig (Elt F)) :=
  [ binary main_v47 main_v62 main_v63 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v63 main_arg7 main_v64 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg8 main_v65 (broadcastInDim S1x1x256 ![2] bcast_S256_S1x1x256_2 : (⟨S256, .f32⟩ : BufTy).Contents (Elt F) → (⟨S1x1x256, .f32⟩ : BufTy).Contents (Elt F)),
    unary main_v65 main_v66 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v64 main_v66 main_v67 (addf : (⟨S128x200x256, .f32⟩ : BufTy).Contents (Elt F) → (⟨S128x200x256, .f32⟩ : BufTy).Contents (Elt F) → (⟨S128x200x256, .f32⟩ : BufTy).Contents (Elt F)),
    unary main_v67 main_v68 (Host.tanh : (⟨S128x200x256, .f32⟩ : BufTy).Contents (Elt F) → (⟨S128x200x256, .f32⟩ : BufTy).Contents (Elt F)) ]

theorem opsB2_sub : (opsB2 : List (HloOp τ sig (Elt F))).Forall fun op => op.bufs ⊆ tcRefs τ sig :=
  ⟨binary_bufs_sub .., binary_bufs_sub .., unary_bufs_sub .., unary_bufs_sub .., binary_bufs_sub .., unary_bufs_sub ..⟩
theorem opsB2_fresh : (opsB2 : List (HloOp τ sig (Elt F))).Forall fun op => op.fresh = ∅ := by
  simp only [List.Forall]; repeat' constructor
/-- The references this stretch writes. -/
abbrev opsB2_W : List (Ref sig .tc) := [main_v63, main_v64, main_v65, main_v66, main_v67, main_v68]
theorem opsB2_writes : (opsB2 : List (HloOp τ sig (Elt F))).Forall fun op => op.writes ⊆ (opsB2_W.map (Proc.devRef (τ := τ) .tc)).toFinset := by
  simp only [List.Forall]; exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A reference this stretch does not write keeps its contents through it. -/
theorem opsB2_keep (V : Valuation τ sig (Elt F)) (r : Ref sig .tc) (h : r ∉ opsB2_W) :
    after opsB2 V (Proc.devRef .tc r) = V (Proc.devRef .tc r) :=
  after_of_writes_sub opsB2 V opsB2_writes h

/-- The read-out: the dense layer, the last layer and the sum over the nodes. -/
abbrev opsT : List (HloOp τ sig (Elt F)) :=
  [ binary main_v68 main_arg9 main_v69 ((fun l r => Host.dotGeneral dot_S128x200x256_S256x256_S128x200x256_2_0_01_1_n_n none l r) : (⟨S128x200x256, .f32⟩ : BufTy).Contents (Elt F) → (⟨S256x256, .f32⟩ : BufTy).Contents (Elt F) → (⟨S128x200x256, .f32⟩ : BufTy).Contents (Elt F)),
    unary main_arg10 main_v70 (broadcastInDim S1x1x256 ![2] bcast_S256_S1x1x256_2 : (⟨S256, .f32⟩ : BufTy).Contents (Elt F) → (⟨S1x1x256, .f32⟩ : BufTy).Contents (Elt F)),
    unary main_v70 main_v71 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v69 main_v71 main_v72 (addf : (⟨S128x200x256, .f32⟩ : BufTy).Contents (Elt F) → (⟨S128x200x256, .f32⟩ : BufTy).Contents (Elt F) → (⟨S128x200x256, .f32⟩ : BufTy).Contents (Elt F)),
    unary main_v72 main_v73 (Host.tanh : (⟨S128x200x256, .f32⟩ : BufTy).Contents (Elt F) → (⟨S128x200x256, .f32⟩ : BufTy).Contents (Elt F)),
    binary main_v73 main_arg11 main_v74 ((fun l r => Host.dotGeneral dot_S128x200x256_S256x256_S128x200x256_2_0_01_1_n_n none l r) : (⟨S128x200x256, .f32⟩ : BufTy).Contents (Elt F) → (⟨S256x256, .f32⟩ : BufTy).Contents (Elt F) → (⟨S128x200x256, .f32⟩ : BufTy).Contents (Elt F)),
    unary main_arg12 main_v75 (broadcastInDim S1x1x256 ![2] bcast_S256_S1x1x256_2 : (⟨S256, .f32⟩ : BufTy).Contents (Elt F) → (⟨S1x1x256, .f32⟩ : BufTy).Contents (Elt F)),
    unary main_v75 main_v76 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v74 main_v76 main_v77 (addf : (⟨S128x200x256, .f32⟩ : BufTy).Contents (Elt F) → (⟨S128x200x256, .f32⟩ : BufTy).Contents (Elt F) → (⟨S128x200x256, .f32⟩ : BufTy).Contents (Elt F)),
    nullary main_cst_12 (constant S_ .f32 0x00000000#32),
    binary main_v77 main_cst_12 main_v78 ((fun x v => Host.reduceAdd x v reducesTo_S128x200x256_S128x256_d1 h_S_) : (⟨S128x200x256, .f32⟩ : BufTy).Contents (Elt F) → (⟨S_, .f32⟩ : BufTy).Contents (Elt F) → (⟨S128x256, .f32⟩ : BufTy).Contents (Elt F)) ]

theorem opsT_sub : (opsT : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., binary_bufs_sub .., nullary_bufs_sub .., binary_bufs_sub ..⟩
theorem opsT_fresh : (opsT : List (HloOp τ sig (Elt F))).Forall fun op => op.fresh = ∅ := by
  simp only [List.Forall]; repeat' constructor
/-- The references this stretch writes. -/
abbrev opsT_W : List (Ref sig .tc) := [main_v69, main_v70, main_v71, main_v72, main_v73, main_v74, main_v75, main_v76, main_v77, main_cst_12, main_v78]
theorem opsT_writes : (opsT : List (HloOp τ sig (Elt F))).Forall fun op => op.writes ⊆ (opsT_W.map (Proc.devRef (τ := τ) .tc)).toFinset := by
  simp only [List.Forall]; exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A reference this stretch does not write keeps its contents through it. -/
theorem opsT_keep (V : Valuation τ sig (Elt F)) (r : Ref sig .tc) (h : r ∉ opsT_W) :
    after opsT V (Proc.devRef .tc r) = V (Proc.devRef .tc r) :=
  after_of_writes_sub opsT V opsT_writes h

/-! ## What each stage computes, from any contents -/

theorem opsE_v4 (V : Valuation τ sig (Elt F)) :
    after opsE V (Proc.devRef .tc main_v4) = R.embed (V (Proc.devRef .tc main_arg0)) (V (Proc.devRef .tc main_arg1)) (V (Proc.devRef .tc main_arg2)) := by
  after_results
  rfl

set_option maxHeartbeats 2000000 in
theorem opsA0_attn (V : Valuation τ sig (Elt F)) :
    after opsA0 V (Proc.devRef .tc main_v19) = R.attn (V (Proc.devRef .tc main_v4)) := by
  after_results
  rfl

set_option maxHeartbeats 2000000 in
theorem opsA0_msg (V : Valuation τ sig (Elt F)) :
    after opsA0 V (Proc.devRef .tc main_v20) = Host.dotGeneral dot_S128x200x200_S128x200x256_S128x200x256_2_1_1_2_0_0 none (R.attn (V (Proc.devRef .tc main_v4))) (V (Proc.devRef .tc main_v4)) := by
  after_results
  rfl

theorem opsB0_out (V : Valuation τ sig (Elt F)) :
    after opsB0 V (Proc.devRef .tc main_v26)
      = Host.tanh (addf (Host.dotGeneral dot_S128x200x512_S512x256_S128x200x256_2_0_01_1_n_n none
          (concatenate S128x200x512 2 [⟨S128x200x256, V (Proc.devRef .tc main_v4)⟩, ⟨S128x200x256, V (Proc.devRef .tc main_v20)⟩] concatenates_S128x200x256_S128x200x256_S128x200x512_d2)
          (V (Proc.devRef .tc main_arg3))) (R.bias (V (Proc.devRef .tc main_arg4)))) := by
  after_results
  rfl

/-- Step 1 as a whole: the new state from the old one and the step's weights. -/
theorem step0_out (V : Valuation τ sig (Elt F)) :
    after opsB0 (after opsA0 V) (Proc.devRef .tc main_v26) = R.step (V (Proc.devRef .tc main_v4)) (V (Proc.devRef .tc main_arg3)) (V (Proc.devRef .tc main_arg4)) := by
  rw [opsB0_out, opsA0_msg, opsA0_keep V main_v4 (by decide), opsA0_keep V main_arg3 (by decide), opsA0_keep V main_arg4 (by decide)]
  rfl

theorem step0_keep (V : Valuation τ sig (Elt F)) (r : Ref sig .tc) (hA : r ∉ opsA0_W) (hB : r ∉ opsB0_W) :
    after opsB0 (after opsA0 V) (Proc.devRef .tc r) = V (Proc.devRef .tc r) := by
  rw [opsB0_keep _ r hB, opsA0_keep _ r hA]

set_option maxHeartbeats 2000000 in
theorem opsA1_attn (V : Valuation τ sig (Elt F)) :
    after opsA1 V (Proc.devRef .tc main_v40) = R.attn (V (Proc.devRef .tc main_v26)) := by
  after_results
  rfl

set_option maxHeartbeats 2000000 in
theorem opsA1_msg (V : Valuation τ sig (Elt F)) :
    after opsA1 V (Proc.devRef .tc main_v41) = Host.dotGeneral dot_S128x200x200_S128x200x256_S128x200x256_2_1_1_2_0_0 none (R.attn (V (Proc.devRef .tc main_v26))) (V (Proc.devRef .tc main_v26)) := by
  after_results
  rfl

theorem opsB1_out (V : Valuation τ sig (Elt F)) :
    after opsB1 V (Proc.devRef .tc main_v47)
      = Host.tanh (addf (Host.dotGeneral dot_S128x200x512_S512x256_S128x200x256_2_0_01_1_n_n none
          (concatenate S128x200x512 2 [⟨S128x200x256, V (Proc.devRef .tc main_v26)⟩, ⟨S128x200x256, V (Proc.devRef .tc main_v41)⟩] concatenates_S128x200x256_S128x200x256_S128x200x512_d2)
          (V (Proc.devRef .tc main_arg5))) (R.bias (V (Proc.devRef .tc main_arg6)))) := by
  after_results
  rfl

/-- Step 2 as a whole: the new state from the old one and the step's weights. -/
theorem step1_out (V : Valuation τ sig (Elt F)) :
    after opsB1 (after opsA1 V) (Proc.devRef .tc main_v47) = R.step (V (Proc.devRef .tc main_v26)) (V (Proc.devRef .tc main_arg5)) (V (Proc.devRef .tc main_arg6)) := by
  rw [opsB1_out, opsA1_msg, opsA1_keep V main_v26 (by decide), opsA1_keep V main_arg5 (by decide), opsA1_keep V main_arg6 (by decide)]
  rfl

theorem step1_keep (V : Valuation τ sig (Elt F)) (r : Ref sig .tc) (hA : r ∉ opsA1_W) (hB : r ∉ opsB1_W) :
    after opsB1 (after opsA1 V) (Proc.devRef .tc r) = V (Proc.devRef .tc r) := by
  rw [opsB1_keep _ r hB, opsA1_keep _ r hA]

set_option maxHeartbeats 2000000 in
theorem opsA2_attn (V : Valuation τ sig (Elt F)) :
    after opsA2 V (Proc.devRef .tc main_v61) = R.attn (V (Proc.devRef .tc main_v47)) := by
  after_results
  rfl

set_option maxHeartbeats 2000000 in
theorem opsA2_msg (V : Valuation τ sig (Elt F)) :
    after opsA2 V (Proc.devRef .tc main_v62) = Host.dotGeneral dot_S128x200x200_S128x200x256_S128x200x256_2_1_1_2_0_0 none (R.attn (V (Proc.devRef .tc main_v47))) (V (Proc.devRef .tc main_v47)) := by
  after_results
  rfl

theorem opsB2_out (V : Valuation τ sig (Elt F)) :
    after opsB2 V (Proc.devRef .tc main_v68)
      = Host.tanh (addf (Host.dotGeneral dot_S128x200x512_S512x256_S128x200x256_2_0_01_1_n_n none
          (concatenate S128x200x512 2 [⟨S128x200x256, V (Proc.devRef .tc main_v47)⟩, ⟨S128x200x256, V (Proc.devRef .tc main_v62)⟩] concatenates_S128x200x256_S128x200x256_S128x200x512_d2)
          (V (Proc.devRef .tc main_arg7))) (R.bias (V (Proc.devRef .tc main_arg8)))) := by
  after_results
  rfl

/-- Step 3 as a whole: the new state from the old one and the step's weights. -/
theorem step2_out (V : Valuation τ sig (Elt F)) :
    after opsB2 (after opsA2 V) (Proc.devRef .tc main_v68) = R.step (V (Proc.devRef .tc main_v47)) (V (Proc.devRef .tc main_arg7)) (V (Proc.devRef .tc main_arg8)) := by
  rw [opsB2_out, opsA2_msg, opsA2_keep V main_v47 (by decide), opsA2_keep V main_arg7 (by decide), opsA2_keep V main_arg8 (by decide)]
  rfl

theorem step2_keep (V : Valuation τ sig (Elt F)) (r : Ref sig .tc) (hA : r ∉ opsA2_W) (hB : r ∉ opsB2_W) :
    after opsB2 (after opsA2 V) (Proc.devRef .tc r) = V (Proc.devRef .tc r) := by
  rw [opsB2_keep _ r hB, opsA2_keep _ r hA]

/-- The third step's adjacency survives its update. -/
theorem step2_attn (V : Valuation τ sig (Elt F)) :
    after opsB2 (after opsA2 V) (Proc.devRef .tc main_v61) = R.attn (V (Proc.devRef .tc main_v47)) := by
  rw [opsB2_keep _ main_v61 (by decide), opsA2_attn]

theorem opsT_v78 (V : Valuation τ sig (Elt F)) :
    after opsT V (Proc.devRef .tc main_v78)
      = R.readout (R.dense (V (Proc.devRef .tc main_v68)) (V (Proc.devRef .tc main_arg9)) (V (Proc.devRef .tc main_arg10))) (V (Proc.devRef .tc main_arg11)) (V (Proc.devRef .tc main_arg12)) := by
  after_results
  rfl

/-! ## The whole line -/

/-- @main's 93 operations, in order. -/
abbrev ops : List (HloOp τ sig (Elt F)) :=
  opsE ++ (opsA0 ++ (opsB0 ++ (opsA1 ++ (opsB1 ++ (opsA2 ++ (opsB2 ++ opsT))))))

/-- @main's first window: operations 1 to 60. -/
abbrev opsP0 : List (HloOp τ sig (Elt F)) :=
  [ binary main_arg0 main_arg1 main_v0 ((fun l r => Host.dotGeneral dot_S128x200x8_S8x256_S128x200x256_2_0_01_1_n_n none l r) : (⟨S128x200x8, .f32⟩ : BufTy).Contents (Elt F) → (⟨S8x256, .f32⟩ : BufTy).Contents (Elt F) → (⟨S128x200x256, .f32⟩ : BufTy).Contents (Elt F)),
    unary main_arg2 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v0 main_v2 main_v3 (addf : (⟨S128x200x256, .f32⟩ : BufTy).Contents (Elt F) → (⟨S128x200x256, .f32⟩ : BufTy).Contents (Elt F) → (⟨S128x200x256, .f32⟩ : BufTy).Contents (Elt F)),
    unary main_v3 main_v4 (Host.tanh : (⟨S128x200x256, .f32⟩ : BufTy).Contents (Elt F) → (⟨S128x200x256, .f32⟩ : BufTy).Contents (Elt F)),
    nullary main_cst (constant S_ .f32 0x00000000#32),
    unary main_cst main_v5 (broadcastInDim S128x200x200 ![] bcast_S_S128x200x200 : (⟨S_, .f32⟩ : BufTy).Contents (Elt F) → (⟨S128x200x200, .f32⟩ : BufTy).Contents (Elt F)),
    binary main_v4 main_v4 main_v6 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_0 (constant S_ .f32 0x3D800000#32),
    unary main_cst_0 main_v7 (broadcastInDim S128x200x200 ![] bcast_S_S128x200x200 : (⟨S_, .f32⟩ : BufTy).Contents (Elt F) → (⟨S128x200x200, .f32⟩ : BufTy).Contents (Elt F)),
    binary main_v6 main_v7 main_v8 (mulf : (⟨S128x200x200, .f32⟩ : BufTy).Contents (Elt F) → (⟨S128x200x200, .f32⟩ : BufTy).Contents (Elt F) → (⟨S128x200x200, .f32⟩ : BufTy).Contents (Elt F)),
    nullary main_cst_1 (constant S_ .f32 0xFF800000#32),
    binary main_v8 main_cst_1 main_v9 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_2 (constant S_ .f32 0xFF800000#32),
    unary main_cst_2 main_v10 (broadcastInDim S128x200 ![] bcast_S_S128x200 : (⟨S_, .f32⟩ : BufTy).Contents (Elt F) → (⟨S128x200, .f32⟩ : BufTy).Contents (Elt F)),
    binary main_v10 main_v9 main_v11 (maximumf : (⟨S128x200, .f32⟩ : BufTy).Contents (Elt F) → (⟨S128x200, .f32⟩ : BufTy).Contents (Elt F) → (⟨S128x200, .f32⟩ : BufTy).Contents (Elt F)),
    unary main_v11 main_v12 (broadcastInDim S128x200x1 ![0, 1] bcast_S128x200_S128x200x1_0_1 : (⟨S128x200, .f32⟩ : BufTy).Contents (Elt F) → (⟨S128x200x1, .f32⟩ : BufTy).Contents (Elt F)),
    unary main_v12 main_v13 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v8 main_v13 main_v14 (subf : (⟨S128x200x200, .f32⟩ : BufTy).Contents (Elt F) → (⟨S128x200x200, .f32⟩ : BufTy).Contents (Elt F) → (⟨S128x200x200, .f32⟩ : BufTy).Contents (Elt F)),
    unary main_v14 main_v15 (Host.exp : (⟨S128x200x200, .f32⟩ : BufTy).Contents (Elt F) → (⟨S128x200x200, .f32⟩ : BufTy).Contents (Elt F)),
    nullary main_cst_3 (constant S_ .f32 0x00000000#32),
    binary main_v15 main_cst_3 main_v16 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v16 main_v17 (broadcastInDim S128x200x1 ![0, 1] bcast_S128x200_S128x200x1_0_1 : (⟨S128x200, .f32⟩ : BufTy).Contents (Elt F) → (⟨S128x200x1, .f32⟩ : BufTy).Contents (Elt F)),
    unary main_v17 main_v18 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v15 main_v18 main_v19 (Host.divf : (⟨S128x200x200, .f32⟩ : BufTy).Contents (Elt F) → (⟨S128x200x200, .f32⟩ : BufTy).Contents (Elt F) → (⟨S128x200x200, .f32⟩ : BufTy).Contents (Elt F)),
    binary main_v19 main_v4 main_v20 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v4 main_v20 main_v21 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v21 main_arg3 main_v22 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg4 main_v23 (broadcastInDim S1x1x256 ![2] bcast_S256_S1x1x256_2 : (⟨S256, .f32⟩ : BufTy).Contents (Elt F) → (⟨S1x1x256, .f32⟩ : BufTy).Contents (Elt F)),
    unary main_v23 main_v24 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v22 main_v24 main_v25 (addf : (⟨S128x200x256, .f32⟩ : BufTy).Contents (Elt F) → (⟨S128x200x256, .f32⟩ : BufTy).Contents (Elt F) → (⟨S128x200x256, .f32⟩ : BufTy).Contents (Elt F)),
    unary main_v25 main_v26 (Host.tanh : (⟨S128x200x256, .f32⟩ : BufTy).Contents (Elt F) → (⟨S128x200x256, .f32⟩ : BufTy).Contents (Elt F)),
    binary main_v26 main_v26 main_v27 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_4 (constant S_ .f32 0x3D800000#32),
    unary main_cst_4 main_v28 (broadcastInDim S128x200x200 ![] bcast_S_S128x200x200 : (⟨S_, .f32⟩ : BufTy).Contents (Elt F) → (⟨S128x200x200, .f32⟩ : BufTy).Contents (Elt F)),
    binary main_v27 main_v28 main_v29 (mulf : (⟨S128x200x200, .f32⟩ : BufTy).Contents (Elt F) → (⟨S128x200x200, .f32⟩ : BufTy).Contents (Elt F) → (⟨S128x200x200, .f32⟩ : BufTy).Contents (Elt F)),
    nullary main_cst_5 (constant S_ .f32 0xFF800000#32),
    binary main_v29 main_cst_5 main_v30 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_6 (constant S_ .f32 0xFF800000#32),
    unary main_cst_6 main_v31 (broadcastInDim S128x200 ![] bcast_S_S128x200 : (⟨S_, .f32⟩ : BufTy).Contents (Elt F) → (⟨S128x200, .f32⟩ : BufTy).Contents (Elt F)),
    binary main_v31 main_v30 main_v32 (maximumf : (⟨S128x200, .f32⟩ : BufTy).Contents (Elt F) → (⟨S128x200, .f32⟩ : BufTy).Contents (Elt F) → (⟨S128x200, .f32⟩ : BufTy).Contents (Elt F)),
    unary main_v32 main_v33 (broadcastInDim S128x200x1 ![0, 1] bcast_S128x200_S128x200x1_0_1 : (⟨S128x200, .f32⟩ : BufTy).Contents (Elt F) → (⟨S128x200x1, .f32⟩ : BufTy).Contents (Elt F)),
    unary main_v33 main_v34 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v29 main_v34 main_v35 (subf : (⟨S128x200x200, .f32⟩ : BufTy).Contents (Elt F) → (⟨S128x200x200, .f32⟩ : BufTy).Contents (Elt F) → (⟨S128x200x200, .f32⟩ : BufTy).Contents (Elt F)),
    unary main_v35 main_v36 (Host.exp : (⟨S128x200x200, .f32⟩ : BufTy).Contents (Elt F) → (⟨S128x200x200, .f32⟩ : BufTy).Contents (Elt F)),
    nullary main_cst_7 (constant S_ .f32 0x00000000#32),
    binary main_v36 main_cst_7 main_v37 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v37 main_v38 (broadcastInDim S128x200x1 ![0, 1] bcast_S128x200_S128x200x1_0_1 : (⟨S128x200, .f32⟩ : BufTy).Contents (Elt F) → (⟨S128x200x1, .f32⟩ : BufTy).Contents (Elt F)),
    unary main_v38 main_v39 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v36 main_v39 main_v40 (Host.divf : (⟨S128x200x200, .f32⟩ : BufTy).Contents (Elt F) → (⟨S128x200x200, .f32⟩ : BufTy).Contents (Elt F) → (⟨S128x200x200, .f32⟩ : BufTy).Contents (Elt F)),
    binary main_v40 main_v26 main_v41 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v26 main_v41 main_v42 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v42 main_arg5 main_v43 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg6 main_v44 (broadcastInDim S1x1x256 ![2] bcast_S256_S1x1x256_2 : (⟨S256, .f32⟩ : BufTy).Contents (Elt F) → (⟨S1x1x256, .f32⟩ : BufTy).Contents (Elt F)),
    unary main_v44 main_v45 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v43 main_v45 main_v46 (addf : (⟨S128x200x256, .f32⟩ : BufTy).Contents (Elt F) → (⟨S128x200x256, .f32⟩ : BufTy).Contents (Elt F) → (⟨S128x200x256, .f32⟩ : BufTy).Contents (Elt F)),
    unary main_v46 main_v47 (Host.tanh : (⟨S128x200x256, .f32⟩ : BufTy).Contents (Elt F) → (⟨S128x200x256, .f32⟩ : BufTy).Contents (Elt F)),
    binary main_v47 main_v47 main_v48 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_8 (constant S_ .f32 0x3D800000#32),
    unary main_cst_8 main_v49 (broadcastInDim S128x200x200 ![] bcast_S_S128x200x200 : (⟨S_, .f32⟩ : BufTy).Contents (Elt F) → (⟨S128x200x200, .f32⟩ : BufTy).Contents (Elt F)) ]

/-- @main's second window: operations 61 to 93. -/
abbrev opsP1 : List (HloOp τ sig (Elt F)) :=
  [ binary main_v48 main_v49 main_v50 (mulf : (⟨S128x200x200, .f32⟩ : BufTy).Contents (Elt F) → (⟨S128x200x200, .f32⟩ : BufTy).Contents (Elt F) → (⟨S128x200x200, .f32⟩ : BufTy).Contents (Elt F)),
    nullary main_cst_9 (constant S_ .f32 0xFF800000#32),
    binary main_v50 main_cst_9 main_v51 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_10 (constant S_ .f32 0xFF800000#32),
    unary main_cst_10 main_v52 (broadcastInDim S128x200 ![] bcast_S_S128x200 : (⟨S_, .f32⟩ : BufTy).Contents (Elt F) → (⟨S128x200, .f32⟩ : BufTy).Contents (Elt F)),
    binary main_v52 main_v51 main_v53 (maximumf : (⟨S128x200, .f32⟩ : BufTy).Contents (Elt F) → (⟨S128x200, .f32⟩ : BufTy).Contents (Elt F) → (⟨S128x200, .f32⟩ : BufTy).Contents (Elt F)),
    unary main_v53 main_v54 (broadcastInDim S128x200x1 ![0, 1] bcast_S128x200_S128x200x1_0_1 : (⟨S128x200, .f32⟩ : BufTy).Contents (Elt F) → (⟨S128x200x1, .f32⟩ : BufTy).Contents (Elt F)),
    unary main_v54 main_v55 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v50 main_v55 main_v56 (subf : (⟨S128x200x200, .f32⟩ : BufTy).Contents (Elt F) → (⟨S128x200x200, .f32⟩ : BufTy).Contents (Elt F) → (⟨S128x200x200, .f32⟩ : BufTy).Contents (Elt F)),
    unary main_v56 main_v57 (Host.exp : (⟨S128x200x200, .f32⟩ : BufTy).Contents (Elt F) → (⟨S128x200x200, .f32⟩ : BufTy).Contents (Elt F)),
    nullary main_cst_11 (constant S_ .f32 0x00000000#32),
    binary main_v57 main_cst_11 main_v58 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v58 main_v59 (broadcastInDim S128x200x1 ![0, 1] bcast_S128x200_S128x200x1_0_1 : (⟨S128x200, .f32⟩ : BufTy).Contents (Elt F) → (⟨S128x200x1, .f32⟩ : BufTy).Contents (Elt F)),
    unary main_v59 main_v60 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v57 main_v60 main_v61 (Host.divf : (⟨S128x200x200, .f32⟩ : BufTy).Contents (Elt F) → (⟨S128x200x200, .f32⟩ : BufTy).Contents (Elt F) → (⟨S128x200x200, .f32⟩ : BufTy).Contents (Elt F)),
    binary main_v61 main_v47 main_v62 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v47 main_v62 main_v63 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v63 main_arg7 main_v64 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg8 main_v65 (broadcastInDim S1x1x256 ![2] bcast_S256_S1x1x256_2 : (⟨S256, .f32⟩ : BufTy).Contents (Elt F) → (⟨S1x1x256, .f32⟩ : BufTy).Contents (Elt F)),
    unary main_v65 main_v66 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v64 main_v66 main_v67 (addf : (⟨S128x200x256, .f32⟩ : BufTy).Contents (Elt F) → (⟨S128x200x256, .f32⟩ : BufTy).Contents (Elt F) → (⟨S128x200x256, .f32⟩ : BufTy).Contents (Elt F)),
    unary main_v67 main_v68 (Host.tanh : (⟨S128x200x256, .f32⟩ : BufTy).Contents (Elt F) → (⟨S128x200x256, .f32⟩ : BufTy).Contents (Elt F)),
    binary main_v68 main_arg9 main_v69 ((fun l r => Host.dotGeneral dot_S128x200x256_S256x256_S128x200x256_2_0_01_1_n_n none l r) : (⟨S128x200x256, .f32⟩ : BufTy).Contents (Elt F) → (⟨S256x256, .f32⟩ : BufTy).Contents (Elt F) → (⟨S128x200x256, .f32⟩ : BufTy).Contents (Elt F)),
    unary main_arg10 main_v70 (broadcastInDim S1x1x256 ![2] bcast_S256_S1x1x256_2 : (⟨S256, .f32⟩ : BufTy).Contents (Elt F) → (⟨S1x1x256, .f32⟩ : BufTy).Contents (Elt F)),
    unary main_v70 main_v71 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v69 main_v71 main_v72 (addf : (⟨S128x200x256, .f32⟩ : BufTy).Contents (Elt F) → (⟨S128x200x256, .f32⟩ : BufTy).Contents (Elt F) → (⟨S128x200x256, .f32⟩ : BufTy).Contents (Elt F)),
    unary main_v72 main_v73 (Host.tanh : (⟨S128x200x256, .f32⟩ : BufTy).Contents (Elt F) → (⟨S128x200x256, .f32⟩ : BufTy).Contents (Elt F)),
    binary main_v73 main_arg11 main_v74 ((fun l r => Host.dotGeneral dot_S128x200x256_S256x256_S128x200x256_2_0_01_1_n_n none l r) : (⟨S128x200x256, .f32⟩ : BufTy).Contents (Elt F) → (⟨S256x256, .f32⟩ : BufTy).Contents (Elt F) → (⟨S128x200x256, .f32⟩ : BufTy).Contents (Elt F)),
    unary main_arg12 main_v75 (broadcastInDim S1x1x256 ![2] bcast_S256_S1x1x256_2 : (⟨S256, .f32⟩ : BufTy).Contents (Elt F) → (⟨S1x1x256, .f32⟩ : BufTy).Contents (Elt F)),
    unary main_v75 main_v76 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v74 main_v76 main_v77 (addf : (⟨S128x200x256, .f32⟩ : BufTy).Contents (Elt F) → (⟨S128x200x256, .f32⟩ : BufTy).Contents (Elt F) → (⟨S128x200x256, .f32⟩ : BufTy).Contents (Elt F)),
    nullary main_cst_12 (constant S_ .f32 0x00000000#32),
    binary main_v77 main_cst_12 main_v78 ((fun x v => Host.reduceAdd x v reducesTo_S128x200x256_S128x256_d1 h_S_) : (⟨S128x200x256, .f32⟩ : BufTy).Contents (Elt F) → (⟨S_, .f32⟩ : BufTy).Contents (Elt F) → (⟨S128x256, .f32⟩ : BufTy).Contents (Elt F)) ]

set_option maxRecDepth 8192 in
set_option maxHeartbeats 4000000 in
theorem main_part0_eq (c : Dev nD) : main_part0 (F := F) c = seq opsP0 := rfl

set_option maxRecDepth 8192 in
set_option maxHeartbeats 4000000 in
theorem main_part1_eq (c : Dev nD) : main_part1 (F := F) c = seq opsP1 := rfl

set_option maxRecDepth 8192 in
/-- The two windows' operations in a row are the stages' in a row. -/
theorem windows_eq : (opsP0 ++ opsP1 : List (HloOp τ sig (Elt F))) = ops := rfl

theorem main_eq (c : Dev nD) : main (F := F) c = seq ops := by
  rw [← windows_eq, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp opsE_sub op h, List.forall_iff_forall_mem.mp opsA0_sub op h, List.forall_iff_forall_mem.mp opsB0_sub op h, List.forall_iff_forall_mem.mp opsA1_sub op h, List.forall_iff_forall_mem.mp opsB1_sub op h, List.forall_iff_forall_mem.mp opsA2_sub op h, List.forall_iff_forall_mem.mp opsB2_sub op h, List.forall_iff_forall_mem.mp opsT_sub op h]

theorem ops_fresh : ∀ op ∈ (ops : List (HloOp τ sig (Elt F))), op.fresh = ∅ := fun op h => by
  simp only [ops, List.mem_append] at h
  rcases h with h | h | h | h | h | h | h | h
  exacts [List.forall_iff_forall_mem.mp opsE_fresh op h, List.forall_iff_forall_mem.mp opsA0_fresh op h, List.forall_iff_forall_mem.mp opsB0_fresh op h, List.forall_iff_forall_mem.mp opsA1_fresh op h, List.forall_iff_forall_mem.mp opsB1_fresh op h, List.forall_iff_forall_mem.mp opsA2_fresh op h, List.forall_iff_forall_mem.mp opsB2_fresh op h, List.forall_iff_forall_mem.mp opsT_fresh op h]

/-- A reference no stage writes keeps its contents through the whole line. -/
theorem ops_keep (V : Valuation τ sig (Elt F)) (r : Ref sig .tc)
    (hE : r ∉ opsE_W) (hA0 : r ∉ opsA0_W) (hB0 : r ∉ opsB0_W) (hA1 : r ∉ opsA1_W) (hB1 : r ∉ opsB1_W) (hA2 : r ∉ opsA2_W) (hB2 : r ∉ opsB2_W) (hT : r ∉ opsT_W) :
    after ops V (Proc.devRef .tc r) = V (Proc.devRef .tc r) := by
  simp only [ops, after_app]
  rw [opsT_keep _ r hT, step2_keep _ r hA2 hB2, step1_keep _ r hA1 hB1, step0_keep _ r hA0 hB0, opsE_keep _ r hE]

/-- The first result after the whole line, from any contents. -/
theorem ops_v78 (V : Valuation τ sig (Elt F)) :
    after ops V (Proc.devRef .tc main_v78) = R.resOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  simp only [ops, after_app]
  rw [opsT_v78, step2_out, step2_keep _ main_arg9 (by decide) (by decide), step2_keep _ main_arg10 (by decide) (by decide), step2_keep _ main_arg11 (by decide) (by decide), step2_keep _ main_arg12 (by decide) (by decide)]
  rw [step1_out, step1_keep _ main_arg7 (by decide) (by decide), step1_keep _ main_arg8 (by decide) (by decide), step1_keep _ main_arg9 (by decide) (by decide), step1_keep _ main_arg10 (by decide) (by decide), step1_keep _ main_arg11 (by decide) (by decide), step1_keep _ main_arg12 (by decide) (by decide)]
  rw [step0_out, step0_keep _ main_arg5 (by decide) (by decide), step0_keep _ main_arg6 (by decide) (by decide), step0_keep _ main_arg7 (by decide) (by decide), step0_keep _ main_arg8 (by decide) (by decide), step0_keep _ main_arg9 (by decide) (by decide), step0_keep _ main_arg10 (by decide) (by decide), step0_keep _ main_arg11 (by decide) (by decide), step0_keep _ main_arg12 (by decide) (by decide)]
  rw [opsE_v4, opsE_keep _ main_arg3 (by decide), opsE_keep _ main_arg4 (by decide), opsE_keep _ main_arg5 (by decide), opsE_keep _ main_arg6 (by decide), opsE_keep _ main_arg7 (by decide), opsE_keep _ main_arg8 (by decide), opsE_keep _ main_arg9 (by decide), opsE_keep _ main_arg10 (by decide), opsE_keep _ main_arg11 (by decide), opsE_keep _ main_arg12 (by decide)]
  rfl

/-- The second result after the whole line, from any contents. -/
theorem ops_v61 (V : Valuation τ sig (Elt F)) :
    after ops V (Proc.devRef .tc main_v61) = R.resA (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  simp only [ops, after_app]
  rw [opsT_keep _ main_v61 (by decide), step2_attn]
  rw [step1_out]
  rw [step0_out, step0_keep _ main_arg5 (by decide) (by decide), step0_keep _ main_arg6 (by decide) (by decide)]
  rw [opsE_v4, opsE_keep _ main_arg3 (by decide), opsE_keep _ main_arg4 (by decide), opsE_keep _ main_arg5 (by decide), opsE_keep _ main_arg6 (by decide)]
  rfl

/-- Every weakly fair execution of the reference program ends with the two results at the composed stage
    functions of the argument arrays, the arguments unchanged. -/
theorem run (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r => ∀ c : Dev Cert.ReferenceIdeal.nD,
      r.2.mem ((c.tc : Thread Cert.ReferenceIdeal.nD Cert.ReferenceIdeal.τ).loc Cert.ReferenceIdeal.main_v78) = R.resOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_v61) = R.resA (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)) :=
  (θ_run defs _ _).mono (fun _ h c => ⟨(h c main_v78).trans (ops_v78 (launchContents m c)),
      (h c main_v61).trans (ops_v61 (launchContents m c)),
      (h c main_arg0).trans (ops_keep (launchContents m c) main_arg0 (by decide) (by decide) (by decide) (by decide) (by decide) (by decide) (by decide) (by decide)),
      (h c main_arg1).trans (ops_keep (launchContents m c) main_arg1 (by decide) (by decide) (by decide) (by decide) (by decide) (by decide) (by decide) (by decide)),
      (h c main_arg2).trans (ops_keep (launchContents m c) main_arg2 (by decide) (by decide) (by decide) (by decide) (by decide) (by decide) (by decide) (by decide)),
      (h c main_arg3).trans (ops_keep (launchContents m c) main_arg3 (by decide) (by decide) (by decide) (by decide) (by decide) (by decide) (by decide) (by decide)),
      (h c main_arg4).trans (ops_keep (launchContents m c) main_arg4 (by decide) (by decide) (by decide) (by decide) (by decide) (by decide) (by decide) (by decide)),
      (h c main_arg5).trans (ops_keep (launchContents m c) main_arg5 (by decide) (by decide) (by decide) (by decide) (by decide) (by decide) (by decide) (by decide)),
      (h c main_arg6).trans (ops_keep (launchContents m c) main_arg6 (by decide) (by decide) (by decide) (by decide) (by decide) (by decide) (by decide) (by decide)),
      (h c main_arg7).trans (ops_keep (launchContents m c) main_arg7 (by decide) (by decide) (by decide) (by decide) (by decide) (by decide) (by decide) (by decide)),
      (h c main_arg8).trans (ops_keep (launchContents m c) main_arg8 (by decide) (by decide) (by decide) (by decide) (by decide) (by decide) (by decide) (by decide)),
      (h c main_arg9).trans (ops_keep (launchContents m c) main_arg9 (by decide) (by decide) (by decide) (by decide) (by decide) (by decide) (by decide) (by decide)),
      (h c main_arg10).trans (ops_keep (launchContents m c) main_arg10 (by decide) (by decide) (by decide) (by decide) (by decide) (by decide) (by decide) (by decide)),
      (h c main_arg11).trans (ops_keep (launchContents m c) main_arg11 (by decide) (by decide) (by decide) (by decide) (by decide) (by decide) (by decide) (by decide)),
      (h c main_arg12).trans (ops_keep (launchContents m c) main_arg12 (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefOps.lean ====
/-
  The reference's operations read at an index, at the exact (extended-real) instance: each matrix product as a sum over its
  contracted axis, each spread bias, row value and constant as the value it repeats, each row maximum as a fold of
  `max`, each row or node sum as a sum, and the concatenation as its left or right operand.
-/
import proofs.«151125_g85813446574462_cont_9to1c4b_288_10_alg».proof.Proof.RefDefs
import proofs.«151125_g85813446574462_cont_9to1c4b_288_10_alg».proof.Proof.Spec
import Idealize.ShloMosaic.Lib.ValueIdx
import Idealize.ShloMosaic.Lib.Pipeline.Value
import Idealize.ShloMosaic.PureOps.Ideal.Laws

noncomputable section

namespace Cert.ReferenceIdeal.RefOps

open Idealize.ShloMosaic Idealize.ShloMosaic.ValueIdx Cert.ReferenceIdeal Cert.ReferenceIdeal.Facts₀ Cert.ReferenceIdeal.Facts
open scoped BigOperators

variable [Facts]

theorem lhs_emb_0 (i : S128x200x256.Idx) (q : dot_S128x200x8_S8x256_S128x200x256_2_0_01_1_n_n.contr.Idx) :
    (dot_S128x200x8_S8x256_S128x200x256_2_0_01_1_n_n.lhsIdx i q 0).val = (i 0).val := by
  unfold DotDims.lhsIdx
  rw [dif_neg (show ¬(0 : Fin S128x200x8.rank) ∈ dot_S128x200x8_S8x256_S128x200x256_2_0_01_1_n_n.lhsBatch from (by decide : ¬(0 : Fin S128x200x8.rank) ∈ ([] : List (Fin S128x200x8.rank)))),
    dif_pos (show (0 : Fin S128x200x8.rank) ∈ dot_S128x200x8_S8x256_S128x200x256_2_0_01_1_n_n.lhsNonContracting from (by decide : (0 : Fin S128x200x8.rank) ∈ ([0, 1] : List (Fin S128x200x8.rank))))]
  rfl

theorem lhs_emb_1 (i : S128x200x256.Idx) (q : dot_S128x200x8_S8x256_S128x200x256_2_0_01_1_n_n.contr.Idx) :
    (dot_S128x200x8_S8x256_S128x200x256_2_0_01_1_n_n.lhsIdx i q 1).val = (i 1).val := by
  unfold DotDims.lhsIdx
  rw [dif_neg (show ¬(1 : Fin S128x200x8.rank) ∈ dot_S128x200x8_S8x256_S128x200x256_2_0_01_1_n_n.lhsBatch from (by decide : ¬(1 : Fin S128x200x8.rank) ∈ ([] : List (Fin S128x200x8.rank)))),
    dif_pos (show (1 : Fin S128x200x8.rank) ∈ dot_S128x200x8_S8x256_S128x200x256_2_0_01_1_n_n.lhsNonContracting from (by decide : (1 : Fin S128x200x8.rank) ∈ ([0, 1] : List (Fin S128x200x8.rank))))]
  rfl

theorem lhs_emb_2 (i : S128x200x256.Idx) (q : dot_S128x200x8_S8x256_S128x200x256_2_0_01_1_n_n.contr.Idx) :
    (dot_S128x200x8_S8x256_S128x200x256_2_0_01_1_n_n.lhsIdx i q 2).val = (q ⟨0, Nat.one_pos⟩).val :=
  dot_S128x200x8_S8x256_S128x200x256_2_0_01_1_n_n.lhsIdx_val_of_single rfl i q

theorem rhs_emb_0 (i : S128x200x256.Idx) (q : dot_S128x200x8_S8x256_S128x200x256_2_0_01_1_n_n.contr.Idx) :
    (dot_S128x200x8_S8x256_S128x200x256_2_0_01_1_n_n.rhsIdx i q 0).val = (q ⟨0, Nat.one_pos⟩).val :=
  dot_S128x200x8_S8x256_S128x200x256_2_0_01_1_n_n.rhsIdx_val_of_single rfl i q

theorem rhs_emb_1 (i : S128x200x256.Idx) (q : dot_S128x200x8_S8x256_S128x200x256_2_0_01_1_n_n.contr.Idx) :
    (dot_S128x200x8_S8x256_S128x200x256_2_0_01_1_n_n.rhsIdx i q 1).val = (i 2).val := by
  unfold DotDims.rhsIdx
  rw [dif_neg (show ¬(1 : Fin S8x256.rank) ∈ dot_S128x200x8_S8x256_S128x200x256_2_0_01_1_n_n.rhsBatch from (by decide : ¬(1 : Fin S8x256.rank) ∈ ([] : List (Fin S8x256.rank)))),
    dif_pos (show (1 : Fin S8x256.rank) ∈ dot_S128x200x8_S8x256_S128x200x256_2_0_01_1_n_n.rhsNonContracting from (by decide : (1 : Fin S8x256.rank) ∈ ([1] : List (Fin S8x256.rank))))]
  rfl

theorem dot_emb (X : FVec Ideal S128x200x8 .f32) (W : FVec Ideal S8x256 .f32) (b : Fin 128) (r : Fin 200) (j : Fin 256) :
    Host.dotGeneral dot_S128x200x8_S8x256_S128x200x256_2_0_01_1_n_n none X W (ix3 b r j)
      = ∑ k : Fin 8, X (ix3 b r k) * W (ix2 k j) := by
  simp only [Host.dotGeneral]
  rw [Ideal.dotGeneral_apply, ← Equiv.sum_comp (ValueIdx.contrEquiv1 dot_S128x200x8_S8x256_S128x200x256_2_0_01_1_n_n 8 rfl rfl).symm]
  refine Finset.sum_congr rfl fun k _ => ?_
  have hk := ValueIdx.contrEquiv1_symm_val dot_S128x200x8_S8x256_S128x200x256_2_0_01_1_n_n 8 rfl rfl k
  have el : dot_S128x200x8_S8x256_S128x200x256_2_0_01_1_n_n.lhsIdx (ix3 b r j) ((ValueIdx.contrEquiv1 dot_S128x200x8_S8x256_S128x200x256_2_0_01_1_n_n 8 rfl rfl).symm k) = ix3 b r k := funext fun a => Fin.ext (by
    match a with
    | ⟨0, _⟩ => exact lhs_emb_0 _ _
    | ⟨1, _⟩ => exact lhs_emb_1 _ _
    | ⟨2, _⟩ => exact (lhs_emb_2 _ _).trans hk)
  have er : dot_S128x200x8_S8x256_S128x200x256_2_0_01_1_n_n.rhsIdx (ix3 b r j) ((ValueIdx.contrEquiv1 dot_S128x200x8_S8x256_S128x200x256_2_0_01_1_n_n 8 rfl rfl).symm k) = ix2 k j := funext fun a => Fin.ext (by
    match a with
    | ⟨0, _⟩ => exact (rhs_emb_0 _ _).trans hk
    | ⟨1, _⟩ => exact rhs_emb_1 _ _)
  rw [el, er]

theorem lhs_tt_0 (i : S128x200x200.Idx) (q : dot_S128x200x256_S128x200x256_S128x200x200_2_2_1_1_0_0.contr.Idx) :
    (dot_S128x200x256_S128x200x256_S128x200x200_2_2_1_1_0_0.lhsIdx i q 0).val = (i 0).val := by
  unfold DotDims.lhsIdx
  rw [dif_pos (show (0 : Fin S128x200x256.rank) ∈ dot_S128x200x256_S128x200x256_S128x200x200_2_2_1_1_0_0.lhsBatch from (by decide : (0 : Fin S128x200x256.rank) ∈ ([0] : List (Fin S128x200x256.rank))))]
  rfl

theorem lhs_tt_1 (i : S128x200x200.Idx) (q : dot_S128x200x256_S128x200x256_S128x200x200_2_2_1_1_0_0.contr.Idx) :
    (dot_S128x200x256_S128x200x256_S128x200x200_2_2_1_1_0_0.lhsIdx i q 1).val = (i 1).val := by
  unfold DotDims.lhsIdx
  rw [dif_neg (show ¬(1 : Fin S128x200x256.rank) ∈ dot_S128x200x256_S128x200x256_S128x200x200_2_2_1_1_0_0.lhsBatch from (by decide : ¬(1 : Fin S128x200x256.rank) ∈ ([0] : List (Fin S128x200x256.rank)))),
    dif_pos (show (1 : Fin S128x200x256.rank) ∈ dot_S128x200x256_S128x200x256_S128x200x200_2_2_1_1_0_0.lhsNonContracting from (by decide : (1 : Fin S128x200x256.rank) ∈ ([1] : List (Fin S128x200x256.rank))))]
  rfl

theorem lhs_tt_2 (i : S128x200x200.Idx) (q : dot_S128x200x256_S128x200x256_S128x200x200_2_2_1_1_0_0.contr.Idx) :
    (dot_S128x200x256_S128x200x256_S128x200x200_2_2_1_1_0_0.lhsIdx i q 2).val = (q ⟨0, Nat.one_pos⟩).val :=
  dot_S128x200x256_S128x200x256_S128x200x200_2_2_1_1_0_0.lhsIdx_val_of_single rfl i q

theorem rhs_tt_0 (i : S128x200x200.Idx) (q : dot_S128x200x256_S128x200x256_S128x200x200_2_2_1_1_0_0.contr.Idx) :
    (dot_S128x200x256_S128x200x256_S128x200x200_2_2_1_1_0_0.rhsIdx i q 0).val = (i 0).val := by
  unfold DotDims.rhsIdx
  rw [dif_pos (show (0 : Fin S128x200x256.rank) ∈ dot_S128x200x256_S128x200x256_S128x200x200_2_2_1_1_0_0.rhsBatch from (by decide : (0 : Fin S128x200x256.rank) ∈ ([0] : List (Fin S128x200x256.rank))))]
  rfl

theorem rhs_tt_1 (i : S128x200x200.Idx) (q : dot_S128x200x256_S128x200x256_S128x200x200_2_2_1_1_0_0.contr.Idx) :
    (dot_S128x200x256_S128x200x256_S128x200x200_2_2_1_1_0_0.rhsIdx i q 1).val = (i 2).val := by
  unfold DotDims.rhsIdx
  rw [dif_neg (show ¬(1 : Fin S128x200x256.rank) ∈ dot_S128x200x256_S128x200x256_S128x200x200_2_2_1_1_0_0.rhsBatch from (by decide : ¬(1 : Fin S128x200x256.rank) ∈ ([0] : List (Fin S128x200x256.rank)))),
    dif_pos (show (1 : Fin S128x200x256.rank) ∈ dot_S128x200x256_S128x200x256_S128x200x200_2_2_1_1_0_0.rhsNonContracting from (by decide : (1 : Fin S128x200x256.rank) ∈ ([1] : List (Fin S128x200x256.rank))))]
  rfl

theorem rhs_tt_2 (i : S128x200x200.Idx) (q : dot_S128x200x256_S128x200x256_S128x200x200_2_2_1_1_0_0.contr.Idx) :
    (dot_S128x200x256_S128x200x256_S128x200x200_2_2_1_1_0_0.rhsIdx i q 2).val = (q ⟨0, Nat.one_pos⟩).val :=
  dot_S128x200x256_S128x200x256_S128x200x200_2_2_1_1_0_0.rhsIdx_val_of_single rfl i q

theorem dot_tt (X Y : FVec Ideal S128x200x256 .f32) (b : Fin 128) (r j : Fin 200) :
    Host.dotGeneral dot_S128x200x256_S128x200x256_S128x200x200_2_2_1_1_0_0 none X Y (ix3 b r j)
      = ∑ k : Fin 256, X (ix3 b r k) * Y (ix3 b j k) := by
  simp only [Host.dotGeneral]
  rw [Ideal.dotGeneral_apply, ← Equiv.sum_comp (ValueIdx.contrEquiv1 dot_S128x200x256_S128x200x256_S128x200x200_2_2_1_1_0_0 256 rfl rfl).symm]
  refine Finset.sum_congr rfl fun k _ => ?_
  have hk := ValueIdx.contrEquiv1_symm_val dot_S128x200x256_S128x200x256_S128x200x200_2_2_1_1_0_0 256 rfl rfl k
  have el : dot_S128x200x256_S128x200x256_S128x200x200_2_2_1_1_0_0.lhsIdx (ix3 b r j) ((ValueIdx.contrEquiv1 dot_S128x200x256_S128x200x256_S128x200x200_2_2_1_1_0_0 256 rfl rfl).symm k) = ix3 b r k := funext fun a => Fin.ext (by
    match a with
    | ⟨0, _⟩ => exact lhs_tt_0 _ _
    | ⟨1, _⟩ => exact lhs_tt_1 _ _
    | ⟨2, _⟩ => exact (lhs_tt_2 _ _).trans hk)
  have er : dot_S128x200x256_S128x200x256_S128x200x200_2_2_1_1_0_0.rhsIdx (ix3 b r j) ((ValueIdx.contrEquiv1 dot_S128x200x256_S128x200x256_S128x200x200_2_2_1_1_0_0 256 rfl rfl).symm k) = ix3 b j k := funext fun a => Fin.ext (by
    match a with
    | ⟨0, _⟩ => exact rhs_tt_0 _ _
    | ⟨1, _⟩ => exact rhs_tt_1 _ _
    | ⟨2, _⟩ => exact (rhs_tt_2 _ _).trans hk)
  rw [el, er]

theorem lhs_av_0 (i : S128x200x256.Idx) (q : dot_S128x200x200_S128x200x256_S128x200x256_2_1_1_2_0_0.contr.Idx) :
    (dot_S128x200x200_S128x200x256_S128x200x256_2_1_1_2_0_0.lhsIdx i q 0).val = (i 0).val := by
  unfold DotDims.lhsIdx
  rw [dif_pos (show (0 : Fin S128x200x200.rank) ∈ dot_S128x200x200_S128x200x256_S128x200x256_2_1_1_2_0_0.lhsBatch from (by decide : (0 : Fin S128x200x200.rank) ∈ ([0] : List (Fin S128x200x200.rank))))]
  rfl

theorem lhs_av_1 (i : S128x200x256.Idx) (q : dot_S128x200x200_S128x200x256_S128x200x256_2_1_1_2_0_0.contr.Idx) :
    (dot_S128x200x200_S128x200x256_S128x200x256_2_1_1_2_0_0.lhsIdx i q 1).val = (i 1).val := by
  unfold DotDims.lhsIdx
  rw [dif_neg (show ¬(1 : Fin S128x200x200.rank) ∈ dot_S128x200x200_S128x200x256_S128x200x256_2_1_1_2_0_0.lhsBatch from (by decide : ¬(1 : Fin S128x200x200.rank) ∈ ([0] : List (Fin S128x200x200.rank)))),
    dif_pos (show (1 : Fin S128x200x200.rank) ∈ dot_S128x200x200_S128x200x256_S128x200x256_2_1_1_2_0_0.lhsNonContracting from (by decide : (1 : Fin S128x200x200.rank) ∈ ([1] : List (Fin S128x200x200.rank))))]
  rfl

theorem lhs_av_2 (i : S128x200x256.Idx) (q : dot_S128x200x200_S128x200x256_S128x200x256_2_1_1_2_0_0.contr.Idx) :
    (dot_S128x200x200_S128x200x256_S128x200x256_2_1_1_2_0_0.lhsIdx i q 2).val = (q ⟨0, Nat.one_pos⟩).val :=
  dot_S128x200x200_S128x200x256_S128x200x256_2_1_1_2_0_0.lhsIdx_val_of_single rfl i q

theorem rhs_av_0 (i : S128x200x256.Idx) (q : dot_S128x200x200_S128x200x256_S128x200x256_2_1_1_2_0_0.contr.Idx) :
    (dot_S128x200x200_S128x200x256_S128x200x256_2_1_1_2_0_0.rhsIdx i q 0).val = (i 0).val := by
  unfold DotDims.rhsIdx
  rw [dif_pos (show (0 : Fin S128x200x256.rank) ∈ dot_S128x200x200_S128x200x256_S128x200x256_2_1_1_2_0_0.rhsBatch from (by decide : (0 : Fin S128x200x256.rank) ∈ ([0] : List (Fin S128x200x256.rank))))]
  rfl

theorem rhs_av_1 (i : S128x200x256.Idx) (q : dot_S128x200x200_S128x200x256_S128x200x256_2_1_1_2_0_0.contr.Idx) :
    (dot_S128x200x200_S128x200x256_S128x200x256_2_1_1_2_0_0.rhsIdx i q 1).val = (q ⟨0, Nat.one_pos⟩).val :=
  dot_S128x200x200_S128x200x256_S128x200x256_2_1_1_2_0_0.rhsIdx_val_of_single rfl i q

theorem rhs_av_2 (i : S128x200x256.Idx) (q : dot_S128x200x200_S128x200x256_S128x200x256_2_1_1_2_0_0.contr.Idx) :
    (dot_S128x200x200_S128x200x256_S128x200x256_2_1_1_2_0_0.rhsIdx i q 2).val = (i 2).val := by
  unfold DotDims.rhsIdx
  rw [dif_neg (show ¬(2 : Fin S128x200x256.rank) ∈ dot_S128x200x200_S128x200x256_S128x200x256_2_1_1_2_0_0.rhsBatch from (by decide : ¬(2 : Fin S128x200x256.rank) ∈ ([0] : List (Fin S128x200x256.rank)))),
    dif_pos (show (2 : Fin S128x200x256.rank) ∈ dot_S128x200x200_S128x200x256_S128x200x256_2_1_1_2_0_0.rhsNonContracting from (by decide : (2 : Fin S128x200x256.rank) ∈ ([2] : List (Fin S128x200x256.rank))))]
  rfl

theorem dot_av (A : FVec Ideal S128x200x200 .f32) (H : FVec Ideal S128x200x256 .f32) (b : Fin 128) (r : Fin 200) (j : Fin 256) :
    Host.dotGeneral dot_S128x200x200_S128x200x256_S128x200x256_2_1_1_2_0_0 none A H (ix3 b r j)
      = ∑ k : Fin 200, A (ix3 b r k) * H (ix3 b k j) := by
  simp only [Host.dotGeneral]
  rw [Ideal.dotGeneral_apply, ← Equiv.sum_comp (ValueIdx.contrEquiv1 dot_S128x200x200_S128x200x256_S128x200x256_2_1_1_2_0_0 200 rfl rfl).symm]
  refine Finset.sum_congr rfl fun k _ => ?_
  have hk := ValueIdx.contrEquiv1_symm_val dot_S128x200x200_S128x200x256_S128x200x256_2_1_1_2_0_0 200 rfl rfl k
  have el : dot_S128x200x200_S128x200x256_S128x200x256_2_1_1_2_0_0.lhsIdx (ix3 b r j) ((ValueIdx.contrEquiv1 dot_S128x200x200_S128x200x256_S128x200x256_2_1_1_2_0_0 200 rfl rfl).symm k) = ix3 b r k := funext fun a => Fin.ext (by
    match a with
    | ⟨0, _⟩ => exact lhs_av_0 _ _
    | ⟨1, _⟩ => exact lhs_av_1 _ _
    | ⟨2, _⟩ => exact (lhs_av_2 _ _).trans hk)
  have er : dot_S128x200x200_S128x200x256_S128x200x256_2_1_1_2_0_0.rhsIdx (ix3 b r j) ((ValueIdx.contrEquiv1 dot_S128x200x200_S128x200x256_S128x200x256_2_1_1_2_0_0 200 rfl rfl).symm k) = ix3 b k j := funext fun a => Fin.ext (by
    match a with
    | ⟨0, _⟩ => exact rhs_av_0 _ _
    | ⟨1, _⟩ => exact (rhs_av_1 _ _).trans hk
    | ⟨2, _⟩ => exact rhs_av_2 _ _)
  rw [el, er]

theorem lhs_cat_0 (i : S128x200x256.Idx) (q : dot_S128x200x512_S512x256_S128x200x256_2_0_01_1_n_n.contr.Idx) :
    (dot_S128x200x512_S512x256_S128x200x256_2_0_01_1_n_n.lhsIdx i q 0).val = (i 0).val := by
  unfold DotDims.lhsIdx
  rw [dif_neg (show ¬(0 : Fin S128x200x512.rank) ∈ dot_S128x200x512_S512x256_S128x200x256_2_0_01_1_n_n.lhsBatch from (by decide : ¬(0 : Fin S128x200x512.rank) ∈ ([] : List (Fin S128x200x512.rank)))),
    dif_pos (show (0 : Fin S128x200x512.rank) ∈ dot_S128x200x512_S512x256_S128x200x256_2_0_01_1_n_n.lhsNonContracting from (by decide : (0 : Fin S128x200x512.rank) ∈ ([0, 1] : List (Fin S128x200x512.rank))))]
  rfl

theorem lhs_cat_1 (i : S128x200x256.Idx) (q : dot_S128x200x512_S512x256_S128x200x256_2_0_01_1_n_n.contr.Idx) :
    (dot_S128x200x512_S512x256_S128x200x256_2_0_01_1_n_n.lhsIdx i q 1).val = (i 1).val := by
  unfold DotDims.lhsIdx
  rw [dif_neg (show ¬(1 : Fin S128x200x512.rank) ∈ dot_S128x200x512_S512x256_S128x200x256_2_0_01_1_n_n.lhsBatch from (by decide : ¬(1 : Fin S128x200x512.rank) ∈ ([] : List (Fin S128x200x512.rank)))),
    dif_pos (show (1 : Fin S128x200x512.rank) ∈ dot_S128x200x512_S512x256_S128x200x256_2_0_01_1_n_n.lhsNonContracting from (by decide : (1 : Fin S128x200x512.rank) ∈ ([0, 1] : List (Fin S128x200x512.rank))))]
  rfl

theorem lhs_cat_2 (i : S128x200x256.Idx) (q : dot_S128x200x512_S512x256_S128x200x256_2_0_01_1_n_n.contr.Idx) :
    (dot_S128x200x512_S512x256_S128x200x256_2_0_01_1_n_n.lhsIdx i q 2).val = (q ⟨0, Nat.one_pos⟩).val :=
  dot_S128x200x512_S512x256_S128x200x256_2_0_01_1_n_n.lhsIdx_val_of_single rfl i q

theorem rhs_cat_0 (i : S128x200x256.Idx) (q : dot_S128x200x512_S512x256_S128x200x256_2_0_01_1_n_n.contr.Idx) :
    (dot_S128x200x512_S512x256_S128x200x256_2_0_01_1_n_n.rhsIdx i q 0).val = (q ⟨0, Nat.one_pos⟩).val :=
  dot_S128x200x512_S512x256_S128x200x256_2_0_01_1_n_n.rhsIdx_val_of_single rfl i q

theorem rhs_cat_1 (i : S128x200x256.Idx) (q : dot_S128x200x512_S512x256_S128x200x256_2_0_01_1_n_n.contr.Idx) :
    (dot_S128x200x512_S512x256_S128x200x256_2_0_01_1_n_n.rhsIdx i q 1).val = (i 2).val := by
  unfold DotDims.rhsIdx
  rw [dif_neg (show ¬(1 : Fin S512x256.rank) ∈ dot_S128x200x512_S512x256_S128x200x256_2_0_01_1_n_n.rhsBatch from (by decide : ¬(1 : Fin S512x256.rank) ∈ ([] : List (Fin S512x256.rank)))),
    dif_pos (show (1 : Fin S512x256.rank) ∈ dot_S128x200x512_S512x256_S128x200x256_2_0_01_1_n_n.rhsNonContracting from (by decide : (1 : Fin S512x256.rank) ∈ ([1] : List (Fin S512x256.rank))))]
  rfl

theorem dot_cat (C : FVec Ideal S128x200x512 .f32) (W : FVec Ideal S512x256 .f32) (b : Fin 128) (r : Fin 200) (j : Fin 256) :
    Host.dotGeneral dot_S128x200x512_S512x256_S128x200x256_2_0_01_1_n_n none C W (ix3 b r j)
      = ∑ e : Fin 512, C (ix3 b r e) * W (ix2 e j) := by
  simp only [Host.dotGeneral]
  rw [Ideal.dotGeneral_apply, ← Equiv.sum_comp (ValueIdx.contrEquiv1 dot_S128x200x512_S512x256_S128x200x256_2_0_01_1_n_n 512 rfl rfl).symm]
  refine Finset.sum_congr rfl fun k _ => ?_
  have hk := ValueIdx.contrEquiv1_symm_val dot_S128x200x512_S512x256_S128x200x256_2_0_01_1_n_n 512 rfl rfl k
  have el : dot_S128x200x512_S512x256_S128x200x256_2_0_01_1_n_n.lhsIdx (ix3 b r j) ((ValueIdx.contrEquiv1 dot_S128x200x512_S512x256_S128x200x256_2_0_01_1_n_n 512 rfl rfl).symm k) = ix3 b r k := funext fun a => Fin.ext (by
    match a with
    | ⟨0, _⟩ => exact lhs_cat_0 _ _
    | ⟨1, _⟩ => exact lhs_cat_1 _ _
    | ⟨2, _⟩ => exact (lhs_cat_2 _ _).trans hk)
  have er : dot_S128x200x512_S512x256_S128x200x256_2_0_01_1_n_n.rhsIdx (ix3 b r j) ((ValueIdx.contrEquiv1 dot_S128x200x512_S512x256_S128x200x256_2_0_01_1_n_n 512 rfl rfl).symm k) = ix2 k j := funext fun a => Fin.ext (by
    match a with
    | ⟨0, _⟩ => exact (rhs_cat_0 _ _).trans hk
    | ⟨1, _⟩ => exact rhs_cat_1 _ _)
  rw [el, er]

theorem lhs_mm_0 (i : S128x200x256.Idx) (q : dot_S128x200x256_S256x256_S128x200x256_2_0_01_1_n_n.contr.Idx) :
    (dot_S128x200x256_S256x256_S128x200x256_2_0_01_1_n_n.lhsIdx i q 0).val = (i 0).val := by
  unfold DotDims.lhsIdx
  rw [dif_neg (show ¬(0 : Fin S128x200x256.rank) ∈ dot_S128x200x256_S256x256_S128x200x256_2_0_01_1_n_n.lhsBatch from (by decide : ¬(0 : Fin S128x200x256.rank) ∈ ([] : List (Fin S128x200x256.rank)))),
    dif_pos (show (0 : Fin S128x200x256.rank) ∈ dot_S128x200x256_S256x256_S128x200x256_2_0_01_1_n_n.lhsNonContracting from (by decide : (0 : Fin S128x200x256.rank) ∈ ([0, 1] : List (Fin S128x200x256.rank))))]
  rfl

theorem lhs_mm_1 (i : S128x200x256.Idx) (q : dot_S128x200x256_S256x256_S128x200x256_2_0_01_1_n_n.contr.Idx) :
    (dot_S128x200x256_S256x256_S128x200x256_2_0_01_1_n_n.lhsIdx i q 1).val = (i 1).val := by
  unfold DotDims.lhsIdx
  rw [dif_neg (show ¬(1 : Fin S128x200x256.rank) ∈ dot_S128x200x256_S256x256_S128x200x256_2_0_01_1_n_n.lhsBatch from (by decide : ¬(1 : Fin S128x200x256.rank) ∈ ([] : List (Fin S128x200x256.rank)))),
    dif_pos (show (1 : Fin S128x200x256.rank) ∈ dot_S128x200x256_S256x256_S128x200x256_2_0_01_1_n_n.lhsNonContracting from (by decide : (1 : Fin S128x200x256.rank) ∈ ([0, 1] : List (Fin S128x200x256.rank))))]
  rfl

theorem lhs_mm_2 (i : S128x200x256.Idx) (q : dot_S128x200x256_S256x256_S128x200x256_2_0_01_1_n_n.contr.Idx) :
    (dot_S128x200x256_S256x256_S128x200x256_2_0_01_1_n_n.lhsIdx i q 2).val = (q ⟨0, Nat.one_pos⟩).val :=
  dot_S128x200x256_S256x256_S128x200x256_2_0_01_1_n_n.lhsIdx_val_of_single rfl i q

theorem rhs_mm_0 (i : S128x200x256.Idx) (q : dot_S128x200x256_S256x256_S128x200x256_2_0_01_1_n_n.contr.Idx) :
    (dot_S128x200x256_S256x256_S128x200x256_2_0_01_1_n_n.rhsIdx i q 0).val = (q ⟨0, Nat.one_pos⟩).val :=
  dot_S128x200x256_S256x256_S128x200x256_2_0_01_1_n_n.rhsIdx_val_of_single rfl i q

theorem rhs_mm_1 (i : S128x200x256.Idx) (q : dot_S128x200x256_S256x256_S128x200x256_2_0_01_1_n_n.contr.Idx) :
    (dot_S128x200x256_S256x256_S128x200x256_2_0_01_1_n_n.rhsIdx i q 1).val = (i 2).val := by
  unfold DotDims.rhsIdx
  rw [dif_neg (show ¬(1 : Fin S256x256.rank) ∈ dot_S128x200x256_S256x256_S128x200x256_2_0_01_1_n_n.rhsBatch from (by decide : ¬(1 : Fin S256x256.rank) ∈ ([] : List (Fin S256x256.rank)))),
    dif_pos (show (1 : Fin S256x256.rank) ∈ dot_S128x200x256_S256x256_S128x200x256_2_0_01_1_n_n.rhsNonContracting from (by decide : (1 : Fin S256x256.rank) ∈ ([1] : List (Fin S256x256.rank))))]
  rfl

theorem mm_apply (H : FVec Ideal S128x200x256 .f32) (W : FVec Ideal S256x256 .f32) (b : Fin 128) (r : Fin 200) (j : Fin 256) :
    R.mm H W (ix3 b r j) = ∑ k : Fin 256, H (ix3 b r k) * W (ix2 k j) := by
  unfold R.mm
  simp only [Host.dotGeneral]
  rw [Ideal.dotGeneral_apply, ← Equiv.sum_comp (ValueIdx.contrEquiv1 dot_S128x200x256_S256x256_S128x200x256_2_0_01_1_n_n 256 rfl rfl).symm]
  refine Finset.sum_congr rfl fun k _ => ?_
  have hk := ValueIdx.contrEquiv1_symm_val dot_S128x200x256_S256x256_S128x200x256_2_0_01_1_n_n 256 rfl rfl k
  have el : dot_S128x200x256_S256x256_S128x200x256_2_0_01_1_n_n.lhsIdx (ix3 b r j) ((ValueIdx.contrEquiv1 dot_S128x200x256_S256x256_S128x200x256_2_0_01_1_n_n 256 rfl rfl).symm k) = ix3 b r k := funext fun a => Fin.ext (by
    match a with
    | ⟨0, _⟩ => exact lhs_mm_0 _ _
    | ⟨1, _⟩ => exact lhs_mm_1 _ _
    | ⟨2, _⟩ => exact (lhs_mm_2 _ _).trans hk)
  have er : dot_S128x200x256_S256x256_S128x200x256_2_0_01_1_n_n.rhsIdx (ix3 b r j) ((ValueIdx.contrEquiv1 dot_S128x200x256_S256x256_S128x200x256_2_0_01_1_n_n 256 rfl rfl).symm k) = ix2 k j := funext fun a => Fin.ext (by
    match a with
    | ⟨0, _⟩ => exact (rhs_mm_0 _ _).trans hk
    | ⟨1, _⟩ => exact rhs_mm_1 _ _)
  rw [el, er]

theorem bias_apply (v : FVec Ideal S256 .f32) (b : Fin 128) (r : Fin 200) (j : Fin 256) :
    R.bias v (ix3 b r j) = v (ix1 j) := by
  unfold R.bias
  refine (broadcastInDim_apply _ _ _ _ (ix3 (0 : Fin 1) (0 : Fin 1) j) ?_).trans ?_
  · intro a
    match a with | ⟨0, _⟩ => rfl | ⟨1, _⟩ => rfl | ⟨2, _⟩ => rfl
  · refine broadcastInDim_apply _ _ _ _ (ix1 j) ?_
    intro a
    match a with | ⟨0, _⟩ => rfl

theorem cst3_apply (w : BitVec 32) (i : S128x200x200.Idx) :
    broadcastInDim S128x200x200 ![] bcast_S_S128x200x200 (constant (F := Ideal) S_ .f32 w) i = Ideal.ofBits .f32 w := by
  refine (broadcastInDim_apply _ _ _ _ ix0 ?_).trans (constant_apply (s := S_) (φ := .f32) w ix0)
  intro a
  exact a.elim0

theorem cst2_apply (w : BitVec 32) (i : S128x200.Idx) :
    broadcastInDim S128x200 ![] bcast_S_S128x200 (constant (F := Ideal) S_ .f32 w) i = Ideal.ofBits .f32 w := by
  refine (broadcastInDim_apply _ _ _ _ ix0 ?_).trans (constant_apply (s := S_) (φ := .f32) w ix0)
  intro a
  exact a.elim0

theorem keep_apply (v : FVec Ideal S128x200 .f32) (b : Fin 128) (r j : Fin 200) :
    R.keep v (ix3 b r j) = v (ix2 b r) := by
  unfold R.keep
  refine (broadcastInDim_apply _ _ _ _ (ix3 b r (0 : Fin 1)) ?_).trans ?_
  · intro a
    match a with | ⟨0, _⟩ => rfl | ⟨1, _⟩ => rfl | ⟨2, _⟩ => rfl
  · refine broadcastInDim_apply _ _ _ _ (ix2 b r) ?_
    intro a
    match a with | ⟨0, _⟩ => rfl | ⟨1, _⟩ => rfl

theorem rmax_apply (X : FVec Ideal S128x200x200 .f32) (w : BitVec 32) (b : Fin 128) (r : Fin 200) :
    Host.reduce FloatOps.maximumf X (constant (F := Ideal) S_ .f32 w) reducesTo_S128x200x200_S128x200_d2 h_S_ (ix2 b r)
      = Finset.univ.fold max (Ideal.ofBits .f32 w) (fun k : Fin 200 => X (ix3 b r k)) := by
  have h : S128x200x200.Reduces [2] S128x200 := by decide
  rw [Host.reduce_eq_fold_single FloatOps.maximumf X _ reducesTo_S128x200x200_S128x200_d2 h h_S_]
  have hf : (X ∘ h.lift (ix2 b r)) = fun k : Fin 200 => X (ix3 b r k) :=
    funext fun k => congrArg X (funext fun a => Fin.ext (by match a with | ⟨0, _⟩ => rfl | ⟨1, _⟩ => rfl | ⟨2, _⟩ => rfl))
  exact congrArg (fun f => Finset.fold max (Ideal.ofBits .f32 w) f (Finset.univ : Finset (Fin 200))) hf

theorem rsum2_apply (X : FVec Ideal S128x200x200 .f32) (b : Fin 128) (r : Fin 200) :
    Host.reduceAdd X (constant (F := Ideal) S_ .f32 0x00000000#32) reducesTo_S128x200x200_S128x200_d2 h_S_ (ix2 b r)
      = ∑ k : Fin 200, X (ix3 b r k) := by
  simp only [Host.reduceAdd, Ideal.hostReduceAdd_def]
  rw [Ideal.hostReduceAdd_single reducesTo_S128x200x200_S128x200_d2 (by decide)]
  refine (congrArg (· + _) Ideal.ofBits_zero_f32).trans ((zero_add _).trans ?_)
  refine Finset.sum_congr rfl fun k _ => ?_
  exact congrArg X (funext fun a => Fin.ext (by match a with | ⟨0, _⟩ => rfl | ⟨1, _⟩ => rfl | ⟨2, _⟩ => rfl))

theorem rsum1_apply (X : FVec Ideal S128x200x256 .f32) (b : Fin 128) (j : Fin 256) :
    Host.reduceAdd X (constant (F := Ideal) S_ .f32 0x00000000#32) reducesTo_S128x200x256_S128x256_d1 h_S_ (ix2 b j)
      = ∑ n : Fin 200, X (ix3 b n j) := by
  simp only [Host.reduceAdd, Ideal.hostReduceAdd_def]
  rw [Ideal.hostReduceAdd_single reducesTo_S128x200x256_S128x256_d1 (by decide)]
  refine (congrArg (· + _) Ideal.ofBits_zero_f32).trans ((zero_add _).trans ?_)
  refine Finset.sum_congr rfl fun n _ => ?_
  exact congrArg X (funext fun a => Fin.ext (by match a with | ⟨0, _⟩ => rfl | ⟨1, _⟩ => rfl | ⟨2, _⟩ => rfl))

theorem cat_lo (X Y : FVec Ideal S128x200x256 .f32) (b : Fin 128) (r : Fin 200) (k : Fin 256) :
    concatenate S128x200x512 2 [⟨S128x200x256, X⟩, ⟨S128x200x256, Y⟩] concatenates_S128x200x256_S128x200x256_S128x200x512_d2
      (ix3 b r (Spec.lo k)) = X (ix3 b r k) := by
  refine concatenate_pair_apply_left _ X Y _ (ix3 b r (Spec.lo k)) rfl (ix3 b r k) ?_
  intro a
  match a with | ⟨0, _⟩ => rfl | ⟨1, _⟩ => rfl | ⟨2, _⟩ => rfl

theorem cat_hi (X Y : FVec Ideal S128x200x256 .f32) (b : Fin 128) (r : Fin 200) (k : Fin 256) :
    concatenate S128x200x512 2 [⟨S128x200x256, X⟩, ⟨S128x200x256, Y⟩] concatenates_S128x200x256_S128x200x256_S128x200x512_d2
      (ix3 b r (Spec.hi k)) = Y (ix3 b r k) := by
  refine concatenate_pair_apply_right _ X Y _ (ix3 b r (Spec.hi k)) rfl rfl (ix3 b r k) ?_ ?_
  · intro a ha
    match a, ha with
    | ⟨0, _⟩, _ => rfl
    | ⟨1, _⟩, _ => rfl
    | ⟨2, _⟩, ha => exact absurd rfl ha
  · show k.val + 256 = 256 + k.val
    omega

end Cert.ReferenceIdeal.RefOps

end
-- ==== Proof.RefStages.lean ====
/-
  The reference's stages read at an index: for every jet `b` each stage is the corresponding stage of the mathematics
  applied to jet `b`'s slice of its operands, and so the two results are the whole-array functions of the arguments.
-/
import proofs.«151125_g85813446574462_cont_9to1c4b_288_10_alg».proof.Proof.RefOps
import proofs.«151125_g85813446574462_cont_9to1c4b_288_10_alg».proof.Proof.Result

noncomputable section

namespace Cert.ReferenceIdeal.RefStages

open Idealize.ShloMosaic Idealize.ShloMosaic.ValueIdx Cert.ReferenceIdeal Cert.ReferenceIdeal.Facts₀ Cert.ReferenceIdeal.Facts
open scoped BigOperators

variable [Facts]

/-- The pointwise operations at the exact instance, read at an index. -/
theorem htanh_apply {s : Shape} (X : FVec Ideal s .f32) (i : s.Idx) : Host.tanh X i = Ideal.tanh (X i) := rfl

theorem hexp_apply {s : Shape} (X : FVec Ideal s .f32) (i : s.Idx) : Host.exp X i = Ideal.exp (X i) := rfl

theorem hdivf_apply {s : Shape} (X Y : FVec Ideal s .f32) (i : s.Idx) : Host.divf X Y i = Ideal.div (X i) (Y i) := rfl

theorem embed_apply (x : FVec Ideal S128x200x8 .f32) (W : FVec Ideal S8x256 .f32) (v : FVec Ideal S256 .f32) (b : Fin 128) (r : Fin 200) (j : Fin 256) :
    R.embed x W v (ix3 b r j) = Spec.lin (fun r k => x (ix3 b r k)) (fun k j => W (ix2 k j)) (fun j => v (ix1 j)) r j := by
  unfold R.embed Spec.lin
  rw [htanh_apply, addf_apply, RefOps.dot_emb, RefOps.bias_apply]

theorem logits_apply (h : FVec Ideal S128x200x256 .f32) (b : Fin 128) (r j : Fin 200) :
    R.logits h (ix3 b r j) = Spec.logits (fun r k => h (ix3 b r k)) r j := by
  unfold R.logits Spec.logits
  rw [mulf_apply, RefOps.dot_tt, RefOps.cst3_apply]

theorem expm_apply (l : FVec Ideal S128x200x200 .f32) (b : Fin 128) (r j : Fin 200) :
    R.expm l (ix3 b r j) = Spec.expm (fun r k => l (ix3 b r k)) r j := by
  unfold R.expm Spec.expm
  rw [hexp_apply, subf_apply, RefOps.keep_apply, maximumf_apply, RefOps.cst2_apply, RefOps.rmax_apply, Spec.max_fold_self]

theorem soft_apply (e : FVec Ideal S128x200x200 .f32) (b : Fin 128) (r j : Fin 200) :
    R.soft e (ix3 b r j) = Spec.soft (fun r k => e (ix3 b r k)) r j := by
  unfold R.soft Spec.soft
  rw [hdivf_apply, RefOps.keep_apply, RefOps.rsum2_apply]

theorem attn_apply (h : FVec Ideal S128x200x256 .f32) (b : Fin 128) (r j : Fin 200) :
    R.attn h (ix3 b r j) = Spec.attn (fun r k => h (ix3 b r k)) r j := by
  have e1 : (fun r k => R.logits h (ix3 b r k)) = Spec.logits (fun r k => h (ix3 b r k)) := by
    funext r k; exact logits_apply h b r k
  have e2 : (fun r k => R.expm (R.logits h) (ix3 b r k)) = Spec.expm (Spec.logits (fun r k => h (ix3 b r k))) := by
    funext r k; rw [expm_apply, e1]
  unfold R.attn Spec.attn
  rw [soft_apply, e2]

theorem update_apply (h : FVec Ideal S128x200x256 .f32) (A : FVec Ideal S128x200x200 .f32) (W : FVec Ideal S512x256 .f32) (v : FVec Ideal S256 .f32)
    (b : Fin 128) (r : Fin 200) (j : Fin 256) :
    R.update h A W v (ix3 b r j)
      = Spec.upd (fun r k => h (ix3 b r k)) (Spec.msg (fun r k => A (ix3 b r k)) (fun r k => h (ix3 b r k))) (fun e j => W (ix2 e j)) (fun j => v (ix1 j)) r j := by
  unfold R.update Spec.upd Spec.msg
  rw [htanh_apply, addf_apply, RefOps.dot_cat, RefOps.bias_apply, Spec.sum_split]
  simp only [RefOps.cat_lo, RefOps.cat_hi, RefOps.dot_av]

theorem step_apply (h : FVec Ideal S128x200x256 .f32) (W : FVec Ideal S512x256 .f32) (v : FVec Ideal S256 .f32) (b : Fin 128) (r : Fin 200) (j : Fin 256) :
    R.step h W v (ix3 b r j) = Spec.step (fun r k => h (ix3 b r k)) (fun e j => W (ix2 e j)) (fun j => v (ix1 j)) r j := by
  have e : (fun r k => R.attn h (ix3 b r k)) = Spec.attn (fun r k => h (ix3 b r k)) := by
    funext r k; exact attn_apply h b r k
  unfold R.step Spec.step
  rw [update_apply, e]

theorem dense_apply (h : FVec Ideal S128x200x256 .f32) (W : FVec Ideal S256x256 .f32) (v : FVec Ideal S256 .f32) (b : Fin 128) (r : Fin 200) (j : Fin 256) :
    R.dense h W v (ix3 b r j) = Spec.lin (fun r k => h (ix3 b r k)) (fun k j => W (ix2 k j)) (fun j => v (ix1 j)) r j := by
  unfold R.dense Spec.lin
  rw [htanh_apply, addf_apply, RefOps.mm_apply, RefOps.bias_apply]

theorem readout_apply (h : FVec Ideal S128x200x256 .f32) (W : FVec Ideal S256x256 .f32) (v : FVec Ideal S256 .f32) (b : Fin 128) (j : Fin 256) :
    R.readout h W v (ix2 b j) = Spec.out (fun n k => h (ix3 b n k)) (fun k j => W (ix2 k j)) (fun j => v (ix1 j)) j := by
  unfold R.readout Spec.out
  rw [RefOps.rsum1_apply]
  simp only [addf_apply, RefOps.mm_apply, RefOps.bias_apply]
  rw [Spec.sum_add_const]

/-- The state after two steps, jet by jet. -/
theorem h2_apply (x : FVec Ideal S128x200x8 .f32) (a1 : FVec Ideal S8x256 .f32) (a2 : FVec Ideal S256 .f32) (a3 : FVec Ideal S512x256 .f32) (a4 : FVec Ideal S256 .f32) (a5 : FVec Ideal S512x256 .f32) (a6 : FVec Ideal S256 .f32) (a7 : FVec Ideal S512x256 .f32) (a8 : FVec Ideal S256 .f32) (a9 : FVec Ideal S256x256 .f32) (a10 : FVec Ideal S256 .f32) (a11 : FVec Ideal S256x256 .f32) (a12 : FVec Ideal S256 .f32) (b : Fin 128) (r : Fin 200) (j : Fin 256) :
    R.h2 x a1 a2 a3 a4 a5 a6 (ix3 b r j)
      = Spec.h2 (Result.params a1 a2 a3 a4 a5 a6 a7 a8 a9 a10 a11 a12) (Result.jet x b) r j := by
  have e0 : (fun r k => R.embed x a1 a2 (ix3 b r k))
      = Spec.lin (fun r k => x (ix3 b r k)) (fun k j => a1 (ix2 k j)) (fun j => a2 (ix1 j)) := by
    funext r k; exact embed_apply x a1 a2 b r k
  have e1 : (fun r k => R.step (R.embed x a1 a2) a3 a4 (ix3 b r k))
      = Spec.step (Spec.lin (fun r k => x (ix3 b r k)) (fun k j => a1 (ix2 k j)) (fun j => a2 (ix1 j)))
          (fun e j => a3 (ix2 e j)) (fun j => a4 (ix1 j)) := by
    funext r k; rw [step_apply, e0]
  unfold R.h2 Spec.h2
  rw [step_apply, e1]
  rfl

/-- The reference's second result is the whole-array adjacency function of the arguments. -/
theorem resA_eq (x : FVec Ideal S128x200x8 .f32) (a1 : FVec Ideal S8x256 .f32) (a2 : FVec Ideal S256 .f32) (a3 : FVec Ideal S512x256 .f32) (a4 : FVec Ideal S256 .f32) (a5 : FVec Ideal S512x256 .f32) (a6 : FVec Ideal S256 .f32) (a7 : FVec Ideal S512x256 .f32) (a8 : FVec Ideal S256 .f32) (a9 : FVec Ideal S256x256 .f32) (a10 : FVec Ideal S256 .f32) (a11 : FVec Ideal S256x256 .f32) (a12 : FVec Ideal S256 .f32) :
    R.resA x a1 a2 a3 a4 a5 a6 = Result.GA x a1 a2 a3 a4 a5 a6 a7 a8 a9 a10 a11 a12 := by
  funext i
  obtain ⟨b, r, j, rfl⟩ : ∃ (b : Fin 128) (r : Fin 200) (j : Fin 200), i = ix3 b r j := ⟨i 0, i 1, i 2, eq_ix3 i⟩
  have e : (fun r k => R.h2 x a1 a2 a3 a4 a5 a6 (ix3 b r k))
      = Spec.h2 (Result.params a1 a2 a3 a4 a5 a6 a7 a8 a9 a10 a11 a12) (Result.jet x b) := by
    funext r k; exact h2_apply x a1 a2 a3 a4 a5 a6 a7 a8 a9 a10 a11 a12 b r k
  unfold R.resA
  rw [attn_apply, e]
  rfl

/-- The reference's first result is the whole-array read-out function of the arguments. -/
theorem resOut_eq (x : FVec Ideal S128x200x8 .f32) (a1 : FVec Ideal S8x256 .f32) (a2 : FVec Ideal S256 .f32) (a3 : FVec Ideal S512x256 .f32) (a4 : FVec Ideal S256 .f32) (a5 : FVec Ideal S512x256 .f32) (a6 : FVec Ideal S256 .f32) (a7 : FVec Ideal S512x256 .f32) (a8 : FVec Ideal S256 .f32) (a9 : FVec Ideal S256x256 .f32) (a10 : FVec Ideal S256 .f32) (a11 : FVec Ideal S256x256 .f32) (a12 : FVec Ideal S256 .f32) :
    R.resOut x a1 a2 a3 a4 a5 a6 a7 a8 a9 a10 a11 a12 = Result.GOut x a1 a2 a3 a4 a5 a6 a7 a8 a9 a10 a11 a12 := by
  funext i
  obtain ⟨b, j, rfl⟩ : ∃ (b : Fin 128) (j : Fin 256), i = ix2 b j := ⟨i 0, i 1, eq_ix2 i⟩
  have e : (fun r k => R.h2 x a1 a2 a3 a4 a5 a6 (ix3 b r k))
      = Spec.h2 (Result.params a1 a2 a3 a4 a5 a6 a7 a8 a9 a10 a11 a12) (Result.jet x b) := by
    funext r k; exact h2_apply x a1 a2 a3 a4 a5 a6 a7 a8 a9 a10 a11 a12 b r k
  have e3 : (fun r k => R.step (R.h2 x a1 a2 a3 a4 a5 a6) a7 a8 (ix3 b r k))
      = Spec.step (Spec.h2 (Result.params a1 a2 a3 a4 a5 a6 a7 a8 a9 a10 a11 a12) (Result.jet x b))
          (fun e j => a7 (ix2 e j)) (fun j => a8 (ix1 j)) := by
    funext r k; rw [step_apply, e]
  have e4 : (fun r k => R.dense (R.step (R.h2 x a1 a2 a3 a4 a5 a6) a7 a8) a9 a10 (ix3 b r k))
      = Spec.lin (Spec.step (Spec.h2 (Result.params a1 a2 a3 a4 a5 a6 a7 a8 a9 a10 a11 a12) (Result.jet x b))
          (fun e j => a7 (ix2 e j)) (fun j => a8 (ix1 j))) (fun k j => a9 (ix2 k j)) (fun j => a10 (ix1 j)) := by
    funext r k; rw [dense_apply, e3]
  unfold R.resOut
  rw [readout_apply, e4]
  rfl

end Cert.ReferenceIdeal.RefStages

end
-- ==== Proof.lean ====
/-
  A Pallas kernel for three rounds of soft-adjacency message passing over 128 jets of 200 nodes, against its jnp
  reference.  Both compute, jet by jet, h ← tanh (x · We + be); three times A ← softmax (h · hᵀ / 16) and
  h ← tanh ([h, A · h] · W + b); then Σ_n (tanh (h · Wr1 + br1) · Wr2 + br2)_n, and return that sum and the last A.
  The kernel handles four jets per grid point, multiplies by the upper and the lower half of each 512-row weight
  instead of concatenating, and adds 200 · br2 after the sum over the 200 nodes instead of br2 inside it.  On the
  extended reals these are the same numbers: a sum over 512 rows is the sum over the two halves, adding a constant
  to each of 200 terms adds 200 times it to the sum (also at the infinities), and `max (-∞) m = m`.  No finiteness is
  needed, so the precondition is never opened.

  Modules: Spec (the one-jet mathematics and the three laws), Result (the two results as whole-array functions),
  RefDefs / RefOps / RefStages / RefRun (the reference: its stages, each operation and stage read at an index, its run),
  KerDefs / KerOps / KerStages / KerJets / KerBlocks / KerArray (the kernel: one jet's stages, each read at an index,
  the four stores of each output block, the blocks tiling the arrays, its run).
-/
import proofs.«151125_g85813446574462_cont_9to1c4b_288_10_alg».proof.Defs
import proofs.«151125_g85813446574462_cont_9to1c4b_288_10_alg».proof.Proof.Gen.Kernel
import proofs.«151125_g85813446574462_cont_9to1c4b_288_10_alg».proof.Proof.Gen.Kernel.Frame
import proofs.«151125_g85813446574462_cont_9to1c4b_288_10_alg».proof.Proof.Gen.KernelIdeal
import proofs.«151125_g85813446574462_cont_9to1c4b_288_10_alg».proof.Proof.Gen.KernelIdeal.Frame
import proofs.«151125_g85813446574462_cont_9to1c4b_288_10_alg».proof.Proof.Gen.ReferenceIdeal
import proofs.«151125_g85813446574462_cont_9to1c4b_288_10_alg».proof.Proof.Gen.Pre_finite_inputs
import proofs.«151125_g85813446574462_cont_9to1c4b_288_10_alg».proof.Proof.KerArray
import proofs.«151125_g85813446574462_cont_9to1c4b_288_10_alg».proof.Proof.RefRun
import proofs.«151125_g85813446574462_cont_9to1c4b_288_10_alg».proof.Proof.RefStages
import Idealize.ShloMosaic.Adequacy
import Idealize.ShloMosaic.Init

noncomputable section

namespace Cert.Proof

open Idealize.ShloMosaic Idealize.SL.Sem

/-- The reference runs and keeps its arguments: its run with the two results dropped. -/
theorem frame_ri : Cert.frame_ReferenceIdeal := fun m ρ _ =>
  (θ_run Cert.ReferenceIdeal.defs _ _).mono (fun _ h c => (h c).2.2)
    (Cert.ReferenceIdeal.RefRun.run (F := Ideal) m ρ)

/-- Both programs end with the two results at the same whole-array functions of arguments that agree. -/
theorem algebraic : Cert.algebraic_KernelIdeal_ReferenceIdeal := by
  intro m ρ m' ρ' _ hagree
  refine ⟨fun c => Cert.Result.GOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), fun c => Cert.Result.GA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.KerArray.run m ρ, ?_⟩
  refine (θ_run Cert.ReferenceIdeal.defs _ _).mono (fun r h c => ?_) (Cert.ReferenceIdeal.RefRun.run (F := Ideal) m' ρ')
  obtain ⟨h1, h2, hrest⟩ := h c
  obtain ⟨e0, e1, e2, e3, e4, e5, e6, e7, e8, e9, e10, e11, e12⟩ := hagree c
  refine ⟨?_, ?_, hrest⟩
  · rw [h1, Cert.ReferenceIdeal.RefStages.resOut_eq, e0, e1, e2, e3, e4, e5, e6, e7, e8, e9, e10, e11, e12]
  · rw [h2, Cert.ReferenceIdeal.RefStages.resA_eq _ _ _ _ _ _ _ (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)),
      e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri, trivial, algebraic⟩

end Cert.Proof

end
